-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥
  ∧ IdealRules.named_const.Statement Cert.KernelIdeal.κ "inv_1000000000000000000000000000000" .f32 0x0DA24260#32 ((1 / 1000000000000000000000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8 : Shape := ⟨1, ![8]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg1 : IVec S8 32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_c_6 : IVec S_ 32 := constantI S_ 32 1#32
  let main_v19 : IVec S8 32 := broadcastInDim S8 ![] bcast_S_S8 main_c_6
  let main_v20 : IVec S8 1 := cmpi .sge main_arg1 main_v19
  let main_c_7 : IVec S_ 1 := constantI S_ 1 1#1
  let main_v21 : IVec S_ 1 := (fun x v => Host.reduce IntOp.andi x v reducesTo_S8_S_d0 h_S_) main_v20 main_c_7
  let main_v22 : IVec S_ 1 := andi main_v18 main_v21
  main_v22

def fn {F : FTy → Type} [FloatOps F] (main_arg0 : FVec F S8x2048x1024 .f32) (main_arg1 : IVec S8 32) (main_arg2 : FVec F S1024x1024 .f32) (main_arg3 : FVec F S1024x1024 .f32) (main_arg4 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg1 main_v13 main_v16
-- ==== Kernel.lean ====
abbrev S8x2048x1024 : Shape := ⟨3, ![8, 2048, 1024]⟩
abbrev S8 : Shape := ⟨1, ![8]⟩
abbrev S1024x1024 : Shape := ⟨2, ![1024, 1024]⟩
abbrev S1024x3072 : Shape := ⟨2, ![1024, 3072]⟩
abbrev S1x512x1024 : Shape := ⟨3, ![1, 512, 1024]⟩
abbrev S512x1024 : Shape := ⟨2, ![512, 1024]⟩
abbrev S512x3072 : Shape := ⟨2, ![512, 3072]⟩
abbrev S1x1024x1024 : Shape := ⟨3, ![1, 1024, 1024]⟩
abbrev S1 : Shape := ⟨1, ![1]⟩
abbrev S1024x1 : Shape := ⟨2, ![1024, 1]⟩
abbrev S1024x512 : Shape := ⟨2, ![1024, 512]⟩
abbrev S1024 : Shape := ⟨1, ![1024]⟩

abbrev nBuf : Space → Nat
  | .hbm => 15
  | .vmem => 20
  | .smem => 1
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x3072, .bf16⟩
  | .hbm, ⟨11, _⟩ => ⟨S8x2048x1024, .bf16⟩
  | .hbm, ⟨12, _⟩ => ⟨S8x2048x1024, .bf16⟩
  | .hbm, ⟨13, _⟩ => ⟨S8x2048x1024, .bf16⟩
  | .hbm, ⟨14, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1024x1, .f32⟩
  | .local _ .vmem, ⟨18, _⟩ => ⟨S1024x1, .f32⟩
  | .local _ .vmem, ⟨19, _⟩ => ⟨S1024x1024, .f32⟩
  | .local _ .smem, ⟨0, _⟩ => ⟨S8, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 2, 4], ![false, false, false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond3 (i : grid1.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_2 : BitVec 32 := 0#32
  let v11 : BitVec 1 := Scalar.cmpi .ne v10 c0_i32_2
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (k1_off1_inb : ∀ i : grid1.Coords, ∀ a, (k1_off1 i) a + S1.size a ≤ S8.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S8) ![v0.toNat] S1.size (k1_off1_inb i)) numel1_S1
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg2 v19
  let c0_i32_5 : BitVec 32 := 0#32
  let c0_i32_6 : BitVec 32 := 0#32
  ![arg0.toNat, v20.toNat, c0_i32_5.toNat]

def cc1_transform_2 (k1_off1_inb : ∀ i : grid1.Coords, ∀ a, (k1_off1 i) a + S1.size a ≤ S8.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S8) ![v0.toNat] S1.size (k1_off1_inb i)) numel1_S1
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg2 v19
  let c0_i32_5 : BitVec 32 := 0#32
  let c0_i32_6 : BitVec 32 := 0#32
  ![arg0.toNat, v20.toNat, c0_i32_5.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  transposes_S1024x1024_S1024x1024_1_0 : S1024x1024.Transposes [1, 0] S1024x1024
  bitsLt_bf16_f32 : FTy.bits .bf16 < FTy.bits .f32
  concatenates_S1024x1024_S1024x1024_S1024x1024_S1024x3072_d1 : Shape.Concatenates [S1024x1024, S1024x1024, S1024x1024] S1024x3072 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  numel1_S1 : S1.numel = 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  iota_S1024x512_d1_w32 : S1024x512.Iotas .tc 32 [1]
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x3072_S512x3072_1_0_0_1_n_n_wf : DotDims.WF S512x1024 S1024x3072 S512x3072 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x2048x1024.size a
  hwx0_2 : ∀ i : grid0.Coords, EltTy.bits .bf16 = 32 ∨ (Rect.block (s := S8x2048x1024) S1x512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x2048x1024.size a
  hwx0_3 : ∀ i : grid0.Coords, EltTy.bits .bf16 = 32 ∨ (Rect.block (s := S8x2048x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x2048x1024.size a
  hwx0_4 : ∀ i : grid0.Coords, EltTy.bits .bf16 = 32 ∨ (Rect.block (s := S8x2048x1024) S1x512x1024.size (cc0_transform_4 i) (hinb0_4 i)).WholeWords (EltTy.packing .bf16)
  hrank1 : 0 < grid1.rank
  k1_off1_inb : ∀ i : grid1.Coords, ∀ a, (k1_off1 i) a + S1.size a ≤ S8.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x1024.size a
  hwx1_0 : ∀ i : grid1.Coords, EltTy.bits .bf16 = 32 ∨ (Rect.block (s := S8x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S8x2048x1024.size a
  hwx1_3 : ∀ i : grid1.Coords, EltTy.bits .f32 = 32 ∨ (Rect.block (s := S8x2048x1024) S1x1024x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_2) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_v7_0) S1x1024x1024.size reads1_0 false false 2 stage1_0 sem1_0 nbuf1_0 hstage1_0

abbrev spec1_1 : Pipeline.WinSpec sig grid1.rank :=
  Pipeline.WinSpec.ofSpec (Memref.whole main_v7_1) S1x512x1024.size reads1_1 false false 2 stage1_1 sem1_1 nbuf1_1 hstage1_1

abbrev spec1_2 : Pipeline.WinSpec sig grid1.rank :=
  Pipeline.WinSpec.ofSpec (Memref.whole main_v7_2) S1x512x1024.size reads1_2 false false 2 stage1_2 sem1_2 nbuf1_2 hstage1_2

abbrev spec1_3 : Pipeline.WinSpec sig grid1.rank :=
  Pipeline.WinSpec.ofSpec (Memref.whole main_v8) S1x1024x1024.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 | 1 => cc1_transform_1 k1_off1_inb numel1_S1 pf | 2 => cc1_transform_2 k1_off1_inb numel1_S1 pf | 3 => cc1_transform_3 | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 pf | 2 => hreads1_2 pf | 3 => hreads1_3 | ⟨_ + 4, h⟩ => absurd h (Nat.not_lt.2 (Nat.le_add_left _ _))
def ok1 (pf : pre1.Contents (Elt F)) : Prop :=
  (∀ i : grid1.Coords, ∃ h : (∀ a, (cc1_transform_1 k1_off1_inb numel1_S1 pf i a + 1) * S1x512x1024.size a ≤ S8x2048x1024.size a), EltTy.bits .bf16 = 32 ∨ (Rect.block (s := S8x2048x1024) S1x512x1024.size (cc1_transform_1 k1_off1_inb numel1_S1 pf i) h).WholeWords (EltTy.packing .bf16)) ∧
  (∀ i : grid1.Coords, ∃ h : (∀ a, (cc1_transform_2 k1_off1_inb numel1_S1 pf i a + 1) * S1x512x1024.size a ≤ S8x2048x1024.size a), EltTy.bits .bf16 = 32 ∨ (Rect.block (s := S8x2048x1024) S1x512x1024.size (cc1_transform_2 k1_off1_inb numel1_S1 pf i) h).WholeWords (EltTy.packing .bf16))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => hinb1_0 | 1 => fun i a => (hok.1 i).elim fun h _ => h a | 2 => fun i a => (hok.2 i).elim fun h _ => h a | 3 => hinb1_3 | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => hwx1_0 | 1 => fun i => (hok.1 i).elim fun _ h => h | 2 => fun i => (hok.2 i).elim fun _ h => h | 3 => hwx1_3 | ⟨_ + 4, h⟩ => absurd h (Nat.not_lt.2 (Nat.le_add_left _ _))
abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S8x2048x1024 : Shape := ⟨3, ![8, 2048, 1024]⟩
abbrev S8 : Shape := ⟨1, ![8]⟩
abbrev S1024x1024 : Shape := ⟨2, ![1024, 1024]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S8x1 : Shape := ⟨2, ![8, 1]⟩
abbrev S8x2048 : Shape := ⟨2, ![8, 2048]⟩
abbrev S8x1x2048 : Shape := ⟨3, ![8, 1, 2048]⟩
abbrev S8x2048x1 : Shape := ⟨3, ![8, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8, .i32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x2048, .f32⟩
  | .hbm, ⟨9, _⟩ => ⟨S_, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S2048, .i32⟩
  | .hbm, ⟨14, _⟩ => ⟨S1x2048, .i32⟩
  | .hbm, ⟨15, _⟩ => ⟨S8x1, .i32⟩
  | .hbm, ⟨16, _⟩ => ⟨S8x2048, .i32⟩
  | .hbm, ⟨17, _⟩ => ⟨S8x2048, .i32⟩
  | .hbm, ⟨18, _⟩ => ⟨S8x2048, .i1⟩
  | .hbm, ⟨19, _⟩ => ⟨S8x1x2048, .i1⟩
  | .hbm, ⟨20, _⟩ => ⟨S_, .f32⟩
  | .hbm, ⟨21, _⟩ => ⟨S_, .f32⟩
  | .hbm, ⟨22, _⟩ => ⟨S8x2048x2048, .i1⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S_, .f32⟩
  | .hbm, ⟨28, _⟩ => ⟨S8x2048, .f32⟩
  | .hbm, ⟨29, _⟩ => ⟨S8x2048, .f32⟩
  | .hbm, ⟨30, _⟩ => ⟨S8x2048x1, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S2048_S1x2048_1 : S2048.BroadcastsInDim S1x2048 (![1] : Fin 1 → Fin S1x2048.rank)
  bcast_S8_S8x1_0 : S8.BroadcastsInDim S8x1 (![0] : Fin 1 → Fin S8x1.rank)
  bcast_S1x2048_S8x2048_0_1 : S1x2048.BroadcastsInDim S8x2048 (![0, 1] : Fin 2 → Fin S8x2048.rank)
  bcast_S8x1_S8x2048_0_1 : S8x1.BroadcastsInDim S8x2048 (![0, 1] : Fin 2 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Region0.lean ====
import proofs.«420942_j40209483825490_2_alg».proof.Proof.Gen.KernelIdeal.Launch
import proofs.«420942_j40209483825490_2_alg».proof.Proof.Gen.KernelIdeal.Skeleton
import proofs.«420942_j40209483825490_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the fused Q/K/V projection, one grid point at a time

The projection kernel reads two blocks whole — a `1 × 512 × 1024` slab of the activations and the
`1024 × 3072` matrix of the three weight matrices side by side — and writes three `1 × 512 × 1024`
blocks whole: the three column thirds of the product (the first third scaled by `2⁻⁵`). This
module states, for arbitrary contents `V` of the core's buffers when the region is entered, what each
of the five windows' staging buffers holds around the body at every grid point, and proves the body's
Hoare triple against those contents.
-/

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the core's buffers at the moment the region starts
variable (V : (c : Dev nD) → (b : Ref sig .tc) → Buf (Elt F) ((c : Thread nD τ).loc b))

/-! ## The five blocks at a grid point -/

/-- The block of window `w` at grid point `t`: the sub-array of the window's array, as the region
    found it, that the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the activations' block at every point. The block index
    moves at every point, so the block is transferred anew each time; the statement is for any
    bookkeeping whose array is the entry contents and whose body leaves the block untouched. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point, although it is
    transferred at the first point only: its block index is constant, and a body that leaves the
    buffer untouched hands the next point the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each buffer whole -/

/-- All of a `1 × 512 × 1024` buffer. -/
abbrev r0_0 : Rect S1x512x1024 := Rect.unit (s := S1x512x1024) ![0, 0, 0] S1x512x1024.size inb_S1x512x1024_S1x512x1024_0_0_0
/-- All of the `1024 × 3072` buffer. -/
abbrev r0_1 : Rect S1024x3072 := Rect.unit (s := S1024x3072) ![0, 0] S1024x3072.size inb_S1024x3072_S1024x3072_0_0

/-! ## What the body leaves in the three output buffers

Each output buffer receives exactly one store, of the whole buffer; what it holds afterwards is that
store's value, a function of the two input blocks alone. -/

/-- The first output (the scaled query projection) from the two input blocks. -/
def out0_2 (x0 : Vec F S1x512x1024 .f32) (x1 : Vec F S1024x3072 .bf16) : Vec F S1x512x1024 .bf16 :=
  View.canon [⟨r0_0, k0_pay2 (View.ld x0 r0_0) (View.ld x1 r0_1)⟩]

/-- The second output (the key projection) from the two input blocks. -/
def out0_3 (x0 : Vec F S1x512x1024 .f32) (x1 : Vec F S1024x3072 .bf16) : Vec F S1x512x1024 .bf16 :=
  View.canon [⟨r0_0, k0_pay3 (View.ld x0 r0_0) (View.ld x1 r0_1)⟩]

/-- The third output (the value projection) from the two input blocks. -/
def out0_4 (x0 : Vec F S1x512x1024 .f32) (x1 : Vec F S1024x3072 .bf16) : Vec F S1x512x1024 .bf16 :=
  View.canon [⟨r0_0, k0_pay4 (View.ld x0 r0_0) (View.ld x1 r0_1)⟩]

/-- One store of the whole buffer covers the buffer: the single rectangle is the only block of a
    tiling by blocks of the buffer's own size. -/
theorem cover0_out (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-! ## The body's triple -/

set_option maxHeartbeats 1000000 in
/-- Run on five whole buffers — the two inputs holding `x0` and `x1`, the three outputs holding
    anything — the projection kernel ends with the inputs unchanged and the outputs holding
    `out0_2`, `out0_3`, `out0_4` of the inputs. The kernel also reads each output buffer before
    storing to it; what it reads there is never used. -/
theorem sound_kernel0 (c : Dev nD) (E : Set ℕ) (i : grid0.Coords)
    (arg0 : Memref sig .tc .vmem S1x512x1024 .f32) (harg0 : arg0.IsWhole) (arg1 : Memref sig .tc .vmem S1024x3072 .bf16) (harg1 : arg1.IsWhole)
    (arg2 : Memref sig .tc .vmem S1x512x1024 .bf16) (harg2 : arg2.IsWhole) (arg3 : Memref sig .tc .vmem S1x512x1024 .bf16) (harg3 : arg3.IsWhole)
    (arg4 : Memref sig .tc .vmem S1x512x1024 .bf16) (harg4 : arg4.IsWhole)
    (x0 : Vec F S1x512x1024 .f32) (x1 : Vec F S1024x3072 .bf16) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1
            ∗ owns (c : Thread nD τ) arg2 fullShare (out0_2 x0 x1) ∗ owns (c : Thread nD τ) arg3 fullShare (out0_3 x0 x1)
            ∗ owns (c : Thread nD τ) arg4 fullShare (out0_4 x0 x1)) -∗ K ⟨⟩))
      ⊢ wp frame (wpE (defs₀ (F := F)) Variants.none c none) E (cc0__qkv_proj_kernel i arg0 harg0 arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_out _)
  isplitl [H3]
  · iexists _; isplitr
    swap; · iexact H3
    ipureintro
    exact View.read_writes_eq_canon _ _ _ (cover0_out _)
  iexists _; isplitr
  swap; · iexact H4
  ipureintro
  exact View.read_writes_eq_canon _ _ _ (cover0_out _)

/-! ## The region's bookkeeping -/

/-- The bookkeeping of the projection's pipeline on core `c`: every window's array as the region
    found it; after the body at point `t` the two input buffers still at their blocks and the three
    output buffers at the projections of those blocks; the invariant is the rest of the core's
    state, untouched; nothing is owed, and every buffer is held in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The bookkeeping's arrays are the entry contents. -/
theorem A_eq0 (c : Dev nD) (w : Fin cfg0.W) : (dat0 V c).A w = V c (Pipeline.arrRef spec0 w) := by
  dsimp only [dat0]

/-- What the body leaves in each window's buffer, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Before the body at any point, each input's staging buffer holds that input's block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation at an arbitrary point -/

/-- What the body is given at point `t`: the invariant, the core's debts, and each window's current
    staging buffer at what the bookkeeping says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body gives back: the same, each buffer at what the bookkeeping says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the two input buffers hold their blocks, so the kernel's triple applies;
    the invariant and the debts are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on its body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.Body1Spec.lean ====
/-
  What one grid point of the attention region does to the row state it carries in scratch, as pure functions.

  The region walks the grid (batch b, query tile qi, key tile ki).  In scratch it carries, for the 1024 query
  rows of the tile, the running maximum m, the running denominator l and the running numerator acc.  At ki = 0
  the state is reset (m = −∞, l = 0, acc = 0); the tile of 512 keys is folded in when its first key position
  ki·512 lies below the sequence's length; at ki = 3 the quotient acc / max(l, ε) is stored to the output block.
-/
import proofs.«420942_j40209483825490_2_alg».proof.Proof.Gen.KernelIdeal.Skeleton
import Idealize.ShloMosaic.Lib.ValueIdx

noncomputable section

namespace Cert.KernelIdeal.R1

open Idealize.ShloMosaic Idealize.SL.Sem Cert.KernelIdeal Cert.KernelIdeal.Gen

variable {F : FTy → Type} [FloatOps F] [Named F]

/-- The row state carried in scratch: running maximum, running denominator, running numerator. -/
abbrev Scr (F : FTy → Type) [FloatOps F] : Type := Vec F S1024x1 .f32 × Vec F S1024x1 .f32 × Vec F S1024x1024 .f32

/-- The state a new row of key tiles starts from. -/
def scrInit : Scr F := (k1_pay1, k1_pay2, k1_pay3)

/-- One key tile folded into the state: `ki` the tile's number as a word, `len` the sequence's length as a word,
    `q` the query block, `k` and `v` the key and value blocks. -/
def scrStep (ki : BitVec 32) (len : Elt F .i32) (q : Vec F S1x1024x1024 .bf16) (k v : Vec F S1x512x1024 .bf16) (s : Scr F) : Scr F :=
  (k1_pay5 (k1_pay8 ki len q k s.1),
   k1_pay11 ki len q k s.1 s.1 s.2.1,
   k1_pay4 (k1_pay12 ki len q k s.1 s.1 s.2.2) (k1_pay13 ki len q k s.1) v)

/-- The output block written after the last key tile. -/
def outFin (s : Scr F) : Vec F S1x1024x1024 .f32 := k1_pay6 s.2.1 s.2.2

/-- The length word of the batch entry a grid point belongs to: the table's entry at the point's batch coordinate. -/
def lenAt (tbl : Vec F S8 .i32) (i : grid1.Coords) : BitVec 32 :=
  tbl (ValueIdx.ix1 (⟨(i 0).val, (i 0).isLt⟩ : Fin 8))

/-- The tile at grid point `i` is folded in: its first key position, as a signed word, is below the length. -/
def liveW (i : grid1.Coords) (len : BitVec 32) : Prop :=
  Scalar.cmpi .ne (Scalar.extui (Scalar.cmpi .slt (Scalar.muli (BitVec.ofNat 32 (i 2).val) 512#32) len)) 0#32 = 1#1

instance (i : grid1.Coords) (len : BitVec 32) : Decidable (liveW i len) := by unfold liveW; infer_instance

/-- The point is the first key tile of its row of tiles. -/
def firstW (i : grid1.Coords) : Prop :=
  Scalar.cmpi .ne (Scalar.extui (Scalar.cmpi .eq (BitVec.ofNat 32 (i 2).val) 0#32)) 0#32 = 1#1

instance (i : grid1.Coords) : Decidable (firstW i) := by unfold firstW; infer_instance

/-- The state after the body at grid point `i`, from the state `s` before it. -/
def scrNext (i : grid1.Coords) (len : BitVec 32) (q : Vec F S1x1024x1024 .bf16) (k v : Vec F S1x512x1024 .bf16) (s : Scr F) : Scr F :=
  let s1 : Scr F := if firstW i then scrInit else s
  if liveW i len then scrStep (BitVec.ofNat 32 (i 2).val) len q k v s1 else s1

/-- The output staging block after the body at grid point `i`: the quotient at the last key tile, else untouched. -/
def outNext (i : grid1.Coords) (len : BitVec 32) (q : Vec F S1x1024x1024 .bf16) (k v : Vec F S1x512x1024 .bf16) (s : Scr F)
    (o : Vec F S1x1024x1024 .f32) : Vec F S1x1024x1024 .f32 :=
  if k1_cond3 i = 1#1 then outFin (scrNext i len q k v s) else o

end Cert.KernelIdeal.R1

end
-- ==== Proof.Dat1.lean ====
/-
  The proof data of the attention region (pipeline 1) on one core, at the region-entry contents `V` of the core's
  buffers and at admissible contents `a` of the prefetched length table.

  The grid's 64 points are (batch b, query tile qi, key tile ki), ki fastest.  The three input windows (the query block,
  the key block, the value block) are only read: each holds the block of its last fetch.  The scratch triple
  (m, l, acc) after point n is `scrAt n`: the body's state function `scrNext` applied to the state after point n − 1
  (the first point of a row of key tiles resets the state, so nothing is assumed of the scratch there).  The output
  window is stored only at the last key tile of a row, where it receives acc / max(l, ε); elsewhere it is idle.
-/
import proofs.«420942_j40209483825490_2_alg».proof.Proof.Gen.KernelIdeal.Launch
import proofs.«420942_j40209483825490_2_alg».proof.Proof.Gen.KernelIdeal.Skeleton
import proofs.«420942_j40209483825490_2_alg».proof.Proof.Gen.KernelIdeal.Points
import proofs.«420942_j40209483825490_2_alg».proof.Proof.Body1Spec
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

/-- The windows' arrays as the region finds them. -/
abbrev A1 (c : Dev nD) (w : Fin (cfg1 a).W) : Buf (Elt F) (((cfg1 a).win w).arr.view.loc (c.tc : Thread nD τ)) :=
  V c (Pipeline.arrRef spec1 w)

/-- The query block the body finds at point `n`: the block of the window's last fetch. -/
def qAt (c : Dev nD) (n : ℕ) (h : n < (cfg1 a).N) : Vec F S1x1024x1024 .bf16 := Pipeline.heldIn (cfg1 a) (A1 a V c) 0 n h
/-- The key block the body finds at point `n`. -/
def kAt (c : Dev nD) (n : ℕ) (h : n < (cfg1 a).N) : Vec F S1x512x1024 .bf16 := Pipeline.heldIn (cfg1 a) (A1 a V c) 1 n h
/-- The value block the body finds at point `n`. -/
def vAt (c : Dev nD) (n : ℕ) (h : n < (cfg1 a).N) : Vec F S1x512x1024 .bf16 := Pipeline.heldIn (cfg1 a) (A1 a V c) 2 n h

/-- The length word the body loads at point `t`. -/
def lenP (t : Fin (cfg1 a).N) : BitVec 32 := lenAt (a.1 0) ((cfg1 a).grid.coords t)

/-- The scratch state after the body at point `n`. -/
def scrAt (c : Dev nD) : (n : ℕ) → n < (cfg1 a).N → Scr F
  | 0, h => scrNext ((cfg1 a).grid.coords ⟨0, h⟩) (lenP a ⟨0, h⟩) (qAt a V c 0 h) (kAt a V c 0 h) (vAt a V c 0 h) scrInit
  | n + 1, h => scrNext ((cfg1 a).grid.coords ⟨n + 1, h⟩) (lenP a ⟨n + 1, h⟩) (qAt a V c (n + 1) h) (kAt a V c (n + 1) h) (vAt a V c (n + 1) h)
      (scrAt c n (Nat.lt_of_succ_lt h))

/-- The core's scoped buffers that are neither a staging buffer of this region nor its scratch: the other
    region's staging buffers, each whole at some contents. -/
def restNoScr (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The scratch triple held at the state `s`. -/
def scrHeld (c : Dev nD) (s : Scr F) : sProp 𝕄 :=
  iprop(owns (c : Thread nD τ) (Memref.whole cc1_scratch0) fullShare s.1
    ∗ owns (c : Thread nD τ) (Memref.whole cc1_scratch1) fullShare s.2.1
    ∗ owns (c : Thread nD τ) (Memref.whole cc1_scratch2) fullShare s.2.2)

/-- The region's invariant before point `t`: the other region's staging buffers and the generator register untouched, the
    length table held whole at its contents, and the scratch at the state the point before left (before the first
    point: at anything). -/
def Φ1 (c : Dev nD) (t : Fin ((cfg1 a).N + 1)) : sProp 𝕄 :=
  iprop(restNoScr (F := F) c ∗ (∃ r, prngReg c r) ∗ Pipeline.prefHeld pre1 c (fun _ => fullShare) a.1
    ∗ ∃ s : Scr F, ⌜t.val ≠ 0 → ∃ h : t.val - 1 < (cfg1 a).N, s = scrAt a V c (t.val - 1) h⌝ ∗ scrHeld c s)

/-- The proof data of pipeline 1 on core `c`. -/
def dat1 (c : Dev nD) : Dat τ (Elt F) Unit ℕ (UR sig nD τ) ℕ (cfg1 a) c where
  A w := V c (Pipeline.arrRef spec1 w)
  after w t := match w with
    | ⟨0, _⟩ => qAt a V c t.val t.isLt
    | ⟨1, _⟩ => kAt a V c t.val t.isLt
    | ⟨2, _⟩ => vAt a V c t.val t.isLt
    | ⟨3, _⟩ => outFin (scrAt a V c t.val t.isLt)
  Φ t := Φ1 a V c t
  q _ := fullShare
  owed _ := 0

theorem A_eq1 (c : Dev nD) (w : Fin (cfg1 a).W) : (dat1 a V c).A w = V c (Pipeline.arrRef spec1 w) := by
  dsimp only [dat1]

theorem after1_0 (c : Dev nD) (t : Fin (cfg1 a).N) : (dat1 a V c).after 0 t = qAt a V c t.val t.isLt := by dsimp only [dat1]; rfl
theorem after1_1 (c : Dev nD) (t : Fin (cfg1 a).N) : (dat1 a V c).after 1 t = kAt a V c t.val t.isLt := by dsimp only [dat1]; rfl
theorem after1_2 (c : Dev nD) (t : Fin (cfg1 a).N) : (dat1 a V c).after 2 t = vAt a V c t.val t.isLt := by dsimp only [dat1]; rfl
theorem after1_3 (c : Dev nD) (t : Fin (cfg1 a).N) : (dat1 a V c).after 3 t = outFin (scrAt a V c t.val t.isLt) := by dsimp only [dat1]; rfl

end Cert.KernelIdeal.R1

end
-- ==== Proof.Inv1.lean ====
/-
  The two ends of the attention region's invariant.

  Before the first grid point the core holds, besides the generator register and the length table, every scoped
  buffer that is no staging buffer of this region, each whole at some contents: nine staging buffers of the projection
  region and the three scratch buffers.  The invariant before the first point asks nothing of the scratch state, so
  whatever the three scratch buffers hold serves as the state.  After the last point the state is forgotten again and
  the twelve buffers are given back, each at some contents.
-/
import proofs.«420942_j40209483825490_2_alg».proof.Proof.Dat1
import Idealize.ShloMosaic.Lib.Memref

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

/-- The invariant before the first point, from the scoped rest, the generator register and the table. -/
theorem hin1 (c : Dev nD) :
    iprop((∃ r, prngReg c r) ∗ Pipeline.prefHeld pre1 c (fun _ => fullShare) a.1 ∗ Pipeline.scopedRest (Ix := Unit) (Name := ℕ) (U := UR sig nD τ) (Lvl := ℕ) (Val := Elt F) spec1 c)
      ⊢ (dat1 a V c).Φ 0 := by
  rw [scopedRest1_eq c, show (dat1 a V c).Φ 0 = Φ1 a V c 0 from rfl]
  unfold Φ1 restNoScr scrHeld
  simp only [owns_whole]
  iintro ⟨Hp, Ht, H0, H1, H2, H3, H4, H5, H6, H7, H8, ⟨%f0, S0⟩, ⟨%f1, S1⟩, ⟨%f2, S2⟩⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hp]; · iexact Hp
  isplitl [Ht]; · iexact Ht
  iexists ((f0, f1, f2) : Scr F)
  isplitr
  · ipureintro
    intro h
    exact absurd rfl h
  isplitl [S0]; · iexact S0
  isplitl [S1]; · iexact S1
  iexact S2

/-- The invariant after the last point gives the generator register, the table and the scoped rest back. -/
theorem hout1 (c : Dev nD) :
    (dat1 a V c).Φ (Fin.last (cfg1 a).N)
      ⊢ iprop(((∃ r, prngReg c r) ∗ Pipeline.prefHeld pre1 c (fun _ => fullShare) a.1) ∗ Pipeline.scopedRest (Ix := Unit) (Name := ℕ) (U := UR sig nD τ) (Lvl := ℕ) (Val := Elt F) spec1 c) := by
  rw [scopedRest1_eq c, show (dat1 a V c).Φ (Fin.last (cfg1 a).N) = Φ1 a V c (Fin.last (cfg1 a).N) from rfl]
  unfold Φ1 restNoScr scrHeld
  simp only [owns_whole]
  iintro ⟨⟨H0, H1, H2, H3, H4, H5, H6, H7, H8⟩, Hp, Ht, ⟨%s, %hs, S0, S1, S2⟩⟩
  isplitl [Hp Ht]
  · isplitl [Hp]; · iexact Hp
    iexact Ht
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexists s.1; iexact S0
  isplitl [S1]; · iexists s.2.1; iexact S1
  iexists s.2.2
  iexact S2

end Cert.KernelIdeal.R1

end
-- ==== Proof.Run.lean ====
/-
  The run of the whole program: @main is a stretch of host operations (three transposes, three format changes and a
  concatenation that build the fused weight), then the projection region, then the attention region.  Between two
  items the core holds every unscoped buffer at the contents of a fold through @main: the launch memory, then the
  host operations' results, then after each region its windows' arrays at what its write-backs leave.  The fold's
  last stage gives the result buffer (the attention region's output array after all its write-backs) and, walked back
  to the launch, every argument unchanged.
-/
import proofs.«420942_j40209483825490_2_alg».proof.Proof.Gen.KernelIdeal.Regions
import proofs.«420942_j40209483825490_2_alg».proof.Proof.Region0
import proofs.«420942_j40209483825490_2_alg».proof.Proof.Dat1
import proofs.«420942_j40209483825490_2_alg».proof.Proof.Inv1

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.R0 Cert.KernelIdeal.R1

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (a1 : (pcfg1 (F := F)).Adm)

/-! ## The buffer contents at each boundary -/

/-- Core `c`'s buffers at launch. -/
abbrev W0 : Dev nD → Valuation τ sig (Elt F) := fun c b => m ((c : Dev nD), b)
/-- After the host operations (the projection region's entry). -/
abbrev W1 : Dev nD → Valuation τ sig (Elt F) := fun c => StableHlo.after hostOps0 (W0 m c)
abbrev VA : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (VA m) c).arrAt w cfg0.N
theorem W2_arr (c : Dev nD) (w : Fin cfg0.W) :
    W2 m c (Proc.devRef .tc (Pipeline.arrRef spec0 w)) = (dat0 (VA m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VB : (c : Dev nD) → (b : Ref sig .tc) → Buf (Elt F) ((c : Thread nD τ).loc b) := fun c b => W2 m c b
theorem hF0 (c : Dev nD) (w : Fin cfg0.W) : (dat0 (VA m) c).arrAt w cfg0.N = VB m c (Pipeline.arrRef spec0 w) :=
  (W2_arr m c w).symm
theorem hrest0 (c : Dev nD) : ∀ b, b ∉ Finset.univ.image (Pipeline.arrRef spec0) → VB m c b = VA m c b :=
  fun b hb => W2_of_ne m c b fun w e => hb (Finset.mem_image.mpr ⟨w, Finset.mem_univ _, e⟩)

/-- At the attention region's exit. -/
def W3 (c : Dev nD) : Valuation τ sig (Elt F) :=
  Pipeline.withArrays spec1 c (W2 m c) fun w => (dat1 a1 (VB m) c).arrAt w (cfg1 a1).N
theorem W3_arr (c : Dev nD) (w : Fin (cfg1 a1).W) :
    W3 m a1 c (Proc.devRef .tc (Pipeline.arrRef spec1 w)) = (dat1 a1 (VB m) c).arrAt w (cfg1 a1).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m a1 c (Proc.devRef .tc b) = W2 m c (Proc.devRef .tc b) := by
  unfold W3; exact Pipeline.withArrays_of_ne spec1 c _ _ b hb
abbrev VC : (c : Dev nD) → (b : Ref sig .tc) → Buf (Elt F) ((c : Thread nD τ).loc b) := fun c b => W3 m a1 c b
theorem hF1 (c : Dev nD) (w : Fin (cfg1 a1).W) : (dat1 a1 (VB m) c).arrAt w (cfg1 a1).N = VC m a1 c (Pipeline.arrRef spec1 w) :=
  (W3_arr m a1 c w).symm
theorem hrest1 (c : Dev nD) : ∀ b, b ∉ Finset.univ.image (Pipeline.arrRef spec1) → VC m a1 c b = VB m c b :=
  fun b hb => W3_of_ne m a1 c b fun w e => hb (Finset.mem_image.mpr ⟨w, Finset.mem_univ _, e⟩)

/-! ## The arguments end as launched, the result at the attention region's last write-backs -/

theorem W1_of (c : Dev nD) (r : Ref sig .tc) (h : r ∉ hostOps0_W) : W1 m c (Proc.devRef .tc r) = m ((c : Thread nD τ).loc r) :=
  (Gen.V1_of m c r h).trans rfl

theorem W3_main_arg0 (c : Dev nD) : W3 m a1 c (Proc.devRef .tc main_arg0) = m ((c : Thread nD τ).loc main_arg0) :=
  calc W3 m a1 c (Proc.devRef .tc main_arg0)
    _ = W2 m c (Proc.devRef .tc main_arg0) := W3_of_ne m a1 c main_arg0 (by decide)
    _ = W1 m c (Proc.devRef .tc main_arg0) := (W2_arr m c 0).trans (((dat0 (VA m) c).arrAt_in 0 rfl _).trans (A_eq0 (VA m) c 0))
    _ = m ((c : Thread nD τ).loc main_arg0) := W1_of m c main_arg0 (by decide)
theorem W3_main_arg1 (c : Dev nD) : W3 m a1 c (Proc.devRef .tc main_arg1) = m ((c : Thread nD τ).loc main_arg1) :=
  calc W3 m a1 c (Proc.devRef .tc main_arg1)
    _ = W2 m c (Proc.devRef .tc main_arg1) := W3_of_ne m a1 c main_arg1 (by decide)
    _ = W1 m c (Proc.devRef .tc main_arg1) := W2_of_ne m c main_arg1 (by decide)
    _ = m ((c : Thread nD τ).loc main_arg1) := W1_of m c main_arg1 (by decide)
theorem W3_main_arg2 (c : Dev nD) : W3 m a1 c (Proc.devRef .tc main_arg2) = m ((c : Thread nD τ).loc main_arg2) :=
  calc W3 m a1 c (Proc.devRef .tc main_arg2)
    _ = W2 m c (Proc.devRef .tc main_arg2) := W3_of_ne m a1 c main_arg2 (by decide)
    _ = W1 m c (Proc.devRef .tc main_arg2) := W2_of_ne m c main_arg2 (by decide)
    _ = m ((c : Thread nD τ).loc main_arg2) := W1_of m c main_arg2 (by decide)
theorem W3_main_arg3 (c : Dev nD) : W3 m a1 c (Proc.devRef .tc main_arg3) = m ((c : Thread nD τ).loc main_arg3) :=
  calc W3 m a1 c (Proc.devRef .tc main_arg3)
    _ = W2 m c (Proc.devRef .tc main_arg3) := W3_of_ne m a1 c main_arg3 (by decide)
    _ = W1 m c (Proc.devRef .tc main_arg3) := W2_of_ne m c main_arg3 (by decide)
    _ = m ((c : Thread nD τ).loc main_arg3) := W1_of m c main_arg3 (by decide)
theorem W3_main_arg4 (c : Dev nD) : W3 m a1 c (Proc.devRef .tc main_arg4) = m ((c : Thread nD τ).loc main_arg4) :=
  calc W3 m a1 c (Proc.devRef .tc main_arg4)
    _ = W2 m c (Proc.devRef .tc main_arg4) := W3_of_ne m a1 c main_arg4 (by decide)
    _ = W1 m c (Proc.devRef .tc main_arg4) := W2_of_ne m c main_arg4 (by decide)
    _ = m ((c : Thread nD τ).loc main_arg4) := W1_of m c main_arg4 (by decide)
/-- The table as the attention region finds it is the launch's. -/
theorem VB_main_arg1 (c : Dev nD) : VB m c main_arg1 = m ((c : Thread nD τ).loc main_arg1) :=
  (W2_of_ne m c main_arg1 (by decide)).trans (W1_of m c main_arg1 (by decide))
/-- The result buffer at the end. -/
theorem W3_main_v8 (c : Dev nD) : W3 m a1 c (Proc.devRef .tc main_v8) = (dat1 a1 (VB m) c).arrAt 3 (cfg1 a1).N :=
  W3_arr m a1 c 3

/-! ## The proof data family and the thread state -/

/-- The admissible contents of each pipeline's tables: the projection has none, the attention region's are `a1`. -/
def adm : (p : Fin 2) → (pcfgs (F := F) p).Adm
  | ⟨0, _⟩ => cfg0.toPCfg_adm
  | ⟨1, _⟩ => a1

/-- Every pipeline's proof data, each at its region's entry contents. -/
def pdats : (p : Fin 2) → (c : Dev nD) → Dat τ (Elt F) Unit ℕ (UR sig nD τ) ℕ (Pipeline.pin (pcfgs (F := F)) (adm a1) p) c
  | ⟨0, _⟩ => fun c => dat0 (VA m) c
  | ⟨1, _⟩ => fun c => dat1 a1 (VB m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m a1 c) ∗ ∃ r, prngReg c r)

/-! ## The regions as segments -/

set_option backward.isDefEq.respectTransparency.types false in
/-- The projection region: entered from every unscoped buffer at `W1`, left at `W2`. -/
def reg0 : Pipeline.RegionSeg (pcfgs (F := F)) (adm a1) (pdats m a1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) (adm a1) (pdats m a1) (launch0 (F := F)).win (launch0 (F := F)).arr_whole c
      ((pdats m a1 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a1) (Ix := Unit) (Name := ℕ) (U := UR sig nD τ) (Lvl := ℕ)
      (launch0 (F := F)).win (launch0 (F := F)).arr_whole c (pdats m a1) ((pdats m a1 0 c).share_full fun _ => rfl)
      (VA m c) (VB m c) ((pdats m a1 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (hpf : ∀ c : Dev nD, (fun k => VB m c (pre1.ref k)) = a1.1)
variable (hb1 : ∀ c : Dev nD, BodyObligation (dat1 (F := F) a1 (VB m) c) (defs₀ (F := F)) Variants.none () Set.univ)

set_option backward.isDefEq.respectTransparency.types false in
/-- The attention region: entered from every unscoped buffer at `W2`, left at `W3`.  Its arrays and its length table
    split out of the unscoped buffers at entry; the table and the generator register go through the invariant and
    come back; at the exit the arrays at their final contents, the table and the rest make every unscoped buffer at `W3`. -/
def reg1 : Pipeline.RegionSeg (pcfgs (F := F)) (adm a1) (pdats m a1) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m a1 c ∗ ∃ W, owes (c : Thread nD τ) (0 : CellTallies nD τ sig Unit) W)
  X c := iprop(∃ r, prngReg c r)
  Y c := iprop((∃ r, prngReg c r) ∗ Pipeline.prefHeld pre1 c (fun _ => fullShare) a1.1)
  Z c := Pipeline.unscopedRestP (Ix := Unit) (Name := ℕ) (U := UR sig nD τ) (Lvl := ℕ) pre1 spec1 c (VB m c)
  hentry c := by
    rw [Pipeline.ownSems0_none]
    have hsplit := Pipeline.arrays_of_unscopedBufs (p := 1) (pcfgs (F := F)) (adm a1) (pdats m a1) (launch1 (F := F)).win (launch1 (F := F)).arr_whole c
      ((pdats m a1 1 c).share_full fun _ => rfl) (VB m c) fun _ => rfl
    have e : (Pipeline.unscopedRest (Ix := Unit) (Name := ℕ) (U := UR sig nD τ) (Lvl := ℕ) (Pipeline.pin (pcfgs (F := F)) (adm a1) 1).spec c (VB m c) : sProp 𝕄)
        = iprop(Pipeline.prefHeld pre1 c (fun _ => fullShare) a1.1 ∗ Pipeline.unscopedRestP pre1 spec1 c (VB m c)) := by
      rw [← hpf c]; exact Pipeline.unscopedRest_split (win := spec1) preFacts1 c (VB m c)
    rw [Pipeline.unscopedBufs_held, e] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 a1 (VB m) c
  hout c := by
    rw [Pipeline.ownSems0_none]
    refine (hout1 a1 (VB m) c).trans ?_
    iintro ⟨HY, Hr⟩
    isplitl [HY]; · iexact HY
    isplitr; · iempintro
    iexact Hr
  hexit c := by
    have hjoin := Pipeline.unscopedBufs_of_arrays (p := 1) (pcfgs (F := F)) (adm a1) (Ix := Unit) (Name := ℕ) (U := UR sig nD τ) (Lvl := ℕ)
      (launch1 (F := F)).win (launch1 (F := F)).arr_whole c (pdats m a1) ((pdats m a1 1 c).share_full fun _ => rfl)
      (VB m c) (VC m a1 c) ((pdats m a1 1 c).arrAt · (cfg1 a1).N) (hF1 m a1 c) (hrest1 m a1 c)
    have e : (Pipeline.unscopedRest (Ix := Unit) (Name := ℕ) (U := UR sig nD τ) (Lvl := ℕ) (Pipeline.pin (pcfgs (F := F)) (adm a1) 1).spec c (VB m c) : sProp 𝕄)
        = iprop(Pipeline.prefHeld pre1 c (fun _ => fullShare) a1.1 ∗ Pipeline.unscopedRestP pre1 spec1 c (VB m c)) := by
      rw [← hpf c]; exact Pipeline.unscopedRest_split (win := spec1) preFacts1 c (VB m c)
    rw [Pipeline.unscopedBufs_held, e] at hjoin
    iintro ⟨Ha, HO, ⟨Hp, Ht⟩, Hrest⟩
    imodintro
    isplitl [Ha Hrest Ht Hp]
    · isplitl [Ha Hrest Ht]
      · iapply hjoin
        isplitl [Ha]; · iexact Ha
        isplitl [Ht]; · iexact Ht
        iexact Hrest
      iexact Hp
    unfold Pipeline.Dat.owesAt Pipeline.owesWithin
    icases HO with ⟨%W, -, HO⟩; iexists W; iexact HO

/-! ## @main as segments, and the launch -/

/-- @main's three segments in order: the host stretch from the launch contents, then the two regions. -/
abbrev segs : List (Pipeline.Seg (pcfgs (F := F)) (adm a1) (pdats m a1) () defs₀ 𝒱₀ L lv) :=
  [ .host (hseg hostOps0 hostOps0_sub hostOps0_fresh (W0 m)),
    .region (reg0 m a1),
    .region (reg1 m a1 hpf hb1) ]

/-- @main is the run of the segments. -/
theorem main_run (c : Dev nD) : main (F := F) c = Pipeline.Seg.run (segs m a1 hpf hb1) := (main_chain c).trans (by chain_rfl)

include hpf hb1 in
set_option backward.isDefEq.respectTransparency.types false in
/-- From any memory with zero counters every weakly fair execution of @main terminates, nothing faulting; the result
    buffer ends at the attention region's output array after all its write-backs and every argument ends as launched. -/
theorem run : θ_run defs (onTc (τ := τ) (main (F := F))) ⟨m, fun _ => 0, ρ⟩ (fun r => ∀ c : Dev nD,
      r.2.mem ((c.tc : Thread nD τ).loc main_v8) = (dat1 a1 (VB m) c).arrAt 3 (cfg1 a1).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) (adm a1) (pdats m a1) () (cellOf_inj (adm a1)) emb₁ defs₀ 𝒱₀ L lv m ρ main (segs m a1 hpf hb1)
    (fun c Q => by rw [main_run m a1 hpf hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a1)) (cellOf_inj (adm a1))) (Pipeline.launchToks (Pipeline.pin (pcfgs (F := F)) (adm a1)) (cellOf_inj (adm a1))))
    (hu₀ := by
      iintro Hu; imodintro
      isplitl [Hu]
      · iapply (show (ownU (initOf (Pipeline.cells (Pipeline.pin (pcfgs (F := F)) (adm a1)) (cellOf_inj (adm a1))) (Pipeline.launchToks (Pipeline.pin (pcfgs (F := F)) (adm a1)) (cellOf_inj (adm a1)))) : sProp 𝕄)
            ⊢ BI.own (emb₁ (initOf (Pipeline.cells (Pipeline.pin (pcfgs (F := F)) (adm a1)) (cellOf_inj (adm a1))) (Pipeline.launchToks (Pipeline.pin (pcfgs (F := F)) (adm a1)) (cellOf_inj (adm a1))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m a1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m a1 c b)
    (hfin := fun c s' => by
      iintro ⟨⟨Hh, -⟩, HSI⟩
      unfold StableHlo.held
      imodintro
      iapply (pointsTo_read_all (Pipeline.ucRefs τ sig) (fun b => (((c : Thread nD τ)).1, b)) (W3 m a1 c) s')
      isplitl [Hh] <;> iassumption)
    (hQ := fun s h c =>
      ⟨(h c _ (mem_uc main_v8 (by decide))).trans (W3_main_v8 m a1 c),
       (h c _ (mem_uc main_arg0 (by decide))).trans (W3_main_arg0 m a1 c),
       (h c _ (mem_uc main_arg1 (by decide))).trans (W3_main_arg1 m a1 c),
       (h c _ (mem_uc main_arg2 (by decide))).trans (W3_main_arg2 m a1 c),
       (h c _ (mem_uc main_arg3 (by decide))).trans (W3_main_arg3 m a1 c),
       (h c _ (mem_uc main_arg4 (by decide))).trans (W3_main_arg4 m a1 c)⟩)

end Cert.KernelIdeal.Run

end
-- ==== Proof.Body1Aux.lean ====
/-
  Whole-buffer facts the attention region's body triple rests on.

  Every vector access of the body is through the rectangle that is the whole shape of its buffer: a store through
  it, made last, leaves exactly the stored vector; a load through it reads what the buffer holds, or the vector
  the latest such store left.  The one scalar access is the length word: the table's entry at the grid point's
  batch coordinate.
-/
import proofs.«420942_j40209483825490_2_alg».proof.Proof.Body1Spec
import Idealize.ShloMosaic.Lib.WholeRead
import Idealize.ShloMosaic.Lib.Pipeline.Value
import Idealize.ShloMosaic.Lib.Pipeline.FrameBody
import Idealize.ShloMosaic.Lib.Tactic

set_option maxRecDepth 16384

noncomputable section

namespace Cert.KernelIdeal.R1

open Cert.KernelIdeal Cert.KernelIdeal.Gen Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## A whole-buffer rectangle: what a store through it leaves, what a load through it reads -/

section Whole

variable {S : Shape} {e : EltTy} {sp : Space}

/-- A piece over the whole shape covers every index, whatever pieces follow it. -/
theorem cover_whole_cons {off : Fin S.rank → Nat} (hz : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set := by
  subst hz
  refine ⟨_, List.mem_cons_self, ?_⟩
  show y ∈ (Rect.whole S).set
  rw [Rect.set_whole]; exact Finset.mem_univ y

/-- After a store of a vector through the whole shape, made last, the buffer reads that vector. -/
theorem read_store_whole (m : Memref sig .tc sp S e) {off : Fin S.rank → Nat} (hz : off = fun _ => 0)
    (inb : ∀ a, off a + S.size a ≤ S.size a) (f : m.view.ty.Contents (Elt F)) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (cover_whole_cons hz inb w L), View.canon_cons_unit_zero hz]

/-- A load through the whole shape of a whole buffer reads what the buffer reads. -/
theorem readAt_whole (m : Memref sig .tc sp S e) (hm : m.IsWhole) {off : Fin S.rank → Nat} (hz : off = fun _ => 0)
    (inb : ∀ a, off a + S.size a ≤ S.size a) (X : S.Idx → Elt F e) :
    m.view.readAt (Elt F) (Rect.unit off S.size inb).toLoadRect (hm.unread X) = X := by
  rw [View.readAt_eq_ld, hm.read_unread, View.ld_unit_zero hz]

/-- A load through the whole shape after such a store reads the stored vector. -/
theorem readCov_whole_cons (m : Memref sig .tc sp S e) {off : Fin S.rank → Nat} (hz : off = fun _ => 0)
    (inb inb' : ∀ a, off a + S.size a ≤ S.size a) (w : S.Idx → Elt F e) (L : List (View.Piece (Elt F) S e)) :
    m.view.readCov ((⟨Rect.unit off S.size inb, w⟩ : View.Piece (Elt F) S e) :: L) (Rect.unit off S.size inb').toLoadRect = w := by
  rw [View.readCov_eq_canon_ld _ _ _ (cover_whole_cons hz inb w L), View.canon_cons_unit_zero hz, View.ld_unit_zero hz]

end Whole

theorem z2 : (![0, 0] : Fin 2 → Nat) = fun _ => 0 := by funext a; fin_cases a <;> rfl
theorem z3 : (![0, 0, 0] : Fin 3 → Nat) = fun _ => 0 := by funext a; fin_cases a <;> rfl

/-! ## The length word -/

/-- The word the body loads from the table is the table's entry at the point's batch coordinate. -/
theorem word_eq (i : grid1.Coords) (arg3 : Memref sig .tc .smem S8 .i32) (harg3 : arg3.IsWhole) (tbl : Vec F S8 .i32)
    (inb : ∀ a, k1_off1 i a + (![1] : Fin 1 → Nat) a ≤ S8.size a)
    (x : (Rect.unit (s := S8) (k1_off1 i) ![1] inb).toLoadRect.shape.Idx) :
    arg3.view.readAt (Elt F) (Rect.unit (s := S8) (k1_off1 i) ![1] inb).toLoadRect (harg3.unread tbl) x = lenAt tbl i := by
  rw [harg3.readAt_unread]
  unfold lenAt
  congr 1
  funext d
  match d with
  | ⟨0, _⟩ =>
    apply Fin.ext
    have h8 : (i 0).val < 8 := (i 0).isLt
    have hx : (x 0).val = 0 := by have := (x 0).isLt; simpa using this
    show (BitVec.ofNat 32 (i 0).val).toNat + 1 * (x 0).val = (i 0).val
    rw [hx, BitVec.toNat_ofNat, Nat.mod_eq_of_lt (by omega)]; rfl

end Cert.KernelIdeal.R1

end
-- ==== Proof.Body1CaseTTT.lean ====
/-
  The attention region's body at a grid point that is the first key tile, folded in, the last key tile.

  The row state is reset to (−∞, 0, 0) first.  The tile of 512 keys is folded in: the new maximum, the denominator and the numerator rescaled by exp (m_old − m_new) plus the tile's sums.  The quotient numerator / max (denominator, ε) is stored to the output block.
-/
import proofs.«420942_j40209483825490_2_alg».proof.Proof.Body1Aux
import Idealize.ShloMosaic.Lib.Pipeline.FrameBody
import Idealize.ShloMosaic.Lib.Tactic

set_option maxRecDepth 16384

noncomputable section

namespace Cert.KernelIdeal.R1

open Cert.KernelIdeal Cert.KernelIdeal.Gen Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's triple at a grid point that is the first key tile of its row, whose tile is folded in,
    and that is the last key tile. -/
theorem case_TTT (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : firstW i) (hL : liveW i (lenAt tbl i)) (hE : k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.KernelIdeal.R1

end
-- ==== Proof.Body1CaseTTF.lean ====
/-
  The attention region's body at a grid point that is the first key tile, folded in, not the last key tile.

  The row state is reset to (−∞, 0, 0) first.  The tile of 512 keys is folded in: the new maximum, the denominator and the numerator rescaled by exp (m_old − m_new) plus the tile's sums.  The output block is not touched.
-/
import proofs.«420942_j40209483825490_2_alg».proof.Proof.Body1Aux
import Idealize.ShloMosaic.Lib.Pipeline.FrameBody
import Idealize.ShloMosaic.Lib.Tactic

set_option maxRecDepth 16384

noncomputable section

namespace Cert.KernelIdeal.R1

open Cert.KernelIdeal Cert.KernelIdeal.Gen Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's triple at a grid point that is the first key tile of its row, whose tile is folded in,
    and that is not the last key tile. -/
theorem case_TTF (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : firstW i) (hL : liveW i (lenAt tbl i)) (hE : ¬ k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.KernelIdeal.R1

end
-- ==== Proof.Body1CaseTFT.lean ====
/-
  The attention region's body at a grid point that is the first key tile, skipped, the last key tile.

  The row state is reset to (−∞, 0, 0) first.  The tile lies wholly in the padding, and the state is left as it is.  The quotient numerator / max (denominator, ε) is stored to the output block.
-/
import proofs.«420942_j40209483825490_2_alg».proof.Proof.Body1Aux
import Idealize.ShloMosaic.Lib.Pipeline.FrameBody
import Idealize.ShloMosaic.Lib.Tactic

set_option maxRecDepth 16384

noncomputable section

namespace Cert.KernelIdeal.R1

open Cert.KernelIdeal Cert.KernelIdeal.Gen Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's triple at a grid point that is the first key tile of its row, whose tile is not folded in,
    and that is the last key tile. -/
theorem case_TFT (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : firstW i) (hL : ¬ liveW i (lenAt tbl i)) (hE : k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.KernelIdeal.R1

end
-- ==== Proof.Body1CaseTFF.lean ====
/-
  The attention region's body at a grid point that is the first key tile, skipped, not the last key tile.

  The row state is reset to (−∞, 0, 0) first.  The tile lies wholly in the padding, and the state is left as it is.  The output block is not touched.
-/
import proofs.«420942_j40209483825490_2_alg».proof.Proof.Body1Aux
import Idealize.ShloMosaic.Lib.Pipeline.FrameBody
import Idealize.ShloMosaic.Lib.Tactic

set_option maxRecDepth 16384

noncomputable section

namespace Cert.KernelIdeal.R1

open Cert.KernelIdeal Cert.KernelIdeal.Gen Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's triple at a grid point that is the first key tile of its row, whose tile is not folded in,
    and that is not the last key tile. -/
theorem case_TFF (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : firstW i) (hL : ¬ liveW i (lenAt tbl i)) (hE : ¬ k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.KernelIdeal.R1

end
-- ==== Proof.Body1CaseFTT.lean ====
/-
  The attention region's body at a grid point that is a later key tile, folded in, the last key tile.

  The row state is what the point before left.  The tile of 512 keys is folded in: the new maximum, the denominator and the numerator rescaled by exp (m_old − m_new) plus the tile's sums.  The quotient numerator / max (denominator, ε) is stored to the output block.
-/
import proofs.«420942_j40209483825490_2_alg».proof.Proof.Body1Aux
import Idealize.ShloMosaic.Lib.Pipeline.FrameBody
import Idealize.ShloMosaic.Lib.Tactic

set_option maxRecDepth 16384

noncomputable section

namespace Cert.KernelIdeal.R1

open Cert.KernelIdeal Cert.KernelIdeal.Gen Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's triple at a grid point that is not the first key tile of its row, whose tile is folded in,
    and that is the last key tile. -/
theorem case_FTT (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : ¬ firstW i) (hL : liveW i (lenAt tbl i)) (hE : k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.KernelIdeal.R1

end
-- ==== Proof.Body1CaseFTF.lean ====
/-
  The attention region's body at a grid point that is a later key tile, folded in, not the last key tile.

  The row state is what the point before left.  The tile of 512 keys is folded in: the new maximum, the denominator and the numerator rescaled by exp (m_old − m_new) plus the tile's sums.  The output block is not touched.
-/
import proofs.«420942_j40209483825490_2_alg».proof.Proof.Body1Aux
import Idealize.ShloMosaic.Lib.Pipeline.FrameBody
import Idealize.ShloMosaic.Lib.Tactic

set_option maxRecDepth 16384

noncomputable section

namespace Cert.KernelIdeal.R1

open Cert.KernelIdeal Cert.KernelIdeal.Gen Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's triple at a grid point that is not the first key tile of its row, whose tile is folded in,
    and that is not the last key tile. -/
theorem case_FTF (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : ¬ firstW i) (hL : liveW i (lenAt tbl i)) (hE : ¬ k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.KernelIdeal.R1

end
-- ==== Proof.Body1CaseFFT.lean ====
/-
  The attention region's body at a grid point that is a later key tile, skipped, the last key tile.

  The row state is what the point before left.  The tile lies wholly in the padding, and the state is left as it is.  The quotient numerator / max (denominator, ε) is stored to the output block.
-/
import proofs.«420942_j40209483825490_2_alg».proof.Proof.Body1Aux
import Idealize.ShloMosaic.Lib.Pipeline.FrameBody
import Idealize.ShloMosaic.Lib.Tactic

set_option maxRecDepth 16384

noncomputable section

namespace Cert.KernelIdeal.R1

open Cert.KernelIdeal Cert.KernelIdeal.Gen Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's triple at a grid point that is not the first key tile of its row, whose tile is not folded in,
    and that is the last key tile. -/
theorem case_FFT (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : ¬ firstW i) (hL : ¬ liveW i (lenAt tbl i)) (hE : k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.KernelIdeal.R1

end
-- ==== Proof.Body1CaseFFF.lean ====
/-
  The attention region's body at a grid point that is a later key tile, skipped, not the last key tile.

  The row state is what the point before left.  The tile lies wholly in the padding, and the state is left as it is.  The output block is not touched.
-/
import proofs.«420942_j40209483825490_2_alg».proof.Proof.Body1Aux
import Idealize.ShloMosaic.Lib.Pipeline.FrameBody
import Idealize.ShloMosaic.Lib.Tactic

set_option maxRecDepth 16384

noncomputable section

namespace Cert.KernelIdeal.R1

open Cert.KernelIdeal Cert.KernelIdeal.Gen Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's triple at a grid point that is not the first key tile of its row, whose tile is not folded in,
    and that is not the last key tile. -/
theorem case_FFF (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : ¬ firstW i) (hL : ¬ liveW i (lenAt tbl i)) (hE : ¬ k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.KernelIdeal.R1

end
-- ==== Proof.Body1.lean ====
/-
  The body's triple of the attention region, at every grid point.

  At grid point (b, qi, ki) the body resets the row state when ki = 0, folds the tile of 512 keys in when its first
  key position ki·512 lies below the sequence's length, and stores the quotient when ki = 3.  The three conditions
  are independent words; the triple is proved in each of their eight combinations and assembled here.
-/
import proofs.«420942_j40209483825490_2_alg».proof.Proof.Body1CaseTTT
import proofs.«420942_j40209483825490_2_alg».proof.Proof.Body1CaseTTF
import proofs.«420942_j40209483825490_2_alg».proof.Proof.Body1CaseTFT
import proofs.«420942_j40209483825490_2_alg».proof.Proof.Body1CaseTFF
import proofs.«420942_j40209483825490_2_alg».proof.Proof.Body1CaseFTT
import proofs.«420942_j40209483825490_2_alg».proof.Proof.Body1CaseFTF
import proofs.«420942_j40209483825490_2_alg».proof.Proof.Body1CaseFFT
import proofs.«420942_j40209483825490_2_alg».proof.Proof.Body1CaseFFF
import Idealize.ShloMosaic.Lib.Pipeline.FrameBody
import Idealize.ShloMosaic.Lib.Tactic

set_option maxRecDepth 16384

noncomputable section

namespace Cert.KernelIdeal.R1

open Cert.KernelIdeal Cert.KernelIdeal.Gen Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- On whole staging buffers holding the length table, the query block, the key and value blocks, the output block
    and the row state, the body runs to a state holding the inputs as they were, the row state advanced by one grid
    point and the output block as the point leaves it. -/
theorem sound_kernel1 (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  by_cases hF : firstW i <;> by_cases hL : liveW i (lenAt tbl i) <;> by_cases hE : k1_cond3 i = 1#1
  · exact case_TTT c E i arg3 harg3 arg4 harg4 arg5 harg5 arg6 harg6 arg7 harg7 arg8 harg8 arg9 harg9 arg10 harg10 sh tbl q k v o s K hF hL hE
  · exact case_TTF c E i arg3 harg3 arg4 harg4 arg5 harg5 arg6 harg6 arg7 harg7 arg8 harg8 arg9 harg9 arg10 harg10 sh tbl q k v o s K hF hL hE
  · exact case_TFT c E i arg3 harg3 arg4 harg4 arg5 harg5 arg6 harg6 arg7 harg7 arg8 harg8 arg9 harg9 arg10 harg10 sh tbl q k v o s K hF hL hE
  · exact case_TFF c E i arg3 harg3 arg4 harg4 arg5 harg5 arg6 harg6 arg7 harg7 arg8 harg8 arg9 harg9 arg10 harg10 sh tbl q k v o s K hF hL hE
  · exact case_FTT c E i arg3 harg3 arg4 harg4 arg5 harg5 arg6 harg6 arg7 harg7 arg8 harg8 arg9 harg9 arg10 harg10 sh tbl q k v o s K hF hL hE
  · exact case_FTF c E i arg3 harg3 arg4 harg4 arg5 harg5 arg6 harg6 arg7 harg7 arg8 harg8 arg9 harg9 arg10 harg10 sh tbl q k v o s K hF hL hE
  · exact case_FFT c E i arg3 harg3 arg4 harg4 arg5 harg5 arg6 harg6 arg7 harg7 arg8 harg8 arg9 harg9 arg10 harg10 sh tbl q k v o s K hF hL hE
  · exact case_FFF c E i arg3 harg3 arg4 harg4 arg5 harg5 arg6 harg6 arg7 harg7 arg8 harg8 arg9 harg9 arg10 harg10 sh tbl q k v o s K hF hL hE

end Cert.KernelIdeal.R1

end
-- ==== Proof.Obl1.lean ====
/-
  The body obligation of the attention region. At grid point t = (b, qi, ki) the body, from the region's invariant
  (the length table held whole, the scratch triple at the state the point before left), the three input blocks and
  the output window's buffer at whatever it holds, runs to the invariant at the next point: the scratch triple at the
  state function applied to the state before (at the first point nothing is assumed of the state before: the first key
  tile resets it), the input blocks as they were, and the output buffer at the quotient acc / max(l, ε) when ki is the
  last key tile, else untouched. The output block is written back only after a last key tile (its block index (b, qi, 0)
  changes only when ki wraps), so an untouched buffer is never written back.
-/
import proofs.«420942_j40209483825490_2_alg».proof.Proof.Dat1
import proofs.«420942_j40209483825490_2_alg».proof.Proof.Body1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The schedule of the output window, free of the table -/

/-- The output window's write-back test over the compiled grid: its block index (b, qi, 0) reads no table. -/
def flushO (t : Fin grid1.N) : Bool :=
  decide (t.val + 1 = grid1.N) || decide (∃ h : t.val + 1 < grid1.N, cc1_transform_3 (grid1.coords ⟨t.val + 1, h⟩) ≠ cc1_transform_3 (grid1.coords t))

/-- The output block is written back only after the last key tile of its row. -/
theorem flushO_last : ∀ t : Fin grid1.N, flushO t = true → k1_cond3 (grid1.coords t) = 1#1 := by decide +kernel

section
variable (a : (pcfg1 (F := F)).Adm)

theorem flush1_3_eq (t : Fin (cfg1 a).N) : ((cfg1 a).win 3).flush t = flushO t := rfl

theorem flush1_3 (t : Fin (cfg1 a).N) (h : ((cfg1 a).win 3).flush t = true) : k1_cond3 ((cfg1 a).grid.coords t) = 1#1 :=
  flushO_last t ((flush1_3_eq a t).symm.trans h)

theorem idle1_3 (i : (cfg1 a).grid.Coords) : (cfg1 a).idle 3 i = !(k1_cond3 i == 1#1) := rfl
theorem idle1_0 (i : (cfg1 a).grid.Coords) : (cfg1 a).idle 0 i = false := rfl
theorem idle1_1 (i : (cfg1 a).grid.Coords) : (cfg1 a).idle 1 i = false := rfl
theorem idle1_2 (i : (cfg1 a).grid.Coords) : (cfg1 a).idle 2 i = false := rfl
end

variable (a : (pcfg1 (F := F)).Adm)
variable (V : (c : Dev nD) → (b : Ref sig .tc) → Buf (Elt F) ((c : Thread nD τ).loc b))

/-! ## What the body finds in the input windows -/

/-- The query window's buffer holds the block of its last fetch at every point. -/
theorem before1_0 (c : Dev nD) (t : Fin (cfg1 a).N) (d) : (dat1 a V c).before 0 t d = qAt a V c t.val t.isLt :=
  Pipeline.Dat.before_eq_heldIn (dat1 a V c) 0 rfl (fun _ => rfl) (fun _ _ => rfl) (fun t => after1_0 a V c t) t d
/-- So does the key window's, -/
theorem before1_1 (c : Dev nD) (t : Fin (cfg1 a).N) (d) : (dat1 a V c).before 1 t d = kAt a V c t.val t.isLt :=
  Pipeline.Dat.before_eq_heldIn (dat1 a V c) 1 rfl (fun _ => rfl) (fun _ _ => rfl) (fun t => after1_1 a V c t) t d
/-- and the value window's. -/
theorem before1_2 (c : Dev nD) (t : Fin (cfg1 a).N) (d) : (dat1 a V c).before 2 t d = vAt a V c t.val t.isLt :=
  Pipeline.Dat.before_eq_heldIn (dat1 a V c) 2 rfl (fun _ => rfl) (fun _ _ => rfl) (fun t => after1_2 a V c t) t d

/-! ## The table, held whole -/

/-- The region's hold on the length table is the table's whole memref owned at its contents. -/
theorem prefHeld_eq (c : Dev nD) :
    (Pipeline.prefHeld pre1 c (fun _ => fullShare) a.1 : sProp 𝕄)
      = owns (c : Thread nD τ) (Memref.whole main_arg1) fullShare (a.1 0) := by
  unfold Pipeline.prefHeld
  rw [bigSep_univ_eq_bigSepL [(0 : Fin 1)] (by decide) (by decide)]
  exact (owns_whole (c : Thread nD τ) main_arg1 fullShare (a.1 0)).symm

/-! ## The scratch state, point by point -/

/-- At the first key tile of a row the state before is not read. -/
theorem scrNext_first (i : grid1.Coords) (hi : firstW i) (len : BitVec 32) (q : Vec F S1x1024x1024 .bf16) (k v : Vec F S1x512x1024 .bf16)
    (s s' : Scr F) : scrNext i len q k v s = scrNext i len q k v s' := by
  unfold scrNext; simp only [if_pos hi]

/-- The grid's first point is a first key tile. -/
theorem firstW_zero : firstW (grid1.coords ⟨0, by decide⟩) := by decide

/-- The state the body leaves at point `t`, from any state that is the one the point before left. -/
theorem scrNext_eq_scrAt (c : Dev nD) (t : Fin (cfg1 a).N) (s : Scr F)
    (hs : t.val ≠ 0 → ∃ h : t.val - 1 < (cfg1 a).N, s = scrAt a V c (t.val - 1) h) :
    scrNext ((cfg1 a).grid.coords t) (lenAt (a.1 0) ((cfg1 a).grid.coords t)) (qAt a V c t.val t.isLt) (kAt a V c t.val t.isLt)
      (vAt a V c t.val t.isLt) s = scrAt a V c t.val t.isLt := by
  obtain ⟨n, hn⟩ := t
  cases n with
  | zero => exact scrNext_first _ firstW_zero _ _ _ _ _ _
  | succ n =>
    obtain ⟨h, rfl⟩ := hs (Nat.succ_ne_zero n)
    rfl

/-! ## The body at a point -/

/-- The kernel body at point `t`, on what the pipeline calls it with. -/
abbrev bodyAt1 (t : Fin (cfg1 a).N) : Prog (TpuEff nD τ sig (Elt F) Λ₀ .tc) PUnit :=
  cc1__flash_attn_kernel (grid1.coords t) (Memref.whole main_arg1) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (Memref.whole cc1_scratch0) (Memref.isWhole_whole _) (Memref.whole cc1_scratch1) (Memref.isWhole_whole _)
    (Memref.whole cc1_scratch2) (Memref.isWhole_whole _)

/-- What the body is called with at point `t`: the invariant, what the core owes, and each window's current buffer. -/
def bodyPre1 (c : Dev nD) (t : Fin (cfg1 a).N) : sProp 𝕄 :=
  iprop((dat1 a V c).Φ t.castSucc ∗ (dat1 a V c).owesAt () t.castSucc
    ∗ (∃ d, owns (c : Thread nD τ) (((cfg1 a).win 0).stage ((cfg1 a).slots t 0)) fullShare ((dat1 a V c).before 0 t d))
    ∗ (∃ d, owns (c : Thread nD τ) (((cfg1 a).win 1).stage ((cfg1 a).slots t 1)) fullShare ((dat1 a V c).before 1 t d))
    ∗ (∃ d, owns (c : Thread nD τ) (((cfg1 a).win 2).stage ((cfg1 a).slots t 2)) fullShare ((dat1 a V c).before 2 t d))
    ∗ (∃ d, owns (c : Thread nD τ) (((cfg1 a).win 3).stage ((cfg1 a).slots t 3)) fullShare ((dat1 a V c).before 3 t d)))

/-- What it returns of the output window: where the window is idle and not written back, the buffer as it was handed;
    else the quotient block. -/
def outPost1 (c : Dev nD) (t : Fin (cfg1 a).N) : sProp 𝕄 :=
  match (cfg1 a).idle 3 ((cfg1 a).grid.coords t) with
  | true =>
    match ((cfg1 a).win 3).flush t with
    | false => iprop(∃ d, owns (c : Thread nD τ) (((cfg1 a).win 3).stage ((cfg1 a).slots t 3)) fullShare ((dat1 a V c).before 3 t d))
    | true => owns (c : Thread nD τ) (((cfg1 a).win 3).stage ((cfg1 a).slots t 3)) fullShare ((dat1 a V c).after 3 t)
  | false => owns (c : Thread nD τ) (((cfg1 a).win 3).stage ((cfg1 a).slots t 3)) fullShare ((dat1 a V c).after 3 t)

/-- And all it returns. -/
def bodyPost1 (c : Dev nD) (t : Fin (cfg1 a).N) : sProp 𝕄 :=
  iprop((dat1 a V c).Φ t.succ ∗ (dat1 a V c).owesAt () t.succ
    ∗ owns (c : Thread nD τ) (((cfg1 a).win 0).stage ((cfg1 a).slots t 0)) fullShare ((dat1 a V c).after 0 t)
    ∗ owns (c : Thread nD τ) (((cfg1 a).win 1).stage ((cfg1 a).slots t 1)) fullShare ((dat1 a V c).after 1 t)
    ∗ owns (c : Thread nD τ) (((cfg1 a).win 2).stage ((cfg1 a).slots t 2)) fullShare ((dat1 a V c).after 2 t)
    ∗ outPost1 a V c t)

/-- The output block at a last key tile is the quotient of the state the body leaves; elsewhere it is untouched. -/
theorem outNext_live (i : grid1.Coords) (hc : k1_cond3 i = 1#1) (len : BitVec 32) (q : Vec F S1x1024x1024 .bf16) (k v : Vec F S1x512x1024 .bf16)
    (s : Scr F) (o : Vec F S1x1024x1024 .f32) : outNext i len q k v s o = outFin (scrNext i len q k v s) := if_pos hc
theorem outNext_idle (i : grid1.Coords) (hc : ¬k1_cond3 i = 1#1) (len : BitVec 32) (q : Vec F S1x1024x1024 .bf16) (k v : Vec F S1x512x1024 .bf16)
    (s : Scr F) (o : Vec F S1x1024x1024 .f32) : outNext i len q k v s o = o := if_neg hc

/-- What the body leaves in the output window's buffer is what the obligation asks of it. -/
theorem leaves1_3 (c : Dev nD) (t : Fin (cfg1 a).N) (s : Scr F)
    (hs : t.val ≠ 0 → ∃ h : t.val - 1 < (cfg1 a).N, s = scrAt a V c (t.val - 1) h) (d) :
    owns (c : Thread nD τ) (((cfg1 a).win 3).stage ((cfg1 a).slots t 3)) fullShare
        (outNext ((cfg1 a).grid.coords t) (lenAt (a.1 0) ((cfg1 a).grid.coords t)) (qAt a V c t.val t.isLt) (kAt a V c t.val t.isLt)
          (vAt a V c t.val t.isLt) s ((dat1 a V c).before 3 t d))
      ⊢ outPost1 a V c t := by
  unfold outPost1
  by_cases hc : k1_cond3 ((cfg1 a).grid.coords t) = 1#1
  · have hi : (cfg1 a).idle 3 ((cfg1 a).grid.coords t) = false := by rw [idle1_3, hc]; rfl
    have e : outNext ((cfg1 a).grid.coords t) (lenAt (a.1 0) ((cfg1 a).grid.coords t)) (qAt a V c t.val t.isLt) (kAt a V c t.val t.isLt)
        (vAt a V c t.val t.isLt) s ((dat1 a V c).before 3 t d) = (dat1 a V c).after 3 t :=
      (outNext_live _ hc _ _ _ _ _ _).trans ((congrArg outFin (scrNext_eq_scrAt a V c t s hs)).trans (after1_3 a V c t).symm)
    rw [hi]
    exact Entails.of_eq (congrArg (fun X => owns (c : Thread nD τ) (((cfg1 a).win 3).stage ((cfg1 a).slots t 3)) fullShare X) e)
  · have hi : (cfg1 a).idle 3 ((cfg1 a).grid.coords t) = true := by
      rw [idle1_3]; simp only [Bool.not_eq_true', beq_eq_false_iff_ne, ne_eq]; exact hc
    have hf : ((cfg1 a).win 3).flush t = false := Bool.eq_false_iff.mpr fun h => hc (flush1_3 a t h)
    have e : outNext ((cfg1 a).grid.coords t) (lenAt (a.1 0) ((cfg1 a).grid.coords t)) (qAt a V c t.val t.isLt) (kAt a V c t.val t.isLt)
        (vAt a V c t.val t.isLt) s ((dat1 a V c).before 3 t d) = (dat1 a V c).before 3 t d := outNext_idle _ hc _ _ _ _ _ _
    rw [hi, hf]
    refine (Entails.of_eq (congrArg (fun X => owns (c : Thread nD τ) (((cfg1 a).win 3).stage ((cfg1 a).slots t 3)) fullShare X) e)).trans ?_
    iintro H; iexists d; iexact H

theorem sound_body1 (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  simp only [before1_0, before1_1, before1_2]
  rw [show (dat1 a V c).owesAt () t.succ = (dat1 a V c).owesAt () t.castSucc from rfl, after1_0, after1_1, after1_2,
    show (dat1 a V c).Φ t.castSucc = Φ1 a V c t.castSucc from rfl, show (dat1 a V c).Φ t.succ = Φ1 a V c t.succ from rfl]
  unfold Φ1 scrHeld
  rw [prefHeld_eq]
  iintro ⟨⟨Hrest, Hprng, Htbl, %s, %hs, Hs0, Hs1, Hs2⟩, Ho, ⟨%d0, H0⟩, ⟨%d1, H1⟩, ⟨%d2, H2⟩, ⟨%d3, H3⟩⟩
  iapply (sound_kernel1 c Set.univ (grid1.coords t) (Memref.whole main_arg1) _ _ _ _ _ _ _ _ _ _ _ _ _ _ _ fullShare (a.1 0)
      (qAt a V c t.val t.isLt) (kAt a V c t.val t.isLt) (vAt a V c t.val t.isLt) ((dat1 a V c).before 3 t d3) s _)
  isplitl [Htbl]; · iexact Htbl
  isplitl [H0]; · iexact H0
  isplitl [H1]; · iexact H1
  isplitl [H2]; · iexact H2
  isplitl [H3]; · iexact H3
  isplitl [Hs0]; · iexact Hs0
  isplitl [Hs1]; · iexact Hs1
  isplitl [Hs2]; · iexact Hs2
  iintro ⟨Htbl, H0, H1, H2, H3, Hs0, Hs1, Hs2⟩
  isplitl [Hrest Hprng Htbl Hs0 Hs1 Hs2]
  · isplitl [Hrest]; · iexact Hrest
    isplitl [Hprng]; · iexact Hprng
    isplitl [Htbl]; · iexact Htbl
    iexists (scrNext (grid1.coords t) (lenAt (a.1 0) (grid1.coords t)) (qAt a V c t.val t.isLt) (kAt a V c t.val t.isLt) (vAt a V c t.val t.isLt) s)
    isplitr
    · ipureintro; intro _; exact ⟨t.isLt, scrNext_eq_scrAt a V c t s hs⟩
    isplitl [Hs0]; · iexact Hs0
    isplitl [Hs1]; · iexact Hs1
    iexact Hs2
  isplitl [Ho]; · iexact Ho
  isplitl [H0]; · iexact H0
  isplitl [H1]; · iexact H1
  isplitl [H2]; · iexact H2
  iapply (leaves1_3 a V c t s hs d3); iexact H3

/-- The body obligation, at every point. -/
theorem body_obligation1 (c : Dev nD) : BodyObligation (dat1 (F := F) a V c) (defs₀ (F := F)) Variants.none () Set.univ := fun t => by
  rw [bigSep_W1, bigSep_W1]
  exact sound_body1 a V c t

end Cert.KernelIdeal.R1

end
-- ==== Proof.Ok1.lean ====
/-
  The side condition of the attention region's prefetched length table. The key and value windows take block
  (b, min(k, ⌊(len b − 1) / 512⌋), 0) of the [8, 2048, 1024] arrays, in blocks of [1, 512, 1024]. When every length is at
  least 1 (signed), len − 1 is nonnegative and does not wrap, its signed quotient by 512 is the floor quotient (the
  round-toward-−∞ correction of the printed chain never fires: it needs the dividend's sign to differ from the divisor's AND a
  nonzero remainder; a positive dividend has the divisor's sign, and a zero dividend has remainder zero), so the block
  index is min(k, (len − 1) / 512) with 0 ≤ k ≤ 3: between 0 and 3, and block 3 ends at row 2048. The blocks' 512 rows
  are a multiple of the two-per-word packing of the 16-bit elements.
-/
import proofs.«420942_j40209483825490_2_alg».proof.Proof.Gen.KernelIdeal
import Idealize.ShloMosaic.Lib.Affine
import Idealize.ShloMosaic.Lib.ValueIdx

noncomputable section

namespace Cert.KernelIdeal.PreDec

open Cert.KernelIdeal
open Idealize.ShloMosaic Idealize.ShloMosaic.Affine

/-- The key/value block index as the two index maps compute it from the length word `w` and the key-tile coordinate
    `k`: the floor quotient ⌊(w − 1) / 512⌋ (a signed quotient, one less when the signs differ and the remainder is not
    zero), capped by `k`. -/
def kvIdx (v1 arg2 : BitVec 32) : BitVec 32 :=
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg2 v19
  v20

/-- For a length word at least 1 and a key tile below 4 the block index, read signed, is min(k, (w − 1) / 512): between 0
    and 3. -/
theorem kvIdx_range (w : BitVec 32) (hw : 1 ≤ w.toInt) (k : Nat) (hk : k < 4) :
    ∃ e : Int, IsInt (kvIdx w (BitVec.ofNat 32 k)) e ∧ 0 ≤ e ∧ e ≤ 3 := by
  have h_w : IsInt w w.toInt := Affine.word w
  have r_w := Affine.word_range w
  have h_k : IsInt (BitVec.ofNat 32 k) (k : Int) := Affine.ofNat _ (by omega)
  have h_c1 : IsInt 1#32 1 := Affine.ofNat 1 (by omega)
  have h_c0 : IsInt 0#32 0 := Affine.ofNat 0 (by omega)
  have h_c512 : IsInt 512#32 512 := Affine.ofNat 512 (by omega)
  -- w − 1 does not wrap and is nonnegative
  have h_v2 := Affine.subi (e := w.toInt - 1) h_w h_c1 (by omega)
  have h_v3 := Affine.divsi (e := (w.toInt - 1) / 512) h_v2 h_c512 (by omega)
  -- the dividend is not negative: its "negative" bit is 0
  have h_v6 := Affine.slt_fails h_v2 h_c0 (by omega)
  have h_v7 := Affine.extui_fails (e := 0) h_v6 rfl
  -- the divisor is positive: its sign is 1 − 0 = 1
  have h_v9 := Affine.sgt_holds h_c512 h_c0 (by omega)
  have h_v10 := Affine.extui_holds (e := 1) h_v9 rfl
  have h_v11 := Affine.slt_fails h_c512 h_c0 (by omega)
  have h_v12 := Affine.extui_fails (e := 0) h_v11 rfl
  have h_v13 := Affine.subi (e := 1) h_v10 h_v12 (by omega)
  -- the correction's condition fails: a zero dividend has remainder zero, a positive one the divisor's sign
  have h_v17 : Fails (Scalar.andi
      (Scalar.cmpi .ne (Scalar.subi (Scalar.extui (Scalar.cmpi .sgt (Scalar.subi w 1#32) 0#32))
        (Scalar.extui (Scalar.cmpi .slt (Scalar.subi w 1#32) 0#32)))
        (Scalar.subi (Scalar.extui (Scalar.cmpi .sgt 512#32 0#32)) (Scalar.extui (Scalar.cmpi .slt 512#32 0#32))))
      (Scalar.cmpi .ne (Scalar.remsi (Scalar.subi w 1#32) 512#32) 0#32)) := by
    rcases (by omega : w.toInt - 1 = 0 ∨ 0 < w.toInt - 1) with hz | hp
    · have h_v15 := Affine.remsi (e := 0) h_v2 h_c512 (by omega)
      exact Affine.andi_fails_right trivial (Affine.ne_fails h_v15 h_c0 rfl)
    · have h_v4 := Affine.sgt_holds h_v2 h_c0 hp
      have h_v5 := Affine.extui_holds (e := 1) h_v4 rfl
      have h_v8 := Affine.subi (e := 1) h_v5 h_v7 (by omega)
      exact Affine.andi_fails_left (Affine.ne_fails h_v8 h_v13 rfl) trivial
  have h_v18 : IsInt (Scalar.subi (Scalar.divsi (Scalar.subi w 1#32) 512#32) 1#32) ((w.toInt - 1) / 512 - 1) :=
    Affine.subi h_v3 h_c1 (by omega)
  have h_v19 := Affine.select_fails (e := (w.toInt - 1) / 512) h_v17 h_v18 h_v3 rfl
  have h_v20 := Affine.minsi (e := min (k : Int) ((w.toInt - 1) / 512)) h_k h_v19 rfl
  exact ⟨_, h_v20, by omega, by omega⟩

/-- The block (b, that index, 0) lies inside the [8, 2048, 1024] array. -/
theorem kv_blk (w : BitVec 32) (hw : 1 ≤ w.toInt) (b k : Nat) (hb : b < 8) (hk : k < 4) :
    ∀ a, ((![(BitVec.ofNat 32 b).toNat, (kvIdx w (BitVec.ofNat 32 k)).toNat, (0#32 : BitVec 32).toNat] : Fin 3 → Nat) a + 1)
      * S1x512x1024.size a ≤ S8x2048x1024.size a := by
  obtain ⟨e, he, h0, h3⟩ := kvIdx_range w hw k hk
  have h_b : IsInt (BitVec.ofNat 32 b) (b : Int) := Affine.ofNat _ (by omega)
  have h_c0 : IsInt 0#32 0 := Affine.ofNat 0 (by omega)
  exact Affine.blk_cons h_b (by omega) <| Affine.blk_cons he (by omega) <| Affine.blk_cons h_c0 (by omega) <| Affine.blk_nil

variable {F : FTy → Type} [FloatOps F] [Named F] [Cert.KernelIdeal.Facts]
open Facts₀ Facts

/-- THE SIDE CONDITION, from every length word of the table being at least 1 (signed). -/
theorem ok1_of_lens (pf : pre1.Contents (Elt F)) (hl : ∀ j, 1 ≤ BitVec.toInt (pf 0 j)) : ok1 pf :=
  ⟨fun i => ⟨kv_blk _ (hl _) (i 0).val (i 2).val (i 0).isLt (i 2).isLt,
      .inr (Affine.block_words_dvd (of_decide_eq_true rfl) (by decide))⟩,
   fun i => ⟨kv_blk _ (hl _) (i 0).val (i 2).val (i 0).isLt (i 2).isLt,
      .inr (Affine.block_words_dvd (of_decide_eq_true rfl) (by decide))⟩⟩

/-- The same, the table read at its eight explicit indices. -/
theorem ok1_of_lens_ix (pf : pre1.Contents (Elt F)) (hl : ∀ b : Fin 8, 1 ≤ BitVec.toInt (pf 0 (ValueIdx.ix1 b))) : ok1 pf :=
  ok1_of_lens pf fun j => by rw [ValueIdx.eq_ix1 j]; exact hl _

end Cert.KernelIdeal.PreDec

end
-- ==== Proof.PreDecode.lean ====
/-
  The printed precondition, read back. The predicate is the conjunction of five all-quantified facts: every entry of the
  activation array and of the three weight matrices has absolute value below +∞ (so it is a real number: neither
  infinity nor junk), and every length word is at least 1 as a signed 32-bit integer.
-/
import proofs.«420942_j40209483825490_2_alg».proof.Proof.Gen.Pre_finite_inputs
import Idealize.ShloMosaic.Lib.ReduceAll
import Idealize.ShloMosaic.Lib.StableHlo.Predicate
import Idealize.ShloMosaic.Lib.ValueIdx

noncomputable section

namespace Cert.PreDec

open Idealize.ShloMosaic Cert.Pre_finite_inputs

variable [Cert.Pre_finite_inputs.Facts]

/-- The scalar shape has one index. -/
instance subsingleton_S_ : Subsingleton S_.Idx := ⟨fun a b => funext fun d => d.elim0⟩

/-- The bit pattern 0x7F800000 denotes +∞. -/
theorem ofBits_inf : Ideal.ofBits .f32 0x7F800000#32 = (⊤ : EReal) := by
  simp [Ideal.ofBits, Ideal.ieee]

/-- An extended real whose absolute value max(x, −x) is below +∞ is a real number. -/
theorem real_of_abs_lt_top (x : EReal) (h : Ideal.cmp .olt (max x (-x)) (Ideal.ofBits .f32 0x7F800000#32) = 1#1) :
    ∃ r : ℝ, x = (r : EReal) := by
  rw [ofBits_inf] at h
  simp only [Ideal.cmp, StableHlo.Predicate.ofBool_eq_one_iff, decide_eq_true_eq] at h
  induction x using EReal.rec with
  | bot => simp at h
  | top => simp at h
  | coe r => exact ⟨r, rfl⟩

/-- The last conjunct: every length word is at least 1, signed. -/
theorem lens_ge_one {F : FTy → Type} [FloatOps F] (x : FVec F S8x2048x1024 .f32) (lens : IVec S8 32)
    (wq wk wv : FVec F S1024x1024 .f32) (h : fn (F := F) x lens wq wk wv = fun _ => 1#1) :
    ∀ b : Fin 8, 1 ≤ (lens (Idealize.ShloMosaic.ValueIdx.ix1 b)).toInt := by
  intro b
  have e := congrFun h ValueIdx.ix0
  dsimp only [fn, fn_part1] at e
  simp only [andi, IntOp.andi_eq_one] at e
  obtain ⟨-, e5⟩ := e
  have e1 := Host.reduce_andi_all _ _ _ _ _ e5 (ValueIdx.ix1 b)
  simp only [cmpi, broadcastInDim, constantI, IntOp.cmpi, StableHlo.Predicate.ofBool_eq_one_iff, BitVec.sle,
    decide_eq_true_eq] at e1
  have e2 : (1#32 : BitVec 32).toInt ≤ (lens (ValueIdx.ix1 b)).toInt := of_decide_eq_true e1
  have h1 : (1#32 : BitVec 32).toInt = 1 := by decide
  omega

theorem inputs_real (x : FVec Ideal S8x2048x1024 .f32) (lens : IVec S8 32)
    (wq wk wv : FVec Ideal S1024x1024 .f32) (h : fn (F := Ideal) x lens wq wk wv = fun _ => 1#1) :
    (∀ i, ∃ r : ℝ, x i = (r : EReal)) ∧ (∀ i, ∃ r : ℝ, wq i = (r : EReal)) ∧ (∀ i, ∃ r : ℝ, wk i = (r : EReal))
      ∧ (∀ i, ∃ r : ℝ, wv i = (r : EReal)) := by
  have e := congrFun h ValueIdx.ix0
  dsimp only [fn, fn_part1] at e
  simp only [andi, IntOp.andi_eq_one] at e
  obtain ⟨⟨⟨⟨ex, eq⟩, ek⟩, ev⟩, -⟩ := e
  refine ⟨fun i => ?_, fun i => ?_, fun i => ?_, fun i => ?_⟩
  · exact real_of_abs_lt_top _ (Host.reduce_andi_all _ _ _ _ _ ex i)
  · exact real_of_abs_lt_top _ (Host.reduce_andi_all _ _ _ _ _ eq i)
  · exact real_of_abs_lt_top _ (Host.reduce_andi_all _ _ _ _ _ ek i)
  · exact real_of_abs_lt_top _ (Host.reduce_andi_all _ _ _ _ _ ev i)

end Cert.PreDec

end
-- ==== Proof.Frames.lean ====
/-
  The program's run from the precondition. The length table the attention region prefetches is the launch memory's
  second argument (the mesh has one device); the precondition makes every length at least 1, which is the side condition
  of the region's table-indexed windows; so the run of the whole program applies at the table read off the launch
  memory: it terminates, the result buffer ends at the attention region's output array after all its write-backs, and
  the five arguments end as launched.
-/
import proofs.«420942_j40209483825490_2_alg».proof.Proof.Run
import proofs.«420942_j40209483825490_2_alg».proof.Proof.Obl1
import proofs.«420942_j40209483825490_2_alg».proof.Proof.Ok1
import proofs.«420942_j40209483825490_2_alg».proof.Proof.PreDecode

set_option maxRecDepth 16384

noncomputable section

namespace Cert.KernelIdeal.Run

open Idealize.ShloMosaic Idealize.ShloMosaic.TcCoe
open Idealize.SL Idealize.SL.Sem
open Idealize.ShloMosaic.Pipeline (Dat Cfg Window BodyObligation)
open Cert.KernelIdeal Cert.KernelIdeal.Gen Cert.KernelIdeal.R1

variable {F : FTy → Type} [FloatOps F] [Named F]

variable (m : (ℓ : Loc nD τ sig) → Buf (Elt F) ℓ) (ρ : Dev nD → PrngReg)

/-- The mesh's one device. -/
abbrev dev0 : Dev nD := ⟨0, by decide⟩

/-- The length table's contents, read off the launch memory. -/
def tblOf : pre1.Contents (Elt F) := fun k => m ((dev0.tc : Thread nD τ).loc (pre1.ref k))

/-- The precondition at any float instance: on every device the printed predicate of the five arguments is all ones. -/
def PreF : Prop :=
  ∀ c : Dev nD,
    (Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) = (fun _ => 1#1)

/-- The table the attention region finds is the launch memory's: the regions before it do not write it. -/
theorem hpf_of (h : ok1 (tblOf m)) : ∀ c : Dev nD, (fun k => VB m c (pre1.ref k)) = (⟨tblOf m, h⟩ : (pcfg1 (F := F)).Adm).1 := by
  intro c
  obtain rfl : c = dev0 := Subsingleton.elim _ _
  funext k
  obtain rfl : k = 0 := Subsingleton.elim _ _
  exact VB_main_arg1 m dev0

/-- Under the precondition every length is at least 1, so every table-indexed block lies inside its array. -/
theorem ok_of_pre (hpre : PreF m) : ok1 (tblOf m) :=
  Cert.KernelIdeal.PreDec.ok1_of_lens_ix (tblOf m) fun b => Cert.PreDec.lens_ge_one _ _ _ _ _ (hpre dev0) b

/-- THE RUN, its result named: from any memory with zero counters satisfying the precondition every weakly fair execution
    terminates, nothing faulting; the result buffer ends at the attention region's output array after all its write-backs
    and every argument ends as launched. -/
theorem run_named (hpre : PreF m) : θ_run defs (onTc (τ := τ) (main (F := F))) ⟨m, fun _ => 0, ρ⟩ (fun r => ∀ c : Dev nD,
      r.2.mem ((c.tc : Thread nD τ).loc main_v8)
        = (dat1 ⟨tblOf m, ok_of_pre m hpre⟩ (VB m) c).arrAt 3 (cfg1 ⟨tblOf m, ok_of_pre m hpre⟩).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run m ρ ⟨tblOf m, ok_of_pre m hpre⟩ (hpf_of m (ok_of_pre m hpre)) (fun c => body_obligation1 ⟨tblOf m, ok_of_pre m hpre⟩ (VB m) c)

/-- THE FRAME: the program runs and its argument arrays end unchanged. -/
theorem frame (hpre : PreF m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ hpre)

end Cert.KernelIdeal.Run

end
-- ==== Proof.FramesI.lean ====
/-
  The idealized kernel's frame conjunct and its run with the result named, from the run stated at any float instance.
-/
import proofs.«420942_j40209483825490_2_alg».proof.Proof.Frames
import proofs.«420942_j40209483825490_2_alg».proof.Defs

set_option maxRecDepth 16384

noncomputable section

namespace Cert.KernelIdeal.Run

open Idealize.ShloMosaic Idealize.ShloMosaic.TcCoe
open Idealize.SL Idealize.SL.Sem
open Cert.KernelIdeal Cert.KernelIdeal.Gen Cert.KernelIdeal.R1

/-- The idealized kernel's run with its result named: the result buffer ends at the attention region's output array after
    all its write-backs, at the table read off the launch memory. -/
theorem run_value (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v8)
        = (dat1 ⟨tblOf m, ok_of_pre m hpre⟩ (VB m) c).arrAt 3 (cfg1 ⟨tblOf m, ok_of_pre m hpre⟩).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_named m ρ hpre

end Cert.KernelIdeal.Run

/-- The idealized kernel runs and its argument arrays end unchanged. -/
theorem Cert.Proof.frame_KernelIdeal' :
    Cert.frame_KernelIdeal (hKernelIdeal := Cert.KernelIdeal.Gen.facts) (hPre_finite_inputs := Cert.Pre_finite_inputs.Gen.facts) :=
  fun m ρ hpre => Cert.KernelIdeal.Run.frame m ρ hpre

end
-- ==== Proof.Region0K.lean ====
import proofs.«420942_j40209483825490_2_alg».proof.Proof.Gen.Kernel.Launch
import proofs.«420942_j40209483825490_2_alg».proof.Proof.Gen.Kernel.Skeleton
import proofs.«420942_j40209483825490_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0 of the word-level program: the fused Q/K/V projection, one grid point at a time

The projection kernel reads two blocks whole — a `1 × 512 × 1024` slab of the activations and the
`1024 × 3072` matrix of the three weight matrices side by side — and writes three `1 × 512 × 1024`
blocks whole: the three column thirds of the product (the first third scaled by `2⁻⁵`). This
module states, for arbitrary contents `V` of the core's buffers when the region is entered, what each
of the five windows' staging buffers holds around the body at every grid point, and proves the body's
Hoare triple against those contents.
-/

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers at the moment the region starts
variable (V : (c : Dev nD) → (b : Ref sig .tc) → Buf (Elt F) ((c : Thread nD τ).loc b))

/-! ## The five blocks at a grid point -/

/-- The block of window `w` at grid point `t`: the sub-array of the window's array, as the region
    found it, that the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the activations' block at every point. The block index
    moves at every point, so the block is transferred anew each time; the statement is for any
    bookkeeping whose array is the entry contents and whose body leaves the block untouched. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point, although it is
    transferred at the first point only: its block index is constant, and a body that leaves the
    buffer untouched hands the next point the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each buffer whole -/

/-- All of a `1 × 512 × 1024` buffer. -/
abbrev r0_0 : Rect S1x512x1024 := Rect.unit (s := S1x512x1024) ![0, 0, 0] S1x512x1024.size inb_S1x512x1024_S1x512x1024_0_0_0
/-- All of the `1024 × 3072` buffer. -/
abbrev r0_1 : Rect S1024x3072 := Rect.unit (s := S1024x3072) ![0, 0] S1024x3072.size inb_S1024x3072_S1024x3072_0_0

/-! ## What the body leaves in the three output buffers

Each output buffer receives exactly one store, of the whole buffer; what it holds afterwards is that
store's value, a function of the two input blocks alone. -/

/-- The first output (the scaled query projection) from the two input blocks. -/
def out0_2 (x0 : Vec F S1x512x1024 .f32) (x1 : Vec F S1024x3072 .bf16) : Vec F S1x512x1024 .bf16 :=
  View.canon [⟨r0_0, k0_pay2 (View.ld x0 r0_0) (View.ld x1 r0_1)⟩]

/-- The second output (the key projection) from the two input blocks. -/
def out0_3 (x0 : Vec F S1x512x1024 .f32) (x1 : Vec F S1024x3072 .bf16) : Vec F S1x512x1024 .bf16 :=
  View.canon [⟨r0_0, k0_pay3 (View.ld x0 r0_0) (View.ld x1 r0_1)⟩]

/-- The third output (the value projection) from the two input blocks. -/
def out0_4 (x0 : Vec F S1x512x1024 .f32) (x1 : Vec F S1024x3072 .bf16) : Vec F S1x512x1024 .bf16 :=
  View.canon [⟨r0_0, k0_pay4 (View.ld x0 r0_0) (View.ld x1 r0_1)⟩]

/-- One store of the whole buffer covers the buffer: the single rectangle is the only block of a
    tiling by blocks of the buffer's own size. -/
theorem cover0_out (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-! ## The body's triple -/

set_option maxHeartbeats 1000000 in
/-- Run on five whole buffers — the two inputs holding `x0` and `x1`, the three outputs holding
    anything — the projection kernel ends with the inputs unchanged and the outputs holding
    `out0_2`, `out0_3`, `out0_4` of the inputs. The kernel also reads each output buffer before
    storing to it; what it reads there is never used. -/
theorem sound_kernel0 (c : Dev nD) (E : Set ℕ) (i : grid0.Coords)
    (arg0 : Memref sig .tc .vmem S1x512x1024 .f32) (harg0 : arg0.IsWhole) (arg1 : Memref sig .tc .vmem S1024x3072 .bf16) (harg1 : arg1.IsWhole)
    (arg2 : Memref sig .tc .vmem S1x512x1024 .bf16) (harg2 : arg2.IsWhole) (arg3 : Memref sig .tc .vmem S1x512x1024 .bf16) (harg3 : arg3.IsWhole)
    (arg4 : Memref sig .tc .vmem S1x512x1024 .bf16) (harg4 : arg4.IsWhole)
    (x0 : Vec F S1x512x1024 .f32) (x1 : Vec F S1024x3072 .bf16) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1
            ∗ owns (c : Thread nD τ) arg2 fullShare (out0_2 x0 x1) ∗ owns (c : Thread nD τ) arg3 fullShare (out0_3 x0 x1)
            ∗ owns (c : Thread nD τ) arg4 fullShare (out0_4 x0 x1)) -∗ K ⟨⟩))
      ⊢ wp frame (wpE (defs₀ (F := F)) Variants.none c none) E (cc0__qkv_proj_kernel i arg0 harg0 arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_out _)
  isplitl [H3]
  · iexists _; isplitr
    swap; · iexact H3
    ipureintro
    exact View.read_writes_eq_canon _ _ _ (cover0_out _)
  iexists _; isplitr
  swap; · iexact H4
  ipureintro
  exact View.read_writes_eq_canon _ _ _ (cover0_out _)

/-! ## The region's bookkeeping -/

/-- The bookkeeping of the projection's pipeline on core `c`: every window's array as the region
    found it; after the body at point `t` the two input buffers still at their blocks and the three
    output buffers at the projections of those blocks; the invariant is the rest of the core's
    state, untouched; nothing is owed, and every buffer is held in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The bookkeeping's arrays are the entry contents. -/
theorem A_eq0 (c : Dev nD) (w : Fin cfg0.W) : (dat0 V c).A w = V c (Pipeline.arrRef spec0 w) := by
  dsimp only [dat0]

/-- What the body leaves in each window's buffer, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Before the body at any point, each input's staging buffer holds that input's block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation at an arbitrary point -/

/-- What the body is given at point `t`: the invariant, the core's debts, and each window's current
    staging buffer at what the bookkeeping says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body gives back: the same, each buffer at what the bookkeeping says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the two input buffers hold their blocks, so the kernel's triple applies;
    the invariant and the debts are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on its body, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.Body1SpecK.lean ====
/-
  What one grid point of the attention region does to the row state it carries in scratch, as pure functions.

  The region walks the grid (batch b, query tile qi, key tile ki).  In scratch it carries, for the 1024 query
  rows of the tile, the running maximum m, the running denominator l and the running numerator acc.  At ki = 0
  the state is reset (m = −∞, l = 0, acc = 0); the tile of 512 keys is folded in when its first key position
  ki·512 lies below the sequence's length; at ki = 3 the quotient acc / max(l, ε) is stored to the output block.
-/
import proofs.«420942_j40209483825490_2_alg».proof.Proof.Gen.Kernel.Skeleton
import Idealize.ShloMosaic.Lib.ValueIdx

noncomputable section

namespace Cert.Kernel.R1

open Idealize.ShloMosaic Idealize.SL.Sem Cert.Kernel Cert.Kernel.Gen

variable {F : FTy → Type} [FloatOps F]

/-- The row state carried in scratch: running maximum, running denominator, running numerator. -/
abbrev Scr (F : FTy → Type) [FloatOps F] : Type := Vec F S1024x1 .f32 × Vec F S1024x1 .f32 × Vec F S1024x1024 .f32

/-- The state a new row of key tiles starts from. -/
def scrInit : Scr F := (k1_pay1, k1_pay2, k1_pay3)

/-- One key tile folded into the state: `ki` the tile's number as a word, `len` the sequence's length as a word,
    `q` the query block, `k` and `v` the key and value blocks. -/
def scrStep (ki : BitVec 32) (len : Elt F .i32) (q : Vec F S1x1024x1024 .bf16) (k v : Vec F S1x512x1024 .bf16) (s : Scr F) : Scr F :=
  (k1_pay5 (k1_pay8 ki len q k s.1),
   k1_pay11 ki len q k s.1 s.1 s.2.1,
   k1_pay4 (k1_pay12 ki len q k s.1 s.1 s.2.2) (k1_pay13 ki len q k s.1) v)

/-- The output block written after the last key tile. -/
def outFin (s : Scr F) : Vec F S1x1024x1024 .f32 := k1_pay6 s.2.1 s.2.2

/-- The length word of the batch entry a grid point belongs to: the table's entry at the point's batch coordinate. -/
def lenAt (tbl : Vec F S8 .i32) (i : grid1.Coords) : BitVec 32 :=
  tbl (ValueIdx.ix1 (⟨(i 0).val, (i 0).isLt⟩ : Fin 8))

/-- The tile at grid point `i` is folded in: its first key position, as a signed word, is below the length. -/
def liveW (i : grid1.Coords) (len : BitVec 32) : Prop :=
  Scalar.cmpi .ne (Scalar.extui (Scalar.cmpi .slt (Scalar.muli (BitVec.ofNat 32 (i 2).val) 512#32) len)) 0#32 = 1#1

instance (i : grid1.Coords) (len : BitVec 32) : Decidable (liveW i len) := by unfold liveW; infer_instance

/-- The point is the first key tile of its row of tiles. -/
def firstW (i : grid1.Coords) : Prop :=
  Scalar.cmpi .ne (Scalar.extui (Scalar.cmpi .eq (BitVec.ofNat 32 (i 2).val) 0#32)) 0#32 = 1#1

instance (i : grid1.Coords) : Decidable (firstW i) := by unfold firstW; infer_instance

/-- The state after the body at grid point `i`, from the state `s` before it. -/
def scrNext (i : grid1.Coords) (len : BitVec 32) (q : Vec F S1x1024x1024 .bf16) (k v : Vec F S1x512x1024 .bf16) (s : Scr F) : Scr F :=
  let s1 : Scr F := if firstW i then scrInit else s
  if liveW i len then scrStep (BitVec.ofNat 32 (i 2).val) len q k v s1 else s1

/-- The output staging block after the body at grid point `i`: the quotient at the last key tile, else untouched. -/
def outNext (i : grid1.Coords) (len : BitVec 32) (q : Vec F S1x1024x1024 .bf16) (k v : Vec F S1x512x1024 .bf16) (s : Scr F)
    (o : Vec F S1x1024x1024 .f32) : Vec F S1x1024x1024 .f32 :=
  if k1_cond3 i = 1#1 then outFin (scrNext i len q k v s) else o

end Cert.Kernel.R1

end
-- ==== Proof.Dat1K.lean ====
/-
  The proof data of the attention region (pipeline 1) on one core, at the region-entry contents `V` of the core's
  buffers and at admissible contents `a` of the prefetched length table.

  The grid's 64 points are (batch b, query tile qi, key tile ki), ki fastest.  The three input windows (the query block,
  the key block, the value block) are only read: each holds the block of its last fetch.  The scratch triple
  (m, l, acc) after point n is `scrAt n`: the body's state function `scrNext` applied to the state after point n − 1
  (the first point of a row of key tiles resets the state, so nothing is assumed of the scratch there).  The output
  window is stored only at the last key tile of a row, where it receives acc / max(l, ε); elsewhere it is idle.
-/
import proofs.«420942_j40209483825490_2_alg».proof.Proof.Gen.Kernel.Launch
import proofs.«420942_j40209483825490_2_alg».proof.Proof.Gen.Kernel.Skeleton
import proofs.«420942_j40209483825490_2_alg».proof.Proof.Gen.Kernel.Points
import proofs.«420942_j40209483825490_2_alg».proof.Proof.Body1SpecK
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

/-- The windows' arrays as the region finds them. -/
abbrev A1 (c : Dev nD) (w : Fin (cfg1 a).W) : Buf (Elt F) (((cfg1 a).win w).arr.view.loc (c.tc : Thread nD τ)) :=
  V c (Pipeline.arrRef spec1 w)

/-- The query block the body finds at point `n`: the block of the window's last fetch. -/
def qAt (c : Dev nD) (n : ℕ) (h : n < (cfg1 a).N) : Vec F S1x1024x1024 .bf16 := Pipeline.heldIn (cfg1 a) (A1 a V c) 0 n h
/-- The key block the body finds at point `n`. -/
def kAt (c : Dev nD) (n : ℕ) (h : n < (cfg1 a).N) : Vec F S1x512x1024 .bf16 := Pipeline.heldIn (cfg1 a) (A1 a V c) 1 n h
/-- The value block the body finds at point `n`. -/
def vAt (c : Dev nD) (n : ℕ) (h : n < (cfg1 a).N) : Vec F S1x512x1024 .bf16 := Pipeline.heldIn (cfg1 a) (A1 a V c) 2 n h

/-- The length word the body loads at point `t`. -/
def lenP (t : Fin (cfg1 a).N) : BitVec 32 := lenAt (a.1 0) ((cfg1 a).grid.coords t)

/-- The scratch state after the body at point `n`. -/
def scrAt (c : Dev nD) : (n : ℕ) → n < (cfg1 a).N → Scr F
  | 0, h => scrNext ((cfg1 a).grid.coords ⟨0, h⟩) (lenP a ⟨0, h⟩) (qAt a V c 0 h) (kAt a V c 0 h) (vAt a V c 0 h) scrInit
  | n + 1, h => scrNext ((cfg1 a).grid.coords ⟨n + 1, h⟩) (lenP a ⟨n + 1, h⟩) (qAt a V c (n + 1) h) (kAt a V c (n + 1) h) (vAt a V c (n + 1) h)
      (scrAt c n (Nat.lt_of_succ_lt h))

/-- The core's scoped buffers that are neither a staging buffer of this region nor its scratch: the other
    region's staging buffers, each whole at some contents. -/
def restNoScr (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The scratch triple held at the state `s`. -/
def scrHeld (c : Dev nD) (s : Scr F) : sProp 𝕄 :=
  iprop(owns (c : Thread nD τ) (Memref.whole cc1_scratch0) fullShare s.1
    ∗ owns (c : Thread nD τ) (Memref.whole cc1_scratch1) fullShare s.2.1
    ∗ owns (c : Thread nD τ) (Memref.whole cc1_scratch2) fullShare s.2.2)

/-- The region's invariant before point `t`: the other region's staging buffers and the generator register untouched, the
    length table held whole at its contents, and the scratch at the state the point before left (before the first
    point: at anything). -/
def Φ1 (c : Dev nD) (t : Fin ((cfg1 a).N + 1)) : sProp 𝕄 :=
  iprop(restNoScr (F := F) c ∗ (∃ r, prngReg c r) ∗ Pipeline.prefHeld pre1 c (fun _ => fullShare) a.1
    ∗ ∃ s : Scr F, ⌜t.val ≠ 0 → ∃ h : t.val - 1 < (cfg1 a).N, s = scrAt a V c (t.val - 1) h⌝ ∗ scrHeld c s)

/-- The proof data of pipeline 1 on core `c`. -/
def dat1 (c : Dev nD) : Dat τ (Elt F) Unit ℕ (UR sig nD τ) ℕ (cfg1 a) c where
  A w := V c (Pipeline.arrRef spec1 w)
  after w t := match w with
    | ⟨0, _⟩ => qAt a V c t.val t.isLt
    | ⟨1, _⟩ => kAt a V c t.val t.isLt
    | ⟨2, _⟩ => vAt a V c t.val t.isLt
    | ⟨3, _⟩ => outFin (scrAt a V c t.val t.isLt)
  Φ t := Φ1 a V c t
  q _ := fullShare
  owed _ := 0

theorem A_eq1 (c : Dev nD) (w : Fin (cfg1 a).W) : (dat1 a V c).A w = V c (Pipeline.arrRef spec1 w) := by
  dsimp only [dat1]

theorem after1_0 (c : Dev nD) (t : Fin (cfg1 a).N) : (dat1 a V c).after 0 t = qAt a V c t.val t.isLt := by dsimp only [dat1]; rfl
theorem after1_1 (c : Dev nD) (t : Fin (cfg1 a).N) : (dat1 a V c).after 1 t = kAt a V c t.val t.isLt := by dsimp only [dat1]; rfl
theorem after1_2 (c : Dev nD) (t : Fin (cfg1 a).N) : (dat1 a V c).after 2 t = vAt a V c t.val t.isLt := by dsimp only [dat1]; rfl
theorem after1_3 (c : Dev nD) (t : Fin (cfg1 a).N) : (dat1 a V c).after 3 t = outFin (scrAt a V c t.val t.isLt) := by dsimp only [dat1]; rfl

end Cert.Kernel.R1

end
-- ==== Proof.Inv1K.lean ====
/-
  The two ends of the attention region's invariant.

  Before the first grid point the core holds, besides the generator register and the length table, every scoped
  buffer that is no staging buffer of this region, each whole at some contents: nine staging buffers of the projection
  region and the three scratch buffers.  The invariant before the first point asks nothing of the scratch state, so
  whatever the three scratch buffers hold serves as the state.  After the last point the state is forgotten again and
  the twelve buffers are given back, each at some contents.
-/
import proofs.«420942_j40209483825490_2_alg».proof.Proof.Dat1K
import Idealize.ShloMosaic.Lib.Memref

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

/-- The invariant before the first point, from the scoped rest, the generator register and the table. -/
theorem hin1 (c : Dev nD) :
    iprop((∃ r, prngReg c r) ∗ Pipeline.prefHeld pre1 c (fun _ => fullShare) a.1 ∗ Pipeline.scopedRest (Ix := Unit) (Name := ℕ) (U := UR sig nD τ) (Lvl := ℕ) (Val := Elt F) spec1 c)
      ⊢ (dat1 a V c).Φ 0 := by
  rw [scopedRest1_eq c, show (dat1 a V c).Φ 0 = Φ1 a V c 0 from rfl]
  unfold Φ1 restNoScr scrHeld
  simp only [owns_whole]
  iintro ⟨Hp, Ht, H0, H1, H2, H3, H4, H5, H6, H7, H8, ⟨%f0, S0⟩, ⟨%f1, S1⟩, ⟨%f2, S2⟩⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hp]; · iexact Hp
  isplitl [Ht]; · iexact Ht
  iexists ((f0, f1, f2) : Scr F)
  isplitr
  · ipureintro
    intro h
    exact absurd rfl h
  isplitl [S0]; · iexact S0
  isplitl [S1]; · iexact S1
  iexact S2

/-- The invariant after the last point gives the generator register, the table and the scoped rest back. -/
theorem hout1 (c : Dev nD) :
    (dat1 a V c).Φ (Fin.last (cfg1 a).N)
      ⊢ iprop(((∃ r, prngReg c r) ∗ Pipeline.prefHeld pre1 c (fun _ => fullShare) a.1) ∗ Pipeline.scopedRest (Ix := Unit) (Name := ℕ) (U := UR sig nD τ) (Lvl := ℕ) (Val := Elt F) spec1 c) := by
  rw [scopedRest1_eq c, show (dat1 a V c).Φ (Fin.last (cfg1 a).N) = Φ1 a V c (Fin.last (cfg1 a).N) from rfl]
  unfold Φ1 restNoScr scrHeld
  simp only [owns_whole]
  iintro ⟨⟨H0, H1, H2, H3, H4, H5, H6, H7, H8⟩, Hp, Ht, ⟨%s, %hs, S0, S1, S2⟩⟩
  isplitl [Hp Ht]
  · isplitl [Hp]; · iexact Hp
    iexact Ht
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexists s.1; iexact S0
  isplitl [S1]; · iexists s.2.1; iexact S1
  iexists s.2.2
  iexact S2

end Cert.Kernel.R1

end
-- ==== Proof.RunK.lean ====
/-
  The run of the whole program: @main is a stretch of host operations (three transposes, three format changes and a
  concatenation that build the fused weight), then the projection region, then the attention region.  Between two
  items the core holds every unscoped buffer at the contents of a fold through @main: the launch memory, then the
  host operations' results, then after each region its windows' arrays at what its write-backs leave.  The fold's
  last stage gives the result buffer (the attention region's output array after all its write-backs) and, walked back
  to the launch, every argument unchanged.
-/
import proofs.«420942_j40209483825490_2_alg».proof.Proof.Gen.Kernel.Regions
import proofs.«420942_j40209483825490_2_alg».proof.Proof.Region0K
import proofs.«420942_j40209483825490_2_alg».proof.Proof.Dat1K
import proofs.«420942_j40209483825490_2_alg».proof.Proof.Inv1K

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.R0 Cert.Kernel.R1

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a1 : (pcfg1 (F := F)).Adm)

/-! ## The buffer contents at each boundary -/

/-- Core `c`'s buffers at launch. -/
abbrev W0 : Dev nD → Valuation τ sig (Elt F) := fun c b => m ((c : Dev nD), b)
/-- After the host operations (the projection region's entry). -/
abbrev W1 : Dev nD → Valuation τ sig (Elt F) := fun c => StableHlo.after hostOps0 (W0 m c)
abbrev VA : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (VA m) c).arrAt w cfg0.N
theorem W2_arr (c : Dev nD) (w : Fin cfg0.W) :
    W2 m c (Proc.devRef .tc (Pipeline.arrRef spec0 w)) = (dat0 (VA m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VB : (c : Dev nD) → (b : Ref sig .tc) → Buf (Elt F) ((c : Thread nD τ).loc b) := fun c b => W2 m c b
theorem hF0 (c : Dev nD) (w : Fin cfg0.W) : (dat0 (VA m) c).arrAt w cfg0.N = VB m c (Pipeline.arrRef spec0 w) :=
  (W2_arr m c w).symm
theorem hrest0 (c : Dev nD) : ∀ b, b ∉ Finset.univ.image (Pipeline.arrRef spec0) → VB m c b = VA m c b :=
  fun b hb => W2_of_ne m c b fun w e => hb (Finset.mem_image.mpr ⟨w, Finset.mem_univ _, e⟩)

/-- At the attention region's exit. -/
def W3 (c : Dev nD) : Valuation τ sig (Elt F) :=
  Pipeline.withArrays spec1 c (W2 m c) fun w => (dat1 a1 (VB m) c).arrAt w (cfg1 a1).N
theorem W3_arr (c : Dev nD) (w : Fin (cfg1 a1).W) :
    W3 m a1 c (Proc.devRef .tc (Pipeline.arrRef spec1 w)) = (dat1 a1 (VB m) c).arrAt w (cfg1 a1).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m a1 c (Proc.devRef .tc b) = W2 m c (Proc.devRef .tc b) := by
  unfold W3; exact Pipeline.withArrays_of_ne spec1 c _ _ b hb
abbrev VC : (c : Dev nD) → (b : Ref sig .tc) → Buf (Elt F) ((c : Thread nD τ).loc b) := fun c b => W3 m a1 c b
theorem hF1 (c : Dev nD) (w : Fin (cfg1 a1).W) : (dat1 a1 (VB m) c).arrAt w (cfg1 a1).N = VC m a1 c (Pipeline.arrRef spec1 w) :=
  (W3_arr m a1 c w).symm
theorem hrest1 (c : Dev nD) : ∀ b, b ∉ Finset.univ.image (Pipeline.arrRef spec1) → VC m a1 c b = VB m c b :=
  fun b hb => W3_of_ne m a1 c b fun w e => hb (Finset.mem_image.mpr ⟨w, Finset.mem_univ _, e⟩)

/-! ## The arguments end as launched, the result at the attention region's last write-backs -/

theorem W1_of (c : Dev nD) (r : Ref sig .tc) (h : r ∉ hostOps0_W) : W1 m c (Proc.devRef .tc r) = m ((c : Thread nD τ).loc r) :=
  (Gen.V1_of m c r h).trans rfl

theorem W3_main_arg0 (c : Dev nD) : W3 m a1 c (Proc.devRef .tc main_arg0) = m ((c : Thread nD τ).loc main_arg0) :=
  calc W3 m a1 c (Proc.devRef .tc main_arg0)
    _ = W2 m c (Proc.devRef .tc main_arg0) := W3_of_ne m a1 c main_arg0 (by decide)
    _ = W1 m c (Proc.devRef .tc main_arg0) := (W2_arr m c 0).trans (((dat0 (VA m) c).arrAt_in 0 rfl _).trans (A_eq0 (VA m) c 0))
    _ = m ((c : Thread nD τ).loc main_arg0) := W1_of m c main_arg0 (by decide)
theorem W3_main_arg1 (c : Dev nD) : W3 m a1 c (Proc.devRef .tc main_arg1) = m ((c : Thread nD τ).loc main_arg1) :=
  calc W3 m a1 c (Proc.devRef .tc main_arg1)
    _ = W2 m c (Proc.devRef .tc main_arg1) := W3_of_ne m a1 c main_arg1 (by decide)
    _ = W1 m c (Proc.devRef .tc main_arg1) := W2_of_ne m c main_arg1 (by decide)
    _ = m ((c : Thread nD τ).loc main_arg1) := W1_of m c main_arg1 (by decide)
theorem W3_main_arg2 (c : Dev nD) : W3 m a1 c (Proc.devRef .tc main_arg2) = m ((c : Thread nD τ).loc main_arg2) :=
  calc W3 m a1 c (Proc.devRef .tc main_arg2)
    _ = W2 m c (Proc.devRef .tc main_arg2) := W3_of_ne m a1 c main_arg2 (by decide)
    _ = W1 m c (Proc.devRef .tc main_arg2) := W2_of_ne m c main_arg2 (by decide)
    _ = m ((c : Thread nD τ).loc main_arg2) := W1_of m c main_arg2 (by decide)
theorem W3_main_arg3 (c : Dev nD) : W3 m a1 c (Proc.devRef .tc main_arg3) = m ((c : Thread nD τ).loc main_arg3) :=
  calc W3 m a1 c (Proc.devRef .tc main_arg3)
    _ = W2 m c (Proc.devRef .tc main_arg3) := W3_of_ne m a1 c main_arg3 (by decide)
    _ = W1 m c (Proc.devRef .tc main_arg3) := W2_of_ne m c main_arg3 (by decide)
    _ = m ((c : Thread nD τ).loc main_arg3) := W1_of m c main_arg3 (by decide)
theorem W3_main_arg4 (c : Dev nD) : W3 m a1 c (Proc.devRef .tc main_arg4) = m ((c : Thread nD τ).loc main_arg4) :=
  calc W3 m a1 c (Proc.devRef .tc main_arg4)
    _ = W2 m c (Proc.devRef .tc main_arg4) := W3_of_ne m a1 c main_arg4 (by decide)
    _ = W1 m c (Proc.devRef .tc main_arg4) := W2_of_ne m c main_arg4 (by decide)
    _ = m ((c : Thread nD τ).loc main_arg4) := W1_of m c main_arg4 (by decide)
/-- The table as the attention region finds it is the launch's. -/
theorem VB_main_arg1 (c : Dev nD) : VB m c main_arg1 = m ((c : Thread nD τ).loc main_arg1) :=
  (W2_of_ne m c main_arg1 (by decide)).trans (W1_of m c main_arg1 (by decide))
/-- The result buffer at the end. -/
theorem W3_main_v8 (c : Dev nD) : W3 m a1 c (Proc.devRef .tc main_v8) = (dat1 a1 (VB m) c).arrAt 3 (cfg1 a1).N :=
  W3_arr m a1 c 3

/-! ## The proof data family and the thread state -/

/-- The admissible contents of each pipeline's tables: the projection has none, the attention region's are `a1`. -/
def adm : (p : Fin 2) → (pcfgs (F := F) p).Adm
  | ⟨0, _⟩ => cfg0.toPCfg_adm
  | ⟨1, _⟩ => a1

/-- Every pipeline's proof data, each at its region's entry contents. -/
def pdats : (p : Fin 2) → (c : Dev nD) → Dat τ (Elt F) Unit ℕ (UR sig nD τ) ℕ (Pipeline.pin (pcfgs (F := F)) (adm a1) p) c
  | ⟨0, _⟩ => fun c => dat0 (VA m) c
  | ⟨1, _⟩ => fun c => dat1 a1 (VB m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m a1 c) ∗ ∃ r, prngReg c r)

/-! ## The regions as segments -/

set_option backward.isDefEq.respectTransparency.types false in
/-- The projection region: entered from every unscoped buffer at `W1`, left at `W2`. -/
def reg0 : Pipeline.RegionSeg (pcfgs (F := F)) (adm a1) (pdats m a1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) (adm a1) (pdats m a1) (launch0 (F := F)).win (launch0 (F := F)).arr_whole c
      ((pdats m a1 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a1) (Ix := Unit) (Name := ℕ) (U := UR sig nD τ) (Lvl := ℕ)
      (launch0 (F := F)).win (launch0 (F := F)).arr_whole c (pdats m a1) ((pdats m a1 0 c).share_full fun _ => rfl)
      (VA m c) (VB m c) ((pdats m a1 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (hpf : ∀ c : Dev nD, (fun k => VB m c (pre1.ref k)) = a1.1)
variable (hb1 : ∀ c : Dev nD, BodyObligation (dat1 (F := F) a1 (VB m) c) (defs₀ (F := F)) Variants.none () Set.univ)

set_option backward.isDefEq.respectTransparency.types false in
/-- The attention region: entered from every unscoped buffer at `W2`, left at `W3`.  Its arrays and its length table
    split out of the unscoped buffers at entry; the table and the generator register go through the invariant and
    come back; at the exit the arrays at their final contents, the table and the rest make every unscoped buffer at `W3`. -/
def reg1 : Pipeline.RegionSeg (pcfgs (F := F)) (adm a1) (pdats m a1) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m a1 c ∗ ∃ W, owes (c : Thread nD τ) (0 : CellTallies nD τ sig Unit) W)
  X c := iprop(∃ r, prngReg c r)
  Y c := iprop((∃ r, prngReg c r) ∗ Pipeline.prefHeld pre1 c (fun _ => fullShare) a1.1)
  Z c := Pipeline.unscopedRestP (Ix := Unit) (Name := ℕ) (U := UR sig nD τ) (Lvl := ℕ) pre1 spec1 c (VB m c)
  hentry c := by
    rw [Pipeline.ownSems0_none]
    have hsplit := Pipeline.arrays_of_unscopedBufs (p := 1) (pcfgs (F := F)) (adm a1) (pdats m a1) (launch1 (F := F)).win (launch1 (F := F)).arr_whole c
      ((pdats m a1 1 c).share_full fun _ => rfl) (VB m c) fun _ => rfl
    have e : (Pipeline.unscopedRest (Ix := Unit) (Name := ℕ) (U := UR sig nD τ) (Lvl := ℕ) (Pipeline.pin (pcfgs (F := F)) (adm a1) 1).spec c (VB m c) : sProp 𝕄)
        = iprop(Pipeline.prefHeld pre1 c (fun _ => fullShare) a1.1 ∗ Pipeline.unscopedRestP pre1 spec1 c (VB m c)) := by
      rw [← hpf c]; exact Pipeline.unscopedRest_split (win := spec1) preFacts1 c (VB m c)
    rw [Pipeline.unscopedBufs_held, e] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 a1 (VB m) c
  hout c := by
    rw [Pipeline.ownSems0_none]
    refine (hout1 a1 (VB m) c).trans ?_
    iintro ⟨HY, Hr⟩
    isplitl [HY]; · iexact HY
    isplitr; · iempintro
    iexact Hr
  hexit c := by
    have hjoin := Pipeline.unscopedBufs_of_arrays (p := 1) (pcfgs (F := F)) (adm a1) (Ix := Unit) (Name := ℕ) (U := UR sig nD τ) (Lvl := ℕ)
      (launch1 (F := F)).win (launch1 (F := F)).arr_whole c (pdats m a1) ((pdats m a1 1 c).share_full fun _ => rfl)
      (VB m c) (VC m a1 c) ((pdats m a1 1 c).arrAt · (cfg1 a1).N) (hF1 m a1 c) (hrest1 m a1 c)
    have e : (Pipeline.unscopedRest (Ix := Unit) (Name := ℕ) (U := UR sig nD τ) (Lvl := ℕ) (Pipeline.pin (pcfgs (F := F)) (adm a1) 1).spec c (VB m c) : sProp 𝕄)
        = iprop(Pipeline.prefHeld pre1 c (fun _ => fullShare) a1.1 ∗ Pipeline.unscopedRestP pre1 spec1 c (VB m c)) := by
      rw [← hpf c]; exact Pipeline.unscopedRest_split (win := spec1) preFacts1 c (VB m c)
    rw [Pipeline.unscopedBufs_held, e] at hjoin
    iintro ⟨Ha, HO, ⟨Hp, Ht⟩, Hrest⟩
    imodintro
    isplitl [Ha Hrest Ht Hp]
    · isplitl [Ha Hrest Ht]
      · iapply hjoin
        isplitl [Ha]; · iexact Ha
        isplitl [Ht]; · iexact Ht
        iexact Hrest
      iexact Hp
    unfold Pipeline.Dat.owesAt Pipeline.owesWithin
    icases HO with ⟨%W, -, HO⟩; iexists W; iexact HO

/-! ## @main as segments, and the launch -/

/-- @main's three segments in order: the host stretch from the launch contents, then the two regions. -/
abbrev segs : List (Pipeline.Seg (pcfgs (F := F)) (adm a1) (pdats m a1) () defs₀ 𝒱₀ L lv) :=
  [ .host (hseg hostOps0 hostOps0_sub hostOps0_fresh (W0 m)),
    .region (reg0 m a1),
    .region (reg1 m a1 hpf hb1) ]

/-- @main is the run of the segments. -/
theorem main_run (c : Dev nD) : main (F := F) c = Pipeline.Seg.run (segs m a1 hpf hb1) := (main_chain c).trans (by chain_rfl)

include hpf hb1 in
set_option backward.isDefEq.respectTransparency.types false in
/-- From any memory with zero counters every weakly fair execution of @main terminates, nothing faulting; the result
    buffer ends at the attention region's output array after all its write-backs and every argument ends as launched. -/
theorem run : θ_run defs (onTc (τ := τ) (main (F := F))) ⟨m, fun _ => 0, ρ⟩ (fun r => ∀ c : Dev nD,
      r.2.mem ((c.tc : Thread nD τ).loc main_v8) = (dat1 a1 (VB m) c).arrAt 3 (cfg1 a1).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) (adm a1) (pdats m a1) () (cellOf_inj (adm a1)) emb₁ defs₀ 𝒱₀ L lv m ρ main (segs m a1 hpf hb1)
    (fun c Q => by rw [main_run m a1 hpf hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a1)) (cellOf_inj (adm a1))) (Pipeline.launchToks (Pipeline.pin (pcfgs (F := F)) (adm a1)) (cellOf_inj (adm a1))))
    (hu₀ := by
      iintro Hu; imodintro
      isplitl [Hu]
      · iapply (show (ownU (initOf (Pipeline.cells (Pipeline.pin (pcfgs (F := F)) (adm a1)) (cellOf_inj (adm a1))) (Pipeline.launchToks (Pipeline.pin (pcfgs (F := F)) (adm a1)) (cellOf_inj (adm a1)))) : sProp 𝕄)
            ⊢ BI.own (emb₁ (initOf (Pipeline.cells (Pipeline.pin (pcfgs (F := F)) (adm a1)) (cellOf_inj (adm a1))) (Pipeline.launchToks (Pipeline.pin (pcfgs (F := F)) (adm a1)) (cellOf_inj (adm a1))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m a1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m a1 c b)
    (hfin := fun c s' => by
      iintro ⟨⟨Hh, -⟩, HSI⟩
      unfold StableHlo.held
      imodintro
      iapply (pointsTo_read_all (Pipeline.ucRefs τ sig) (fun b => (((c : Thread nD τ)).1, b)) (W3 m a1 c) s')
      isplitl [Hh] <;> iassumption)
    (hQ := fun s h c =>
      ⟨(h c _ (mem_uc main_v8 (by decide))).trans (W3_main_v8 m a1 c),
       (h c _ (mem_uc main_arg0 (by decide))).trans (W3_main_arg0 m a1 c),
       (h c _ (mem_uc main_arg1 (by decide))).trans (W3_main_arg1 m a1 c),
       (h c _ (mem_uc main_arg2 (by decide))).trans (W3_main_arg2 m a1 c),
       (h c _ (mem_uc main_arg3 (by decide))).trans (W3_main_arg3 m a1 c),
       (h c _ (mem_uc main_arg4 (by decide))).trans (W3_main_arg4 m a1 c)⟩)

end Cert.Kernel.Run

end
-- ==== Proof.Body1AuxK.lean ====
/-
  Whole-buffer facts the attention region's body triple rests on.

  Every vector access of the body is through the rectangle that is the whole shape of its buffer: a store through
  it, made last, leaves exactly the stored vector; a load through it reads what the buffer holds, or the vector
  the latest such store left.  The one scalar access is the length word: the table's entry at the grid point's
  batch coordinate.
-/
import proofs.«420942_j40209483825490_2_alg».proof.Proof.Body1SpecK
import Idealize.ShloMosaic.Lib.WholeRead
import Idealize.ShloMosaic.Lib.Pipeline.Value
import Idealize.ShloMosaic.Lib.Pipeline.FrameBody
import Idealize.ShloMosaic.Lib.Tactic

set_option maxRecDepth 16384

noncomputable section

namespace Cert.Kernel.R1

open Cert.Kernel Cert.Kernel.Gen Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A whole-buffer rectangle: what a store through it leaves, what a load through it reads -/

section Whole

variable {S : Shape} {e : EltTy} {sp : Space}

/-- A piece over the whole shape covers every index, whatever pieces follow it. -/
theorem cover_whole_cons {off : Fin S.rank → Nat} (hz : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set := by
  subst hz
  refine ⟨_, List.mem_cons_self, ?_⟩
  show y ∈ (Rect.whole S).set
  rw [Rect.set_whole]; exact Finset.mem_univ y

/-- After a store of a vector through the whole shape, made last, the buffer reads that vector. -/
theorem read_store_whole (m : Memref sig .tc sp S e) {off : Fin S.rank → Nat} (hz : off = fun _ => 0)
    (inb : ∀ a, off a + S.size a ≤ S.size a) (f : m.view.ty.Contents (Elt F)) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (cover_whole_cons hz inb w L), View.canon_cons_unit_zero hz]

/-- A load through the whole shape of a whole buffer reads what the buffer reads. -/
theorem readAt_whole (m : Memref sig .tc sp S e) (hm : m.IsWhole) {off : Fin S.rank → Nat} (hz : off = fun _ => 0)
    (inb : ∀ a, off a + S.size a ≤ S.size a) (X : S.Idx → Elt F e) :
    m.view.readAt (Elt F) (Rect.unit off S.size inb).toLoadRect (hm.unread X) = X := by
  rw [View.readAt_eq_ld, hm.read_unread, View.ld_unit_zero hz]

/-- A load through the whole shape after such a store reads the stored vector. -/
theorem readCov_whole_cons (m : Memref sig .tc sp S e) {off : Fin S.rank → Nat} (hz : off = fun _ => 0)
    (inb inb' : ∀ a, off a + S.size a ≤ S.size a) (w : S.Idx → Elt F e) (L : List (View.Piece (Elt F) S e)) :
    m.view.readCov ((⟨Rect.unit off S.size inb, w⟩ : View.Piece (Elt F) S e) :: L) (Rect.unit off S.size inb').toLoadRect = w := by
  rw [View.readCov_eq_canon_ld _ _ _ (cover_whole_cons hz inb w L), View.canon_cons_unit_zero hz, View.ld_unit_zero hz]

end Whole

theorem z2 : (![0, 0] : Fin 2 → Nat) = fun _ => 0 := by funext a; fin_cases a <;> rfl
theorem z3 : (![0, 0, 0] : Fin 3 → Nat) = fun _ => 0 := by funext a; fin_cases a <;> rfl

/-! ## The length word -/

/-- The word the body loads from the table is the table's entry at the point's batch coordinate. -/
theorem word_eq (i : grid1.Coords) (arg3 : Memref sig .tc .smem S8 .i32) (harg3 : arg3.IsWhole) (tbl : Vec F S8 .i32)
    (inb : ∀ a, k1_off1 i a + (![1] : Fin 1 → Nat) a ≤ S8.size a)
    (x : (Rect.unit (s := S8) (k1_off1 i) ![1] inb).toLoadRect.shape.Idx) :
    arg3.view.readAt (Elt F) (Rect.unit (s := S8) (k1_off1 i) ![1] inb).toLoadRect (harg3.unread tbl) x = lenAt tbl i := by
  rw [harg3.readAt_unread]
  unfold lenAt
  congr 1
  funext d
  match d with
  | ⟨0, _⟩ =>
    apply Fin.ext
    have h8 : (i 0).val < 8 := (i 0).isLt
    have hx : (x 0).val = 0 := by have := (x 0).isLt; simpa using this
    show (BitVec.ofNat 32 (i 0).val).toNat + 1 * (x 0).val = (i 0).val
    rw [hx, BitVec.toNat_ofNat, Nat.mod_eq_of_lt (by omega)]; rfl

end Cert.Kernel.R1

end
-- ==== Proof.Body1CaseTTTK.lean ====
/-
  The attention region's body at a grid point that is the first key tile, folded in, the last key tile.

  The row state is reset to (−∞, 0, 0) first.  The tile of 512 keys is folded in: the new maximum, the denominator and the numerator rescaled by exp (m_old − m_new) plus the tile's sums.  The quotient numerator / max (denominator, ε) is stored to the output block.
-/
import proofs.«420942_j40209483825490_2_alg».proof.Proof.Body1AuxK
import Idealize.ShloMosaic.Lib.Pipeline.FrameBody
import Idealize.ShloMosaic.Lib.Tactic

set_option maxRecDepth 16384

noncomputable section

namespace Cert.Kernel.R1

open Cert.Kernel Cert.Kernel.Gen Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at a grid point that is the first key tile of its row, whose tile is folded in,
    and that is the last key tile. -/
theorem case_TTT (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : firstW i) (hL : liveW i (lenAt tbl i)) (hE : k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.Kernel.R1

end
-- ==== Proof.Body1CaseTTFK.lean ====
/-
  The attention region's body at a grid point that is the first key tile, folded in, not the last key tile.

  The row state is reset to (−∞, 0, 0) first.  The tile of 512 keys is folded in: the new maximum, the denominator and the numerator rescaled by exp (m_old − m_new) plus the tile's sums.  The output block is not touched.
-/
import proofs.«420942_j40209483825490_2_alg».proof.Proof.Body1AuxK
import Idealize.ShloMosaic.Lib.Pipeline.FrameBody
import Idealize.ShloMosaic.Lib.Tactic

set_option maxRecDepth 16384

noncomputable section

namespace Cert.Kernel.R1

open Cert.Kernel Cert.Kernel.Gen Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at a grid point that is the first key tile of its row, whose tile is folded in,
    and that is not the last key tile. -/
theorem case_TTF (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : firstW i) (hL : liveW i (lenAt tbl i)) (hE : ¬ k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.Kernel.R1

end
-- ==== Proof.Body1CaseTFTK.lean ====
/-
  The attention region's body at a grid point that is the first key tile, skipped, the last key tile.

  The row state is reset to (−∞, 0, 0) first.  The tile lies wholly in the padding, and the state is left as it is.  The quotient numerator / max (denominator, ε) is stored to the output block.
-/
import proofs.«420942_j40209483825490_2_alg».proof.Proof.Body1AuxK
import Idealize.ShloMosaic.Lib.Pipeline.FrameBody
import Idealize.ShloMosaic.Lib.Tactic

set_option maxRecDepth 16384

noncomputable section

namespace Cert.Kernel.R1

open Cert.Kernel Cert.Kernel.Gen Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at a grid point that is the first key tile of its row, whose tile is not folded in,
    and that is the last key tile. -/
theorem case_TFT (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : firstW i) (hL : ¬ liveW i (lenAt tbl i)) (hE : k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.Kernel.R1

end
-- ==== Proof.Body1CaseTFFK.lean ====
/-
  The attention region's body at a grid point that is the first key tile, skipped, not the last key tile.

  The row state is reset to (−∞, 0, 0) first.  The tile lies wholly in the padding, and the state is left as it is.  The output block is not touched.
-/
import proofs.«420942_j40209483825490_2_alg».proof.Proof.Body1AuxK
import Idealize.ShloMosaic.Lib.Pipeline.FrameBody
import Idealize.ShloMosaic.Lib.Tactic

set_option maxRecDepth 16384

noncomputable section

namespace Cert.Kernel.R1

open Cert.Kernel Cert.Kernel.Gen Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at a grid point that is the first key tile of its row, whose tile is not folded in,
    and that is not the last key tile. -/
theorem case_TFF (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : firstW i) (hL : ¬ liveW i (lenAt tbl i)) (hE : ¬ k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.Kernel.R1

end
-- ==== Proof.Body1CaseFTTK.lean ====
/-
  The attention region's body at a grid point that is a later key tile, folded in, the last key tile.

  The row state is what the point before left.  The tile of 512 keys is folded in: the new maximum, the denominator and the numerator rescaled by exp (m_old − m_new) plus the tile's sums.  The quotient numerator / max (denominator, ε) is stored to the output block.
-/
import proofs.«420942_j40209483825490_2_alg».proof.Proof.Body1AuxK
import Idealize.ShloMosaic.Lib.Pipeline.FrameBody
import Idealize.ShloMosaic.Lib.Tactic

set_option maxRecDepth 16384

noncomputable section

namespace Cert.Kernel.R1

open Cert.Kernel Cert.Kernel.Gen Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at a grid point that is not the first key tile of its row, whose tile is folded in,
    and that is the last key tile. -/
theorem case_FTT (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : ¬ firstW i) (hL : liveW i (lenAt tbl i)) (hE : k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.Kernel.R1

end
-- ==== Proof.Body1CaseFTFK.lean ====
/-
  The attention region's body at a grid point that is a later key tile, folded in, not the last key tile.

  The row state is what the point before left.  The tile of 512 keys is folded in: the new maximum, the denominator and the numerator rescaled by exp (m_old − m_new) plus the tile's sums.  The output block is not touched.
-/
import proofs.«420942_j40209483825490_2_alg».proof.Proof.Body1AuxK
import Idealize.ShloMosaic.Lib.Pipeline.FrameBody
import Idealize.ShloMosaic.Lib.Tactic

set_option maxRecDepth 16384

noncomputable section

namespace Cert.Kernel.R1

open Cert.Kernel Cert.Kernel.Gen Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at a grid point that is not the first key tile of its row, whose tile is folded in,
    and that is not the last key tile. -/
theorem case_FTF (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : ¬ firstW i) (hL : liveW i (lenAt tbl i)) (hE : ¬ k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.Kernel.R1

end
-- ==== Proof.Body1CaseFFTK.lean ====
/-
  The attention region's body at a grid point that is a later key tile, skipped, the last key tile.

  The row state is what the point before left.  The tile lies wholly in the padding, and the state is left as it is.  The quotient numerator / max (denominator, ε) is stored to the output block.
-/
import proofs.«420942_j40209483825490_2_alg».proof.Proof.Body1AuxK
import Idealize.ShloMosaic.Lib.Pipeline.FrameBody
import Idealize.ShloMosaic.Lib.Tactic

set_option maxRecDepth 16384

noncomputable section

namespace Cert.Kernel.R1

open Cert.Kernel Cert.Kernel.Gen Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at a grid point that is not the first key tile of its row, whose tile is not folded in,
    and that is the last key tile. -/
theorem case_FFT (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : ¬ firstW i) (hL : ¬ liveW i (lenAt tbl i)) (hE : k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.Kernel.R1

end
-- ==== Proof.Body1CaseFFFK.lean ====
/-
  The attention region's body at a grid point that is a later key tile, skipped, not the last key tile.

  The row state is what the point before left.  The tile lies wholly in the padding, and the state is left as it is.  The output block is not touched.
-/
import proofs.«420942_j40209483825490_2_alg».proof.Proof.Body1AuxK
import Idealize.ShloMosaic.Lib.Pipeline.FrameBody
import Idealize.ShloMosaic.Lib.Tactic

set_option maxRecDepth 16384

noncomputable section

namespace Cert.Kernel.R1

open Cert.Kernel Cert.Kernel.Gen Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at a grid point that is not the first key tile of its row, whose tile is not folded in,
    and that is not the last key tile. -/
theorem case_FFF (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) (hF : ¬ firstW i) (hL : ¬ liveW i (lenAt tbl i)) (hE : ¬ k1_cond3 i = 1#1) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  simp only [cc1__flash_attn_kernel_eq_skeleton]; unfold cc1__flash_attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  have hL' := hL
  unfold liveW at hL'
  rw [← word_eq i arg3 harg3 tbl (k1_off1_inb i) (Shape.Idx.first (numel1_S1.symm ▸ Nat.one_pos))] at hL'
  sl_exec (disch := first | sl_exact hF | sl_exact hL' | sl_exact hE)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H8]
  · iexists _; isplitr; swap; · iexact H8
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  isplitl [H9]
  · iexists _; isplitr; swap; · iexact H9
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]
  · iexists _; isplitr; swap; · iexact H10
    ipureintro
    sl_unfold_run_names
    simp only [scrNext, scrStep, scrInit, outNext, outFin, hF, hL, hE, ↓reduceIte,
      read_store_whole arg7 z3, read_store_whole arg8 z2, read_store_whole arg9 z2, read_store_whole arg10 z2,
      Memref.IsWhole.read_unread,
      readAt_whole arg4 harg4 z3, readAt_whole arg5 harg5 z3, readAt_whole arg6 harg6 z3, readAt_whole arg7 harg7 z3,
      readAt_whole arg8 harg8 z2, readAt_whole arg9 harg9 z2, readAt_whole arg10 harg10 z2,
      readCov_whole_cons arg8 z2, readCov_whole_cons arg9 z2, readCov_whole_cons arg10 z2, word_eq]

end Cert.Kernel.R1

end
-- ==== Proof.Body1K.lean ====
/-
  The body's triple of the attention region, at every grid point.

  At grid point (b, qi, ki) the body resets the row state when ki = 0, folds the tile of 512 keys in when its first
  key position ki·512 lies below the sequence's length, and stores the quotient when ki = 3.  The three conditions
  are independent words; the triple is proved in each of their eight combinations and assembled here.
-/
import proofs.«420942_j40209483825490_2_alg».proof.Proof.Body1CaseTTTK
import proofs.«420942_j40209483825490_2_alg».proof.Proof.Body1CaseTTFK
import proofs.«420942_j40209483825490_2_alg».proof.Proof.Body1CaseTFTK
import proofs.«420942_j40209483825490_2_alg».proof.Proof.Body1CaseTFFK
import proofs.«420942_j40209483825490_2_alg».proof.Proof.Body1CaseFTTK
import proofs.«420942_j40209483825490_2_alg».proof.Proof.Body1CaseFTFK
import proofs.«420942_j40209483825490_2_alg».proof.Proof.Body1CaseFFTK
import proofs.«420942_j40209483825490_2_alg».proof.Proof.Body1CaseFFFK
import Idealize.ShloMosaic.Lib.Pipeline.FrameBody
import Idealize.ShloMosaic.Lib.Tactic

set_option maxRecDepth 16384

noncomputable section

namespace Cert.Kernel.R1

open Cert.Kernel Cert.Kernel.Gen Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- On whole staging buffers holding the length table, the query block, the key and value blocks, the output block
    and the row state, the body runs to a state holding the inputs as they were, the row state advanced by one grid
    point and the output block as the point leaves it. -/
theorem sound_kernel1 (c : Dev nD) (E : Set ℕ) (i : grid1.Coords)
    (arg3 : Memref sig .tc .smem S8 .i32) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole)
    (sh : PosShare TreeShare)
    (tbl : Vec F S8 .i32) (q : Vec F S1x1024x1024 .bf16) (k v : Vec F S1x512x1024 .bf16) (o : Vec F S1x1024x1024 .f32) (s : Scr F) (K : PUnit → sProp 𝕄) :
    iprop(owns (c : Thread nD τ) arg3 sh tbl ∗ owns (c : Thread nD τ) arg4 fullShare q ∗ owns (c : Thread nD τ) arg5 fullShare k ∗ owns (c : Thread nD τ) arg6 fullShare v
        ∗ owns (c : Thread nD τ) arg7 fullShare o ∗ owns (c : Thread nD τ) arg8 fullShare s.1 ∗ owns (c : Thread nD τ) arg9 fullShare s.2.1 ∗ owns (c : Thread nD τ) arg10 fullShare s.2.2
        ∗ (iprop(owns (c : Thread nD τ) arg3 sh tbl ∗ owns (c : Thread nD τ) arg4 fullShare q ∗ owns (c : Thread nD τ) arg5 fullShare k ∗ owns (c : Thread nD τ) arg6 fullShare v
            ∗ owns (c : Thread nD τ) arg7 fullShare (outNext i (lenAt tbl i) q k v s o)
            ∗ owns (c : Thread nD τ) arg8 fullShare (scrNext i (lenAt tbl i) q k v s).1 ∗ owns (c : Thread nD τ) arg9 fullShare (scrNext i (lenAt tbl i) q k v s).2.1 ∗ owns (c : Thread nD τ) arg10 fullShare (scrNext i (lenAt tbl i) q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10) K := by
  by_cases hF : firstW i <;> by_cases hL : liveW i (lenAt tbl i) <;> by_cases hE : k1_cond3 i = 1#1
  · exact case_TTT c E i arg3 harg3 arg4 harg4 arg5 harg5 arg6 harg6 arg7 harg7 arg8 harg8 arg9 harg9 arg10 harg10 sh tbl q k v o s K hF hL hE
  · exact case_TTF c E i arg3 harg3 arg4 harg4 arg5 harg5 arg6 harg6 arg7 harg7 arg8 harg8 arg9 harg9 arg10 harg10 sh tbl q k v o s K hF hL hE
  · exact case_TFT c E i arg3 harg3 arg4 harg4 arg5 harg5 arg6 harg6 arg7 harg7 arg8 harg8 arg9 harg9 arg10 harg10 sh tbl q k v o s K hF hL hE
  · exact case_TFF c E i arg3 harg3 arg4 harg4 arg5 harg5 arg6 harg6 arg7 harg7 arg8 harg8 arg9 harg9 arg10 harg10 sh tbl q k v o s K hF hL hE
  · exact case_FTT c E i arg3 harg3 arg4 harg4 arg5 harg5 arg6 harg6 arg7 harg7 arg8 harg8 arg9 harg9 arg10 harg10 sh tbl q k v o s K hF hL hE
  · exact case_FTF c E i arg3 harg3 arg4 harg4 arg5 harg5 arg6 harg6 arg7 harg7 arg8 harg8 arg9 harg9 arg10 harg10 sh tbl q k v o s K hF hL hE
  · exact case_FFT c E i arg3 harg3 arg4 harg4 arg5 harg5 arg6 harg6 arg7 harg7 arg8 harg8 arg9 harg9 arg10 harg10 sh tbl q k v o s K hF hL hE
  · exact case_FFF c E i arg3 harg3 arg4 harg4 arg5 harg5 arg6 harg6 arg7 harg7 arg8 harg8 arg9 harg9 arg10 harg10 sh tbl q k v o s K hF hL hE

end Cert.Kernel.R1

end
-- ==== Proof.Obl1K.lean ====
/-
  The body obligation of the attention region. At grid point t = (b, qi, ki) the body, from the region's invariant
  (the length table held whole, the scratch triple at the state the point before left), the three input blocks and
  the output window's buffer at whatever it holds, runs to the invariant at the next point: the scratch triple at the
  state function applied to the state before (at the first point nothing is assumed of the state before: the first key
  tile resets it), the input blocks as they were, and the output buffer at the quotient acc / max(l, ε) when ki is the
  last key tile, else untouched. The output block is written back only after a last key tile (its block index (b, qi, 0)
  changes only when ki wraps), so an untouched buffer is never written back.
-/
import proofs.«420942_j40209483825490_2_alg».proof.Proof.Dat1K
import proofs.«420942_j40209483825490_2_alg».proof.Proof.Body1K

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The schedule of the output window, free of the table -/

/-- The output window's write-back test over the compiled grid: its block index (b, qi, 0) reads no table. -/
def flushO (t : Fin grid1.N) : Bool :=
  decide (t.val + 1 = grid1.N) || decide (∃ h : t.val + 1 < grid1.N, cc1_transform_3 (grid1.coords ⟨t.val + 1, h⟩) ≠ cc1_transform_3 (grid1.coords t))

/-- The output block is written back only after the last key tile of its row. -/
theorem flushO_last : ∀ t : Fin grid1.N, flushO t = true → k1_cond3 (grid1.coords t) = 1#1 := by decide +kernel

section
variable (a : (pcfg1 (F := F)).Adm)

theorem flush1_3_eq (t : Fin (cfg1 a).N) : ((cfg1 a).win 3).flush t = flushO t := rfl

theorem flush1_3 (t : Fin (cfg1 a).N) (h : ((cfg1 a).win 3).flush t = true) : k1_cond3 ((cfg1 a).grid.coords t) = 1#1 :=
  flushO_last t ((flush1_3_eq a t).symm.trans h)

theorem idle1_3 (i : (cfg1 a).grid.Coords) : (cfg1 a).idle 3 i = !(k1_cond3 i == 1#1) := rfl
theorem idle1_0 (i : (cfg1 a).grid.Coords) : (cfg1 a).idle 0 i = false := rfl
theorem idle1_1 (i : (cfg1 a).grid.Coords) : (cfg1 a).idle 1 i = false := rfl
theorem idle1_2 (i : (cfg1 a).grid.Coords) : (cfg1 a).idle 2 i = false := rfl
end

variable (a : (pcfg1 (F := F)).Adm)
variable (V : (c : Dev nD) → (b : Ref sig .tc) → Buf (Elt F) ((c : Thread nD τ).loc b))

/-! ## What the body finds in the input windows -/

/-- The query window's buffer holds the block of its last fetch at every point. -/
theorem before1_0 (c : Dev nD) (t : Fin (cfg1 a).N) (d) : (dat1 a V c).before 0 t d = qAt a V c t.val t.isLt :=
  Pipeline.Dat.before_eq_heldIn (dat1 a V c) 0 rfl (fun _ => rfl) (fun _ _ => rfl) (fun t => after1_0 a V c t) t d
/-- So does the key window's, -/
theorem before1_1 (c : Dev nD) (t : Fin (cfg1 a).N) (d) : (dat1 a V c).before 1 t d = kAt a V c t.val t.isLt :=
  Pipeline.Dat.before_eq_heldIn (dat1 a V c) 1 rfl (fun _ => rfl) (fun _ _ => rfl) (fun t => after1_1 a V c t) t d
/-- and the value window's. -/
theorem before1_2 (c : Dev nD) (t : Fin (cfg1 a).N) (d) : (dat1 a V c).before 2 t d = vAt a V c t.val t.isLt :=
  Pipeline.Dat.before_eq_heldIn (dat1 a V c) 2 rfl (fun _ => rfl) (fun _ _ => rfl) (fun t => after1_2 a V c t) t d

/-! ## The table, held whole -/

/-- The region's hold on the length table is the table's whole memref owned at its contents. -/
theorem prefHeld_eq (c : Dev nD) :
    (Pipeline.prefHeld pre1 c (fun _ => fullShare) a.1 : sProp 𝕄)
      = owns (c : Thread nD τ) (Memref.whole main_arg1) fullShare (a.1 0) := by
  unfold Pipeline.prefHeld
  rw [bigSep_univ_eq_bigSepL [(0 : Fin 1)] (by decide) (by decide)]
  exact (owns_whole (c : Thread nD τ) main_arg1 fullShare (a.1 0)).symm

/-! ## The scratch state, point by point -/

/-- At the first key tile of a row the state before is not read. -/
theorem scrNext_first (i : grid1.Coords) (hi : firstW i) (len : BitVec 32) (q : Vec F S1x1024x1024 .bf16) (k v : Vec F S1x512x1024 .bf16)
    (s s' : Scr F) : scrNext i len q k v s = scrNext i len q k v s' := by
  unfold scrNext; simp only [if_pos hi]

/-- The grid's first point is a first key tile. -/
theorem firstW_zero : firstW (grid1.coords ⟨0, by decide⟩) := by decide

/-- The state the body leaves at point `t`, from any state that is the one the point before left. -/
theorem scrNext_eq_scrAt (c : Dev nD) (t : Fin (cfg1 a).N) (s : Scr F)
    (hs : t.val ≠ 0 → ∃ h : t.val - 1 < (cfg1 a).N, s = scrAt a V c (t.val - 1) h) :
    scrNext ((cfg1 a).grid.coords t) (lenAt (a.1 0) ((cfg1 a).grid.coords t)) (qAt a V c t.val t.isLt) (kAt a V c t.val t.isLt)
      (vAt a V c t.val t.isLt) s = scrAt a V c t.val t.isLt := by
  obtain ⟨n, hn⟩ := t
  cases n with
  | zero => exact scrNext_first _ firstW_zero _ _ _ _ _ _
  | succ n =>
    obtain ⟨h, rfl⟩ := hs (Nat.succ_ne_zero n)
    rfl

/-! ## The body at a point -/

/-- The kernel body at point `t`, on what the pipeline calls it with. -/
abbrev bodyAt1 (t : Fin (cfg1 a).N) : Prog (TpuEff nD τ sig (Elt F) Λ₀ .tc) PUnit :=
  cc1__flash_attn_kernel (grid1.coords t) (Memref.whole main_arg1) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (Memref.whole cc1_scratch0) (Memref.isWhole_whole _) (Memref.whole cc1_scratch1) (Memref.isWhole_whole _)
    (Memref.whole cc1_scratch2) (Memref.isWhole_whole _)

/-- What the body is called with at point `t`: the invariant, what the core owes, and each window's current buffer. -/
def bodyPre1 (c : Dev nD) (t : Fin (cfg1 a).N) : sProp 𝕄 :=
  iprop((dat1 a V c).Φ t.castSucc ∗ (dat1 a V c).owesAt () t.castSucc
    ∗ (∃ d, owns (c : Thread nD τ) (((cfg1 a).win 0).stage ((cfg1 a).slots t 0)) fullShare ((dat1 a V c).before 0 t d))
    ∗ (∃ d, owns (c : Thread nD τ) (((cfg1 a).win 1).stage ((cfg1 a).slots t 1)) fullShare ((dat1 a V c).before 1 t d))
    ∗ (∃ d, owns (c : Thread nD τ) (((cfg1 a).win 2).stage ((cfg1 a).slots t 2)) fullShare ((dat1 a V c).before 2 t d))
    ∗ (∃ d, owns (c : Thread nD τ) (((cfg1 a).win 3).stage ((cfg1 a).slots t 3)) fullShare ((dat1 a V c).before 3 t d)))

/-- What it returns of the output window: where the window is idle and not written back, the buffer as it was handed;
    else the quotient block. -/
def outPost1 (c : Dev nD) (t : Fin (cfg1 a).N) : sProp 𝕄 :=
  match (cfg1 a).idle 3 ((cfg1 a).grid.coords t) with
  | true =>
    match ((cfg1 a).win 3).flush t with
    | false => iprop(∃ d, owns (c : Thread nD τ) (((cfg1 a).win 3).stage ((cfg1 a).slots t 3)) fullShare ((dat1 a V c).before 3 t d))
    | true => owns (c : Thread nD τ) (((cfg1 a).win 3).stage ((cfg1 a).slots t 3)) fullShare ((dat1 a V c).after 3 t)
  | false => owns (c : Thread nD τ) (((cfg1 a).win 3).stage ((cfg1 a).slots t 3)) fullShare ((dat1 a V c).after 3 t)

/-- And all it returns. -/
def bodyPost1 (c : Dev nD) (t : Fin (cfg1 a).N) : sProp 𝕄 :=
  iprop((dat1 a V c).Φ t.succ ∗ (dat1 a V c).owesAt () t.succ
    ∗ owns (c : Thread nD τ) (((cfg1 a).win 0).stage ((cfg1 a).slots t 0)) fullShare ((dat1 a V c).after 0 t)
    ∗ owns (c : Thread nD τ) (((cfg1 a).win 1).stage ((cfg1 a).slots t 1)) fullShare ((dat1 a V c).after 1 t)
    ∗ owns (c : Thread nD τ) (((cfg1 a).win 2).stage ((cfg1 a).slots t 2)) fullShare ((dat1 a V c).after 2 t)
    ∗ outPost1 a V c t)

/-- The output block at a last key tile is the quotient of the state the body leaves; elsewhere it is untouched. -/
theorem outNext_live (i : grid1.Coords) (hc : k1_cond3 i = 1#1) (len : BitVec 32) (q : Vec F S1x1024x1024 .bf16) (k v : Vec F S1x512x1024 .bf16)
    (s : Scr F) (o : Vec F S1x1024x1024 .f32) : outNext i len q k v s o = outFin (scrNext i len q k v s) := if_pos hc
theorem outNext_idle (i : grid1.Coords) (hc : ¬k1_cond3 i = 1#1) (len : BitVec 32) (q : Vec F S1x1024x1024 .bf16) (k v : Vec F S1x512x1024 .bf16)
    (s : Scr F) (o : Vec F S1x1024x1024 .f32) : outNext i len q k v s o = o := if_neg hc

/-- What the body leaves in the output window's buffer is what the obligation asks of it. -/
theorem leaves1_3 (c : Dev nD) (t : Fin (cfg1 a).N) (s : Scr F)
    (hs : t.val ≠ 0 → ∃ h : t.val - 1 < (cfg1 a).N, s = scrAt a V c (t.val - 1) h) (d) :
    owns (c : Thread nD τ) (((cfg1 a).win 3).stage ((cfg1 a).slots t 3)) fullShare
        (outNext ((cfg1 a).grid.coords t) (lenAt (a.1 0) ((cfg1 a).grid.coords t)) (qAt a V c t.val t.isLt) (kAt a V c t.val t.isLt)
          (vAt a V c t.val t.isLt) s ((dat1 a V c).before 3 t d))
      ⊢ outPost1 a V c t := by
  unfold outPost1
  by_cases hc : k1_cond3 ((cfg1 a).grid.coords t) = 1#1
  · have hi : (cfg1 a).idle 3 ((cfg1 a).grid.coords t) = false := by rw [idle1_3, hc]; rfl
    have e : outNext ((cfg1 a).grid.coords t) (lenAt (a.1 0) ((cfg1 a).grid.coords t)) (qAt a V c t.val t.isLt) (kAt a V c t.val t.isLt)
        (vAt a V c t.val t.isLt) s ((dat1 a V c).before 3 t d) = (dat1 a V c).after 3 t :=
      (outNext_live _ hc _ _ _ _ _ _).trans ((congrArg outFin (scrNext_eq_scrAt a V c t s hs)).trans (after1_3 a V c t).symm)
    rw [hi]
    exact Entails.of_eq (congrArg (fun X => owns (c : Thread nD τ) (((cfg1 a).win 3).stage ((cfg1 a).slots t 3)) fullShare X) e)
  · have hi : (cfg1 a).idle 3 ((cfg1 a).grid.coords t) = true := by
      rw [idle1_3]; simp only [Bool.not_eq_true', beq_eq_false_iff_ne, ne_eq]; exact hc
    have hf : ((cfg1 a).win 3).flush t = false := Bool.eq_false_iff.mpr fun h => hc (flush1_3 a t h)
    have e : outNext ((cfg1 a).grid.coords t) (lenAt (a.1 0) ((cfg1 a).grid.coords t)) (qAt a V c t.val t.isLt) (kAt a V c t.val t.isLt)
        (vAt a V c t.val t.isLt) s ((dat1 a V c).before 3 t d) = (dat1 a V c).before 3 t d := outNext_idle _ hc _ _ _ _ _ _
    rw [hi, hf]
    refine (Entails.of_eq (congrArg (fun X => owns (c : Thread nD τ) (((cfg1 a).win 3).stage ((cfg1 a).slots t 3)) fullShare X) e)).trans ?_
    iintro H; iexists d; iexact H

theorem sound_body1 (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  simp only [before1_0, before1_1, before1_2]
  rw [show (dat1 a V c).owesAt () t.succ = (dat1 a V c).owesAt () t.castSucc from rfl, after1_0, after1_1, after1_2,
    show (dat1 a V c).Φ t.castSucc = Φ1 a V c t.castSucc from rfl, show (dat1 a V c).Φ t.succ = Φ1 a V c t.succ from rfl]
  unfold Φ1 scrHeld
  rw [prefHeld_eq]
  iintro ⟨⟨Hrest, Hprng, Htbl, %s, %hs, Hs0, Hs1, Hs2⟩, Ho, ⟨%d0, H0⟩, ⟨%d1, H1⟩, ⟨%d2, H2⟩, ⟨%d3, H3⟩⟩
  iapply (sound_kernel1 c Set.univ (grid1.coords t) (Memref.whole main_arg1) _ _ _ _ _ _ _ _ _ _ _ _ _ _ _ fullShare (a.1 0)
      (qAt a V c t.val t.isLt) (kAt a V c t.val t.isLt) (vAt a V c t.val t.isLt) ((dat1 a V c).before 3 t d3) s _)
  isplitl [Htbl]; · iexact Htbl
  isplitl [H0]; · iexact H0
  isplitl [H1]; · iexact H1
  isplitl [H2]; · iexact H2
  isplitl [H3]; · iexact H3
  isplitl [Hs0]; · iexact Hs0
  isplitl [Hs1]; · iexact Hs1
  isplitl [Hs2]; · iexact Hs2
  iintro ⟨Htbl, H0, H1, H2, H3, Hs0, Hs1, Hs2⟩
  isplitl [Hrest Hprng Htbl Hs0 Hs1 Hs2]
  · isplitl [Hrest]; · iexact Hrest
    isplitl [Hprng]; · iexact Hprng
    isplitl [Htbl]; · iexact Htbl
    iexists (scrNext (grid1.coords t) (lenAt (a.1 0) (grid1.coords t)) (qAt a V c t.val t.isLt) (kAt a V c t.val t.isLt) (vAt a V c t.val t.isLt) s)
    isplitr
    · ipureintro; intro _; exact ⟨t.isLt, scrNext_eq_scrAt a V c t s hs⟩
    isplitl [Hs0]; · iexact Hs0
    isplitl [Hs1]; · iexact Hs1
    iexact Hs2
  isplitl [Ho]; · iexact Ho
  isplitl [H0]; · iexact H0
  isplitl [H1]; · iexact H1
  isplitl [H2]; · iexact H2
  iapply (leaves1_3 a V c t s hs d3); iexact H3

/-- The body obligation, at every point. -/
theorem body_obligation1 (c : Dev nD) : BodyObligation (dat1 (F := F) a V c) (defs₀ (F := F)) Variants.none () Set.univ := fun t => by
  rw [bigSep_W1, bigSep_W1]
  exact sound_body1 a V c t

end Cert.Kernel.R1

end
-- ==== Proof.Ok1K.lean ====
/-
  The side condition of the attention region's prefetched length table. The key and value windows take block
  (b, min(k, ⌊(len b − 1) / 512⌋), 0) of the [8, 2048, 1024] arrays, in blocks of [1, 512, 1024]. When every length is at
  least 1 (signed), len − 1 is nonnegative and does not wrap, its signed quotient by 512 is the floor quotient (the
  round-toward-−∞ correction of the printed chain never fires: it needs the dividend's sign to differ from the divisor's AND a
  nonzero remainder; a positive dividend has the divisor's sign, and a zero dividend has remainder zero), so the block
  index is min(k, (len − 1) / 512) with 0 ≤ k ≤ 3: between 0 and 3, and block 3 ends at row 2048. The blocks' 512 rows
  are a multiple of the two-per-word packing of the 16-bit elements.
-/
import proofs.«420942_j40209483825490_2_alg».proof.Proof.Gen.Kernel
import Idealize.ShloMosaic.Lib.Affine
import Idealize.ShloMosaic.Lib.ValueIdx

noncomputable section

namespace Cert.Kernel.PreDec

open Cert.Kernel
open Idealize.ShloMosaic Idealize.ShloMosaic.Affine

/-- The key/value block index as the two index maps compute it from the length word `w` and the key-tile coordinate
    `k`: the floor quotient ⌊(w − 1) / 512⌋ (a signed quotient, one less when the signs differ and the remainder is not
    zero), capped by `k`. -/
def kvIdx (v1 arg2 : BitVec 32) : BitVec 32 :=
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg2 v19
  v20

/-- For a length word at least 1 and a key tile below 4 the block index, read signed, is min(k, (w − 1) / 512): between 0
    and 3. -/
theorem kvIdx_range (w : BitVec 32) (hw : 1 ≤ w.toInt) (k : Nat) (hk : k < 4) :
    ∃ e : Int, IsInt (kvIdx w (BitVec.ofNat 32 k)) e ∧ 0 ≤ e ∧ e ≤ 3 := by
  have h_w : IsInt w w.toInt := Affine.word w
  have r_w := Affine.word_range w
  have h_k : IsInt (BitVec.ofNat 32 k) (k : Int) := Affine.ofNat _ (by omega)
  have h_c1 : IsInt 1#32 1 := Affine.ofNat 1 (by omega)
  have h_c0 : IsInt 0#32 0 := Affine.ofNat 0 (by omega)
  have h_c512 : IsInt 512#32 512 := Affine.ofNat 512 (by omega)
  -- w − 1 does not wrap and is nonnegative
  have h_v2 := Affine.subi (e := w.toInt - 1) h_w h_c1 (by omega)
  have h_v3 := Affine.divsi (e := (w.toInt - 1) / 512) h_v2 h_c512 (by omega)
  -- the dividend is not negative: its "negative" bit is 0
  have h_v6 := Affine.slt_fails h_v2 h_c0 (by omega)
  have h_v7 := Affine.extui_fails (e := 0) h_v6 rfl
  -- the divisor is positive: its sign is 1 − 0 = 1
  have h_v9 := Affine.sgt_holds h_c512 h_c0 (by omega)
  have h_v10 := Affine.extui_holds (e := 1) h_v9 rfl
  have h_v11 := Affine.slt_fails h_c512 h_c0 (by omega)
  have h_v12 := Affine.extui_fails (e := 0) h_v11 rfl
  have h_v13 := Affine.subi (e := 1) h_v10 h_v12 (by omega)
  -- the correction's condition fails: a zero dividend has remainder zero, a positive one the divisor's sign
  have h_v17 : Fails (Scalar.andi
      (Scalar.cmpi .ne (Scalar.subi (Scalar.extui (Scalar.cmpi .sgt (Scalar.subi w 1#32) 0#32))
        (Scalar.extui (Scalar.cmpi .slt (Scalar.subi w 1#32) 0#32)))
        (Scalar.subi (Scalar.extui (Scalar.cmpi .sgt 512#32 0#32)) (Scalar.extui (Scalar.cmpi .slt 512#32 0#32))))
      (Scalar.cmpi .ne (Scalar.remsi (Scalar.subi w 1#32) 512#32) 0#32)) := by
    rcases (by omega : w.toInt - 1 = 0 ∨ 0 < w.toInt - 1) with hz | hp
    · have h_v15 := Affine.remsi (e := 0) h_v2 h_c512 (by omega)
      exact Affine.andi_fails_right trivial (Affine.ne_fails h_v15 h_c0 rfl)
    · have h_v4 := Affine.sgt_holds h_v2 h_c0 hp
      have h_v5 := Affine.extui_holds (e := 1) h_v4 rfl
      have h_v8 := Affine.subi (e := 1) h_v5 h_v7 (by omega)
      exact Affine.andi_fails_left (Affine.ne_fails h_v8 h_v13 rfl) trivial
  have h_v18 : IsInt (Scalar.subi (Scalar.divsi (Scalar.subi w 1#32) 512#32) 1#32) ((w.toInt - 1) / 512 - 1) :=
    Affine.subi h_v3 h_c1 (by omega)
  have h_v19 := Affine.select_fails (e := (w.toInt - 1) / 512) h_v17 h_v18 h_v3 rfl
  have h_v20 := Affine.minsi (e := min (k : Int) ((w.toInt - 1) / 512)) h_k h_v19 rfl
  exact ⟨_, h_v20, by omega, by omega⟩

/-- The block (b, that index, 0) lies inside the [8, 2048, 1024] array. -/
theorem kv_blk (w : BitVec 32) (hw : 1 ≤ w.toInt) (b k : Nat) (hb : b < 8) (hk : k < 4) :
    ∀ a, ((![(BitVec.ofNat 32 b).toNat, (kvIdx w (BitVec.ofNat 32 k)).toNat, (0#32 : BitVec 32).toNat] : Fin 3 → Nat) a + 1)
      * S1x512x1024.size a ≤ S8x2048x1024.size a := by
  obtain ⟨e, he, h0, h3⟩ := kvIdx_range w hw k hk
  have h_b : IsInt (BitVec.ofNat 32 b) (b : Int) := Affine.ofNat _ (by omega)
  have h_c0 : IsInt 0#32 0 := Affine.ofNat 0 (by omega)
  exact Affine.blk_cons h_b (by omega) <| Affine.blk_cons he (by omega) <| Affine.blk_cons h_c0 (by omega) <| Affine.blk_nil

variable {F : FTy → Type} [FloatOps F] [Cert.Kernel.Facts]
open Facts₀ Facts

/-- THE SIDE CONDITION, from every length word of the table being at least 1 (signed). -/
theorem ok1_of_lens (pf : pre1.Contents (Elt F)) (hl : ∀ j, 1 ≤ BitVec.toInt (pf 0 j)) : ok1 pf :=
  ⟨fun i => ⟨kv_blk _ (hl _) (i 0).val (i 2).val (i 0).isLt (i 2).isLt,
      .inr (Affine.block_words_dvd (of_decide_eq_true rfl) (by decide))⟩,
   fun i => ⟨kv_blk _ (hl _) (i 0).val (i 2).val (i 0).isLt (i 2).isLt,
      .inr (Affine.block_words_dvd (of_decide_eq_true rfl) (by decide))⟩⟩

/-- The same, the table read at its eight explicit indices. -/
theorem ok1_of_lens_ix (pf : pre1.Contents (Elt F)) (hl : ∀ b : Fin 8, 1 ≤ BitVec.toInt (pf 0 (ValueIdx.ix1 b))) : ok1 pf :=
  ok1_of_lens pf fun j => by rw [ValueIdx.eq_ix1 j]; exact hl _

end Cert.Kernel.PreDec

end
-- ==== Proof.FramesK.lean ====
/-
  The program's run from the precondition. The length table the attention region prefetches is the launch memory's
  second argument (the mesh has one device); the precondition makes every length at least 1, which is the side condition
  of the region's table-indexed windows; so the run of the whole program applies at the table read off the launch
  memory: it terminates, the result buffer ends at the attention region's output array after all its write-backs, and
  the five arguments end as launched.
-/
import proofs.«420942_j40209483825490_2_alg».proof.Proof.RunK
import proofs.«420942_j40209483825490_2_alg».proof.Proof.Obl1K
import proofs.«420942_j40209483825490_2_alg».proof.Proof.Ok1K
import proofs.«420942_j40209483825490_2_alg».proof.Proof.PreDecode

set_option maxRecDepth 16384

noncomputable section

namespace Cert.Kernel.Run

open Idealize.ShloMosaic Idealize.ShloMosaic.TcCoe
open Idealize.SL Idealize.SL.Sem
open Idealize.ShloMosaic.Pipeline (Dat Cfg Window BodyObligation)
open Cert.Kernel Cert.Kernel.Gen Cert.Kernel.R1

variable {F : FTy → Type} [FloatOps F]

variable (m : (ℓ : Loc nD τ sig) → Buf (Elt F) ℓ) (ρ : Dev nD → PrngReg)

/-- The mesh's one device. -/
abbrev dev0 : Dev nD := ⟨0, by decide⟩

/-- The length table's contents, read off the launch memory. -/
def tblOf : pre1.Contents (Elt F) := fun k => m ((dev0.tc : Thread nD τ).loc (pre1.ref k))

/-- The precondition at any float instance: on every device the printed predicate of the five arguments is all ones. -/
def PreF : Prop :=
  ∀ c : Dev nD,
    (Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) = (fun _ => 1#1)

/-- The table the attention region finds is the launch memory's: the regions before it do not write it. -/
theorem hpf_of (h : ok1 (tblOf m)) : ∀ c : Dev nD, (fun k => VB m c (pre1.ref k)) = (⟨tblOf m, h⟩ : (pcfg1 (F := F)).Adm).1 := by
  intro c
  obtain rfl : c = dev0 := Subsingleton.elim _ _
  funext k
  obtain rfl : k = 0 := Subsingleton.elim _ _
  exact VB_main_arg1 m dev0

/-- Under the precondition every length is at least 1, so every table-indexed block lies inside its array. -/
theorem ok_of_pre (hpre : PreF m) : ok1 (tblOf m) :=
  Cert.Kernel.PreDec.ok1_of_lens_ix (tblOf m) fun b => Cert.PreDec.lens_ge_one _ _ _ _ _ (hpre dev0) b

/-- THE RUN, its result named: from any memory with zero counters satisfying the precondition every weakly fair execution
    terminates, nothing faulting; the result buffer ends at the attention region's output array after all its write-backs
    and every argument ends as launched. -/
theorem run_named (hpre : PreF m) : θ_run defs (onTc (τ := τ) (main (F := F))) ⟨m, fun _ => 0, ρ⟩ (fun r => ∀ c : Dev nD,
      r.2.mem ((c.tc : Thread nD τ).loc main_v8)
        = (dat1 ⟨tblOf m, ok_of_pre m hpre⟩ (VB m) c).arrAt 3 (cfg1 ⟨tblOf m, ok_of_pre m hpre⟩).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run m ρ ⟨tblOf m, ok_of_pre m hpre⟩ (hpf_of m (ok_of_pre m hpre)) (fun c => body_obligation1 ⟨tblOf m, ok_of_pre m hpre⟩ (VB m) c)

/-- THE FRAME: the program runs and its argument arrays end unchanged. -/
theorem frame (hpre : PreF m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ hpre)

end Cert.Kernel.Run

end
-- ==== Proof.FramesB.lean ====
/-
  The word-level kernel's frame conjunct, from the run stated at any float instance.
-/
import proofs.«420942_j40209483825490_2_alg».proof.Proof.FramesK
import proofs.«420942_j40209483825490_2_alg».proof.Defs

set_option maxRecDepth 16384

noncomputable section

/-- The word-level kernel runs and its argument arrays end unchanged. -/
theorem Cert.Proof.frame_Kernel' :
    Cert.frame_Kernel (hKernel := Cert.Kernel.Gen.facts) (hPre_finite_inputs := Cert.Pre_finite_inputs.Gen.facts) :=
  fun m ρ hpre => Cert.Kernel.Run.frame m ρ hpre

end
-- ==== Proof.Spec.lean ====
/-
  The mathematics both programs compute, stated once over plain index functions.

  For batch b, query row q and output column d the attention output is
      out b q d = Σ_k softmax_k (score b q k) · v b k d ,
  where score b q k = (Σ_e Q b q e · K b k e) / √1024 for key positions k < lens b and −∞ for the padded
  positions k ≥ lens b, with Q, K, v the three projections Σ_d x b s d · W e d of the input.
  `refRow` is the two-pass softmax of one row (row maximum, exponentials, their sum, the weighted sum of values);
  `kerRow` is the one-pass ("online") form over four tiles of 512 keys: a running maximum m, a running
  denominator l and a running numerator a, rescaled by exp (m_old − m_new) whenever the maximum moves, a tile
  being skipped when all its keys are padded.  `kerRow_eq_refRow` (proved in Proof/Online.lean) says the two
  agree on every row that has at least one real key.
-/
import Idealize.ShloMosaic.PureOps.Ideal
import Idealize.ShloMosaic.Lib.ValueIdx

noncomputable section

open scoped BigOperators

namespace Cert.Attn

open Idealize.ShloMosaic Idealize.ShloMosaic.ValueIdx

/-- The array shapes, spelt as literals. -/
abbrev Sx : Shape := ⟨3, ![8, 2048, 1024]⟩
abbrev Sw : Shape := ⟨2, ![1024, 1024]⟩
abbrev Sl : Shape := ⟨1, ![8]⟩

/-! ## One row: the two-pass and the one-pass softmax-weighted sum -/

/-- The two-pass form over all 2048 keys: `s` the (masked) scores of the row, `v` the values' column. -/
def refRow (s v : Fin 2048 → EReal) : EReal :=
  let M := max ⊥ (Finset.univ.fold max ⊥ s)
  let den := 0 + ∑ k, Ideal.exp (s k - M)
  ∑ k, Ideal.div (Ideal.exp (s k - M)) den * v k

/-- A row's running state: maximum, denominator, numerator. -/
abbrev St := EReal × EReal × EReal

/-- The state before the first tile. -/
def init : St := (⊥, 0, 0)

/-- One tile of 512 keys folded into the state. -/
def step (s v : Fin 512 → EReal) (st : St) : St :=
  let mn := max st.1 (Finset.univ.fold max ⊥ s)
  let α := Ideal.exp (st.1 - mn)
  (mn, α * st.2.1 + ∑ r, Ideal.exp (s r - mn), α * st.2.2 + ∑ r, Ideal.exp (s r - mn) * v r)

/-- Tile `j` of a row of 2048. -/
def tile (f : Fin 2048 → EReal) (j : Fin 4) (r : Fin 512) : EReal :=
  f ⟨j.val * 512 + r.val, by have := j.isLt; have := r.isLt; omega⟩

/-- Tile `j` is folded in when its first key is a real one. -/
def live (len : ℤ) (j : ℕ) : Prop := ((j * 512 : ℕ) : ℤ) < len

instance (len : ℤ) (j : ℕ) : Decidable (live len j) := by unfold live; infer_instance

/-- The state after tiles 0 … n−1. -/
def stateAfter (len : ℤ) (s v : Fin 2048 → EReal) : ℕ → St
  | 0 => init
  | n + 1 => if h : n < 4 then (if live len n then step (tile s ⟨n, h⟩) (tile v ⟨n, h⟩) (stateAfter len s v n) else stateAfter len s v n)
             else stateAfter len s v n

/-- The guard under the final quotient. -/
def eps : EReal := ((1 / 1000000000000000000000000000000 : ℝ) : EReal)

/-- What the one-pass form returns for the row. -/
def kerRow (len : ℤ) (s v : Fin 2048 → EReal) : EReal :=
  Ideal.div (stateAfter len s v 4).2.2 (max (stateAfter len s v 4).2.1 eps)

/-! ## The whole arrays -/

/-- A projection `x · Wᵀ`: entry (b, s, e) is Σ_d x b s d · W e d. -/
def proj (x : Sx.Idx → EReal) (w : Sw.Idx → EReal) (b : Fin 8) (s : Fin 2048) (e : Fin 1024) : EReal :=
  ∑ d : Fin 1024, x (ix3 b s d) * w (ix2 e d)

/-- Scores as the reference takes them: the product's quotient by √1024. -/
def scoreRef (x : Sx.Idx → EReal) (wq wk : Sw.Idx → EReal) (b : Fin 8) (q k : Fin 2048) : EReal :=
  Ideal.div (∑ e : Fin 1024, proj x wq b q e * proj x wk b k e) (Ideal.sqrt (Ideal.ofBits .f32 0x44800000#32))

/-- Scores as the kernel takes them: the query scaled by the constant 2⁻⁵ first. -/
def scoreKer (x : Sx.Idx → EReal) (wq wk : Sw.Idx → EReal) (b : Fin 8) (q k : Fin 2048) : EReal :=
  ∑ e : Fin 1024, (proj x wq b q e * Ideal.ofBits .f32 0x3D000000#32) * proj x wk b k e

/-- Key positions at or beyond the sequence's length are masked to −∞. -/
def masked (len : ℤ) (f : Fin 2048 → EReal) (k : Fin 2048) : EReal := if ((k.val : ℕ) : ℤ) < len then f k else ⊥

/-- The reference's attention output. -/
def attnRef (x : Sx.Idx → EReal) (lens : Sl.Idx → BitVec 32) (wq wk wv : Sw.Idx → EReal) : Sx.Idx → EReal :=
  fun i => refRow (masked (lens (ix1 (i 0))).toInt (scoreRef x wq wk (i 0) (i 1))) (fun k => proj x wv (i 0) k (i 2))

/-- The kernel's attention output. -/
def attnKer (x : Sx.Idx → EReal) (lens : Sl.Idx → BitVec 32) (wq wk wv : Sw.Idx → EReal) : Sx.Idx → EReal :=
  fun i => kerRow (lens (ix1 (i 0))).toInt (masked (lens (ix1 (i 0))).toInt (scoreKer x wq wk (i 0) (i 1))) (fun k => proj x wv (i 0) k (i 2))

end Cert.Attn

end
-- ==== Proof.Online.lean ====
/-
  One row of attention: the one-pass ("online") softmax-weighted sum over four tiles of 512 keys equals the
  two-pass one, for a row whose first key is real and whose padded keys carry −∞.

  Every exponential that occurs is exp (x − M) with M a real number and x a real number or −∞, hence a
  nonnegative real number; writing it as a real (rexp) turns the running sums into sums of reals, where
  multiplication distributes.  After the tiles 0 … n the state is (M, Σ exp (s k − M), Σ exp (s k − M) · v k) with M
  the maximum of the scores seen and the sums over the keys seen (stateAfter_inv): moving the maximum from M to
  M' multiplies every exponential by exp (M − M'), and a tile made only of −∞ changes neither the maximum nor the
  sums.  After the last tile the denominator is at least 1 (the maximum is attained), so the guard under the
  quotient is idle, and the quotient is the two-pass sum (kerRow_eq_refRow).

  On real inputs every projection is real, the two forms of the score are the same real number (scaling the query
  by 2⁻⁵ before the product is dividing the product by √1024 = 32), and the masked scores of a sequence with at least
  one real key meet the row lemma's hypotheses: attnKer_eq_attnRef.
-/
import proofs.«420942_j40209483825490_2_alg».proof.Proof.Spec
import Mathlib.Data.EReal.Basic
import Mathlib.Data.EReal.Operations
import Mathlib.Data.Finset.Lattice.Fold
import Mathlib.Analysis.SpecialFunctions.Exp

noncomputable section

open scoped BigOperators

namespace Cert.Attn

open Idealize.ShloMosaic

/-- The coercion ℝ → EReal commutes with finite sums. -/
theorem coe_sum {ι : Type} (A : Finset ι) (f : ι → ℝ) :
    ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- exp (x − M) as a real number, for x a real number or −∞. -/
def rexp (x : EReal) (M : ℝ) : ℝ := if x = ⊥ then 0 else Real.exp (x.toReal - M)

theorem rexp_bot (M : ℝ) : rexp ⊥ M = 0 := by simp [rexp]

theorem rexp_coe (r M : ℝ) : rexp (r : EReal) M = Real.exp (r - M) := by
  simp [rexp]

theorem rexp_nonneg (x : EReal) (M : ℝ) : 0 ≤ rexp x M := by
  unfold rexp; split_ifs
  · exact le_rfl
  · exact (Real.exp_pos _).le

/-- Moving the reference point from M to M' multiplies by exp (M − M'). -/
theorem rexp_shift (x : EReal) (M M' : ℝ) : Real.exp (M - M') * rexp x M = rexp x M' := by
  unfold rexp; split_ifs
  · simp
  · rw [← Real.exp_add]; congr 1; ring

theorem exp_sub_coe {x : EReal} (hx : x ≠ ⊤) (M : ℝ) : Ideal.exp (x - (M : EReal)) = ((rexp x M : ℝ) : EReal) := by
  induction x using EReal.rec with
  | bot => rw [EReal.bot_sub, Ideal.exp_bot, rexp_bot, EReal.coe_zero]
  | top => exact absurd rfl hx
  | coe r => rw [← EReal.coe_sub, Ideal.exp_coe, rexp_coe]

/-! ## One tile folded into a real state -/

theorem step_real (t u : Fin 512 → EReal) (ht : ∀ r, t r ≠ ⊤) (w : Fin 512 → ℝ) (hu : ∀ r, u r = (w r : EReal))
    (M L A M' : ℝ) (hM' : ((M' : ℝ) : EReal) = max (M : EReal) (Finset.univ.sup t)) :
    step t u ((M : EReal), (L : EReal), (A : EReal))
      = ((M' : EReal), ((Real.exp (M - M') * L + ∑ r, rexp (t r) M' : ℝ) : EReal),
          ((Real.exp (M - M') * A + ∑ r, rexp (t r) M' * w r : ℝ) : EReal)) := by
  have hmn : max (M : EReal) (Finset.univ.fold max ⊥ t) = (M' : EReal) := hM'.symm
  simp only [step, hmn]
  simp only [exp_sub_coe (ht _), hu, ← EReal.coe_sub, Ideal.exp_coe, ← EReal.coe_mul, ← coe_sum, ← EReal.coe_add]

theorem step_init (t u : Fin 512 → EReal) (ht : ∀ r, t r ≠ ⊤) (w : Fin 512 → ℝ) (hu : ∀ r, u r = (w r : EReal))
    (M' : ℝ) (hM' : ((M' : ℝ) : EReal) = Finset.univ.sup t) :
    step t u init
      = ((M' : EReal), ((∑ r, rexp (t r) M' : ℝ) : EReal), ((∑ r, rexp (t r) M' * w r : ℝ) : EReal)) := by
  have hmn : max (⊥ : EReal) (Finset.univ.fold max ⊥ t) = (M' : EReal) := by
    rw [hM']; exact max_eq_right bot_le
  simp only [step, init, hmn]
  simp only [exp_sub_coe (ht _), hu, EReal.bot_sub, Ideal.exp_bot, zero_mul, zero_add, ← EReal.coe_mul, ← coe_sum]

/-! ## The keys seen after n tiles -/

/-- The keys of the tiles before tile n. -/
def pre (n : ℕ) : Finset (Fin 2048) := Finset.univ.filter (fun k => k.val / 512 < n)

/-- The keys of tile n. -/
def blk (n : ℕ) : Finset (Fin 2048) := Finset.univ.filter (fun k => k.val / 512 = n)

/-- Key r of tile j. -/
def emb (j : Fin 4) (r : Fin 512) : Fin 2048 :=
  ⟨j.val * 512 + r.val, by have := j.isLt; have := r.isLt; omega⟩

theorem tile_eq (f : Fin 2048 → EReal) (j : Fin 4) : tile f j = f ∘ emb j := rfl

theorem emb_inj (j : Fin 4) : Function.Injective (emb j) := by
  intro a b h
  have := congrArg Fin.val h
  simp only [emb] at this
  exact Fin.ext (by omega)

theorem pre_zero : pre 0 = ∅ := by
  simp [pre]

theorem pre_succ (n : ℕ) : pre (n + 1) = pre n ∪ blk n := by
  ext k
  simp only [pre, blk, Finset.mem_filter, Finset.mem_univ, true_and, Finset.mem_union]
  omega

theorem pre_disj (n : ℕ) : Disjoint (pre n) (blk n) := by
  rw [pre, blk, Finset.disjoint_filter]
  intro k _ h1 h2
  omega

theorem pre_four : pre 4 = Finset.univ := by
  ext k
  have := k.isLt
  simp only [pre, Finset.mem_filter, Finset.mem_univ, true_and, iff_true]
  omega

theorem blk_eq (j : Fin 4) : blk j.val = Finset.univ.image (emb j) := by
  ext k
  have hj := j.isLt
  have hk := k.isLt
  simp only [blk, Finset.mem_filter, Finset.mem_univ, true_and, Finset.mem_image]
  constructor
  · intro h
    refine ⟨⟨k.val % 512, Nat.mod_lt _ (by norm_num)⟩, Fin.ext ?_⟩
    simp only [emb]
    omega
  · rintro ⟨r, rfl⟩
    have := r.isLt
    simp only [emb]
    omega

theorem sum_blk (j : Fin 4) (f : Fin 2048 → ℝ) : ∑ k ∈ blk j.val, f k = ∑ r, f (emb j r) := by
  rw [blk_eq, Finset.sum_image (fun a _ b _ h => emb_inj j h)]

theorem sup_blk (j : Fin 4) (f : Fin 2048 → EReal) : (blk j.val).sup f = Finset.univ.sup (tile f j) := by
  rw [blk_eq, Finset.sup_image, tile_eq]

theorem zero_mem_pre (n : ℕ) : (⟨0, by norm_num⟩ : Fin 2048) ∈ pre (n + 1) := by
  simp [pre]

/-- The maximum over a set of keys that contains key 0 is a real number. -/
theorem sup_real (s : Fin 2048 → EReal) (hs : ∀ k, s k ≠ ⊤) (hs0 : s ⟨0, by norm_num⟩ ≠ ⊥)
    (A : Finset (Fin 2048)) (h0 : (⟨0, by norm_num⟩ : Fin 2048) ∈ A) : ∃ M : ℝ, (M : EReal) = A.sup s := by
  refine ⟨(A.sup s).toReal, EReal.coe_toReal ?_ ?_⟩
  · exact ne_of_lt ((Finset.sup_lt_iff bot_lt_top).2 fun k _ => lt_top_iff_ne_top.2 (hs k))
  · intro h
    exact hs0 (le_bot_iff.1 (h ▸ Finset.le_sup (f := s) h0))

/-! ## The state after the tiles 0 … n -/

theorem stateAfter_inv (len : ℤ) (hlen : 1 ≤ len) (s v : Fin 2048 → EReal) (hs : ∀ k, s k ≠ ⊤)
    (hs0 : s ⟨0, by norm_num⟩ ≠ ⊥) (hbot : ∀ k : Fin 2048, len ≤ ((k.val : ℕ) : ℤ) → s k = ⊥)
    (w : Fin 2048 → ℝ) (hv : ∀ k, v k = (w k : EReal)) (n : ℕ) (hn : n < 4) :
    ∃ M : ℝ, (M : EReal) = (pre (n + 1)).sup s ∧
      stateAfter len s v (n + 1)
        = ((M : EReal), ((∑ k ∈ pre (n + 1), rexp (s k) M : ℝ) : EReal),
            ((∑ k ∈ pre (n + 1), rexp (s k) M * w k : ℝ) : EReal)) := by
  induction n with
  | zero =>
    obtain ⟨M, hM⟩ := sup_real s hs hs0 (pre 1) (zero_mem_pre 0)
    refine ⟨M, hM, ?_⟩
    have hlive : live len 0 := by unfold live; omega
    have hpre : pre (0 + 1) = blk ((0 : Fin 4)).val := by rw [pre_succ, pre_zero, Finset.empty_union]; rfl
    rw [stateAfter, dif_pos hn, if_pos hlive, stateAfter]
    rw [hpre, sup_blk] at hM
    rw [step_init (tile s ⟨0, hn⟩) (tile v ⟨0, hn⟩) (fun r => hs _) (fun r => w (emb ⟨0, hn⟩ r)) (fun r => hv _) M hM]
    rw [hpre, sum_blk, sum_blk]
    rfl
  | succ n ih =>
    obtain ⟨M, hM, hst⟩ := ih (by omega)
    obtain ⟨M', hM'⟩ := sup_real s hs hs0 (pre (n + 1 + 1)) (zero_mem_pre (n + 1))
    have hsplit : (M' : EReal) = max (M : EReal) ((blk (n + 1)).sup s) := by
      rw [hM', pre_succ (n + 1), Finset.sup_union, ← hM]
    have hsumL : ∑ k ∈ pre (n + 1 + 1), rexp (s k) M'
        = Real.exp (M - M') * ∑ k ∈ pre (n + 1), rexp (s k) M + ∑ k ∈ blk (n + 1), rexp (s k) M' := by
      rw [pre_succ (n + 1), Finset.sum_union (pre_disj (n + 1)), Finset.mul_sum]
      exact congrArg (· + _) (Finset.sum_congr rfl fun k _ => (rexp_shift (s k) M M').symm)
    have hsumA : ∑ k ∈ pre (n + 1 + 1), rexp (s k) M' * w k
        = Real.exp (M - M') * ∑ k ∈ pre (n + 1), rexp (s k) M * w k + ∑ k ∈ blk (n + 1), rexp (s k) M' * w k := by
      rw [pre_succ (n + 1), Finset.sum_union (pre_disj (n + 1)), Finset.mul_sum]
      exact congrArg (· + _) (Finset.sum_congr rfl fun k _ => by rw [← rexp_shift (s k) M M']; ring)
    by_cases hlive : live len (n + 1)
    · refine ⟨M', hM', ?_⟩
      rw [stateAfter, dif_pos hn, if_pos hlive, hst]
      have hblk : blk (n + 1) = blk ((⟨n + 1, hn⟩ : Fin 4)).val := rfl
      rw [hblk, sup_blk] at hsplit
      rw [step_real (tile s ⟨n + 1, hn⟩) (tile v ⟨n + 1, hn⟩) (fun r => hs _) (fun r => w (emb ⟨n + 1, hn⟩ r)) (fun r => hv _) M _ _ M' hsplit]
      rw [hsumL, hsumA, hblk, sum_blk, sum_blk]
      rfl
    · have hall : ∀ k ∈ blk (n + 1), s k = ⊥ := by
        intro k hk
        apply hbot
        simp only [blk, Finset.mem_filter, Finset.mem_univ, true_and] at hk
        unfold live at hlive
        omega
      have hMM : M' = M := by
        have : (M' : EReal) = (M : EReal) := by
          rw [hsplit, (Finset.sup_eq_bot_iff s (blk (n + 1))).2 hall]; exact max_eq_left bot_le
        exact_mod_cast this
      subst hMM
      refine ⟨M', hM', ?_⟩
      have z1 : ∑ k ∈ blk (n + 1), rexp (s k) M' = 0 :=
        Finset.sum_eq_zero fun k hk => by rw [hall k hk, rexp_bot]
      have z2 : ∑ k ∈ blk (n + 1), rexp (s k) M' * w k = 0 :=
        Finset.sum_eq_zero fun k hk => by rw [hall k hk, rexp_bot, zero_mul]
      rw [stateAfter, dif_pos hn, if_neg hlive, hst, hsumL, hsumA, z1, z2, sub_self, Real.exp_zero, one_mul, one_mul,
        add_zero, add_zero]

/-! ## The row -/

/-- On a row whose first key is real, whose scores are never +∞ and are −∞ from the length on, and whose values
    are real, the one-pass form returns what the two-pass form does. -/
theorem kerRow_eq_refRow (len : ℤ) (hlen : 1 ≤ len) (s v : Fin 2048 → EReal) (hs : ∀ k, s k ≠ ⊤)
    (hs0 : s ⟨0, by norm_num⟩ ≠ ⊥) (hbot : ∀ k : Fin 2048, len ≤ ((k.val : ℕ) : ℤ) → s k = ⊥)
    (hv : ∀ k, ∃ r : ℝ, v k = (r : EReal)) : kerRow len s v = refRow s v := by
  choose w hw using hv
  obtain ⟨M, hM, hst⟩ := stateAfter_inv len hlen s v hs hs0 hbot w hw 3 (by norm_num)
  rw [show (3 + 1 : ℕ) = 4 from rfl, pre_four] at hM hst
  -- the maximum is attained, so the denominator is at least 1
  obtain ⟨k0, -, hk0⟩ := Finset.exists_mem_eq_sup Finset.univ Finset.univ_nonempty s
  have h1 : rexp (s k0) M = 1 := by
    rw [← hk0, ← hM, rexp_coe, sub_self, Real.exp_zero]
  have hL1 : (1 : ℝ) ≤ ∑ k, rexp (s k) M :=
    h1 ▸ Finset.single_le_sum (f := fun k => rexp (s k) M) (fun k _ => rexp_nonneg _ _) (Finset.mem_univ k0)
  have hL0 : (∑ k, rexp (s k) M) ≠ 0 := by linarith
  have hmax : max (((∑ k, rexp (s k) M : ℝ)) : EReal) eps = ((∑ k, rexp (s k) M : ℝ) : EReal) := by
    apply max_eq_left
    unfold eps
    rw [EReal.coe_le_coe_iff]
    refine le_trans ?_ hL1
    norm_num
  have hmx : max (⊥ : EReal) (Finset.univ.fold max ⊥ s) = (M : EReal) := by
    rw [hM]; exact max_eq_right bot_le
  have hden : (0 : EReal) + ∑ k, Ideal.exp (s k - (M : EReal)) = ((∑ k, rexp (s k) M : ℝ) : EReal) := by
    rw [zero_add, coe_sum]; exact Finset.sum_congr rfl fun k _ => exp_sub_coe (hs k) M
  simp only [kerRow, refRow, hst, hmx, hden, hmax, Ideal.div_coe hL0]
  simp only [exp_sub_coe (hs _), hw, ← EReal.coe_mul, ← coe_sum]
  rw [EReal.coe_eq_coe_iff, Finset.sum_mul]
  exact Finset.sum_congr rfl fun k _ => by ring

/-! ## The arrays -/

open Idealize.ShloMosaic.ValueIdx

/-- A projection of real arrays is real. -/
theorem proj_real (x : Sx.Idx → EReal) (w : Sw.Idx → EReal) (hx : ∀ i, ∃ r : ℝ, x i = (r : EReal))
    (hw : ∀ i, ∃ r : ℝ, w i = (r : EReal)) (b : Fin 8) (s : Fin 2048) (e : Fin 1024) :
    ∃ r : ℝ, proj x w b s e = (r : EReal) := by
  choose xr hxr using hx
  choose wr hwr using hw
  refine ⟨∑ d : Fin 1024, xr (ix3 b s d) * wr (ix2 e d), ?_⟩
  simp only [proj, hxr, hwr, ← EReal.coe_mul, ← coe_sum]

/-- The pattern 0x3D000000 is 2⁻⁵. -/
theorem scale_const : Ideal.ofBits .f32 0x3D000000#32 = ((1 / 32 : ℝ) : EReal) := by
  simp [Ideal.ofBits, Ideal.ieee]
  rw [← EReal.coe_mul, EReal.coe_eq_coe_iff]
  norm_num

/-- The pattern 0x44800000 is 1024, whose square root is 32. -/
theorem sqrt_const : Ideal.sqrt (Ideal.ofBits .f32 0x44800000#32) = ((32 : ℝ) : EReal) := by
  have h : Ideal.ofBits .f32 0x44800000#32 = ((1024 : ℝ) : EReal) := by
    simp [Ideal.ofBits, Ideal.ieee]
    rw [← EReal.coe_mul, EReal.coe_eq_coe_iff]
    norm_num
  rw [h, Ideal.sqrt_coe, if_neg (by norm_num)]
  rw [show (1024 : ℝ) = 32 ^ 2 by norm_num, Real.sqrt_sq (by norm_num)]

/-- On real arrays both forms of the score are the same real number: scaling the query by 2⁻⁵ before the product
    is dividing the product by √1024 = 32. -/
theorem score_real (x : Sx.Idx → EReal) (wq wk : Sw.Idx → EReal) (hx : ∀ i, ∃ r : ℝ, x i = (r : EReal))
    (hq : ∀ i, ∃ r : ℝ, wq i = (r : EReal)) (hk : ∀ i, ∃ r : ℝ, wk i = (r : EReal)) (b : Fin 8) (q k : Fin 2048) :
    ∃ r : ℝ, scoreKer x wq wk b q k = (r : EReal) ∧ scoreRef x wq wk b q k = (r : EReal) := by
  choose pq hpq using fun e => proj_real x wq hx hq b q e
  choose pk hpk using fun e => proj_real x wk hx hk b k e
  refine ⟨∑ e : Fin 1024, pq e * (1 / 32) * pk e, ?_, ?_⟩
  · simp only [scoreKer, scale_const, hpq, hpk, ← EReal.coe_mul, ← coe_sum]
  · simp only [scoreRef, sqrt_const, hpq, hpk, Ideal.div_coe (show (32 : ℝ) ≠ 0 by norm_num), ← EReal.coe_mul, ← coe_sum]
    rw [EReal.coe_eq_coe_iff, Finset.sum_mul]
    exact Finset.sum_congr rfl fun e _ => by ring

/-- The kernel's attention output is the reference's, when every sequence has at least one real key. -/
theorem attnKer_eq_attnRef (x : Sx.Idx → EReal) (lens : Sl.Idx → BitVec 32) (wq wk wv : Sw.Idx → EReal)
    (hx : ∀ i, ∃ r : ℝ, x i = (r : EReal)) (hq : ∀ i, ∃ r : ℝ, wq i = (r : EReal)) (hk : ∀ i, ∃ r : ℝ, wk i = (r : EReal)) (hv : ∀ i, ∃ r : ℝ, wv i = (r : EReal))
    (hlens : ∀ b : Fin 8, 1 ≤ (lens (Idealize.ShloMosaic.ValueIdx.ix1 b)).toInt) :
    attnKer x lens wq wk wv = attnRef x lens wq wk wv := by
  funext i
  have hsc : scoreKer x wq wk (i 0) (i 1) = scoreRef x wq wk (i 0) (i 1) := funext fun k => by
    obtain ⟨r, h1, h2⟩ := score_real x wq wk hx hq hk (i 0) (i 1) k
    rw [h1, h2]
  have hl := hlens (i 0)
  simp only [attnKer, attnRef, hsc]
  apply kerRow_eq_refRow _ hl
  · intro k
    unfold masked
    split_ifs
    · obtain ⟨r, -, h2⟩ := score_real x wq wk hx hq hk (i 0) (i 1) k
      rw [h2]; exact EReal.coe_ne_top r
    · exact bot_ne_top
  · unfold masked
    rw [if_pos (by simp only [Nat.cast_zero]; omega)]
    obtain ⟨r, -, h2⟩ := score_real x wq wk hx hq hk (i 0) (i 1) ⟨0, by norm_num⟩
    rw [h2]; exact EReal.coe_ne_bot r
  · intro k hk
    unfold masked
    rw [if_neg (by omega)]
  · intro k
    exact proj_real x wv hx hv (i 0) k (i 2)

end Cert.Attn

end
-- ==== Proof.RefValue.lean ====
/-
  The reference's result read at an index.

  The reference computes, for batch b, query row q and output column d,
      out b q d = Σ_k softmax_k (s b q k) · V b k d ,
  in host operations: three projections Σ_d x b s d · W e d; the batched product Σ_e Q b q e · K b k e; its quotient
  by √1024; the key-padding mask, which replaces the score by −∞ at every key position k ≥ lens b; the row maximum
  (a fold of max from −∞ over the 2048 keys, then once more the maximum with −∞); the exponentials of the differences;
  their sum from 0; the quotient; and the sum over keys of weight times value.  Each stage is read here at explicit
  coordinates (b, q, k) or (b, q, d), and the composition is the specification's `attnRef`.  The only fact about
  words is that a key position below 2048, compared signed with the length word, is "not below the length" exactly
  when the mask's bit is set.  No finiteness of the inputs is used: every step is a reading, not an algebraic law.
-/
import proofs.«420942_j40209483825490_2_alg».proof.Proof.Gen.ReferenceIdeal.Run
import proofs.«420942_j40209483825490_2_alg».proof.Proof.Gen.ReferenceIdeal.Read
import proofs.«420942_j40209483825490_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Idealize.ShloMosaic.TcCoe Idealize.SL.Sem Idealize.ShloMosaic.StableHlo

/-- The input array, the weight matrices and the lengths, as the reference's operations take them. -/
abbrev Tx := (⟨S8x2048x1024, .f32⟩ : BufTy).Contents (Elt Ideal)
abbrev Tw := (⟨S1024x1024, .f32⟩ : BufTy).Contents (Elt Ideal)
abbrev Tl := (⟨S8, .i32⟩ : BufTy).Contents (Elt Ideal)

/-! ## The three projections and the scores -/

/-- Entry (b, s, e) of the first projection is Σ_d x b s d · W e d. -/
theorem projQ_at (x0 : Tx) (x2 : Tw) (b : Fin 8) (s : Fin 2048) (e : Fin 1024) :
    val_main_v0 (F := Ideal) x0 x2 (ix3 b s e) = Cert.Attn.proj x0 x2 b s e := by
  rw [val_main_v0_apply]
  unfold Cert.Attn.proj
  refine Finset.sum_congr rfl fun d _ => ?_
  have e1 : lidx_main_v0 (ix3 b s e) d = ix3 b s d :=
    funext fun a => Fin.ext (by match a with | ⟨0, _⟩ => rfl | ⟨1, _⟩ => rfl | ⟨2, _⟩ => rfl)
  have e2 : ridx_main_v0 (ix3 b s e) d = ix2 e d :=
    funext fun a => Fin.ext (by match a with | ⟨0, _⟩ => rfl | ⟨1, _⟩ => rfl)
  rw [e1, e2]

/-- The second and third projections are the same operation on another weight matrix. -/
theorem projK_at (x0 : Tx) (x3 : Tw) (b : Fin 8) (s : Fin 2048) (e : Fin 1024) :
    val_main_v1 (F := Ideal) x0 x3 (ix3 b s e) = Cert.Attn.proj x0 x3 b s e := projQ_at x0 x3 b s e

theorem projV_at (x0 : Tx) (x4 : Tw) (b : Fin 8) (s : Fin 2048) (e : Fin 1024) :
    val_main_v2 (F := Ideal) x0 x4 (ix3 b s e) = Cert.Attn.proj x0 x4 b s e := projQ_at x0 x4 b s e

/-- Entry (b, q, k) of the batched product Q Kᵀ. -/
theorem qk_at (x0 : Tx) (x2 x3 : Tw) (b : Fin 8) (q k : Fin 2048) :
    val_main_v3 (F := Ideal) x0 x2 x3 (ix3 b q k)
      = ∑ e : Fin 1024, Cert.Attn.proj x0 x2 b q e * Cert.Attn.proj x0 x3 b k e := by
  rw [val_main_v3_apply]
  refine Finset.sum_congr rfl fun e _ => ?_
  have e1 : lidx_main_v3 (ix3 b q k) e = ix3 b q e :=
    funext fun a => Fin.ext (by match a with | ⟨0, _⟩ => rfl | ⟨1, _⟩ => rfl | ⟨2, _⟩ => rfl)
  have e2 : ridx_main_v3 (ix3 b q k) e = ix3 b k e :=
    funext fun a => Fin.ext (by match a with | ⟨0, _⟩ => rfl | ⟨1, _⟩ => rfl | ⟨2, _⟩ => rfl)
  rw [e1, e2, projQ_at, projK_at]

/-- The divisor, broadcast to every entry, is the square root of the constant 1024, left unevaluated. -/
theorem sqrt_at (i : S8x2048x2048.Idx) :
    val_main_v5 (F := Ideal) i = Ideal.sqrt (Ideal.ofBits .f32 0x44800000#32) := by
  rw [val_main_v5_apply, val_main_v4_apply, val_main_cst_apply]
  rfl

/-- The unmasked score at (b, q, k). -/
theorem score_at (x0 : Tx) (x2 x3 : Tw) (b : Fin 8) (q k : Fin 2048) :
    val_main_v6 (F := Ideal) x0 x2 x3 (ix3 b q k) = Cert.Attn.scoreRef x0 x2 x3 b q k := by
  rw [val_main_v6_apply, qk_at, sqrt_at]
  rfl

/-! ## The key-padding mask -/

/-- The mask's bit at (b, q, k): position k, as a word, compared signed with the batch's length. -/
theorem cond_at (x1 : Tl) (b : Fin 8) (q k : Fin 2048) :
    val_main_call0_v1 (F := Ideal) x1 (ix3 b q k) = IntOp.cmpi .sge (BitVec.ofNat 32 k.val) (x1 (ix1 b)) := by
  rw [val_main_call0_v1_apply, val_main_v13_apply, val_main_v12_apply, val_main_v10_apply, val_main_v8_apply,
    val_main_v7_apply, val_main_v11_apply, val_main_v9_apply]
  have e : idx_main_v9 (idx_main_v11 (idx_main_v13 (idx_main_call0_v1 (ix3 b q k)))) = ix1 b :=
    funext fun a => Fin.ext (by match a with | ⟨0, _⟩ => rfl)
  rw [e]

/-- A position below 2048, written as a 32-bit word, reads back signed as itself. -/
theorem toInt_pos (k : Fin 2048) : (BitVec.ofNat 32 k.val).toInt = (k.val : ℤ) := by
  have hk := k.isLt
  have h1 : (BitVec.ofNat 32 k.val).toNat = k.val := by rw [BitVec.toNat_ofNat]; omega
  rw [BitVec.toInt_eq_toNat_of_lt (by omega), h1]

/-- The mask's bit is set exactly at the padded positions: those not below the length. -/
theorem cond_iff (w : BitVec 32) (k : Fin 2048) :
    IntOp.cmpi .sge (BitVec.ofNat 32 k.val) w = 1#1 ↔ ¬ ((k.val : ℤ) < w.toInt) := by
  rw [IntOp.cmpi_sge, toInt_pos]
  exact not_lt.symm

/-- The word 0xFF800000 is −∞. -/
theorem neg_inf : Ideal.ofBits .f32 0xFF800000#32 = (⊥ : EReal) := by
  simp [Ideal.ofBits, Ideal.ieee]

/-- The masked score at (b, q, k): the score at a real key, −∞ at a padded one. -/
theorem masked_at (x0 : Tx) (x1 : Tl) (x2 x3 : Tw) (b : Fin 8) (q k : Fin 2048) :
    val_main_v14 (F := Ideal) x0 x1 x2 x3 (ix3 b q k)
      = Cert.Attn.masked (x1 (ix1 b)).toInt (Cert.Attn.scoreRef x0 x2 x3 b q) k := by
  rw [val_main_v14_apply, cond_at, score_at, val_main_call0_v2_apply, val_main_call0_v0_apply, val_main_cst_0_apply]
  unfold Cert.Attn.masked
  by_cases h : ((k.val : ℕ) : ℤ) < (x1 (ix1 b)).toInt
  · rw [if_pos h]
    have hc : IntOp.cmpi .sge (BitVec.ofNat 32 k.val) (x1 (ix1 b)) = 0#1 :=
      eq_zero_of_ne_one (fun h1 => (cond_iff _ k).mp h1 h)
    rw [hc, select_zero]
  · rw [if_neg h, (cond_iff _ k).mpr h, select_one]
    exact neg_inf

/-! ## The row maximum -/

/-- Result index (b, q) of the reduction over the last axis, with key position k put back, is (b, q, k). -/
theorem lift_at (h : S8x2048x2048.Reduces [2] S8x2048) (b : Fin 8) (q : Fin 2048) (k : Fin (S8x2048x2048.size 2)) :
    h.lift (ix2 b q) k = ix3 b q (⟨k.val, k.isLt⟩ : Fin 2048) := by
  funext c
  apply Fin.ext
  match c with
  | ⟨0, _⟩ => rfl
  | ⟨1, _⟩ => rfl
  | ⟨2, _⟩ => rfl

/-- The reduction with a maximum body from −∞ over the keys of row (b, q) is the fold of max over the masked scores. -/
theorem rowfold_at (x0 : Tx) (x1 : Tl) (x2 x3 : Tw) (b : Fin 8) (q : Fin 2048) :
    val_main_v15 (F := Ideal) x0 x1 x2 x3 (ix2 b q)
      = (Finset.univ : Finset (Fin 2048)).fold max ⊥ (Cert.Attn.masked (x1 (ix1 b)).toInt (Cert.Attn.scoreRef x0 x2 x3 b q)) := by
  have h : S8x2048x2048.Reduces [2] S8x2048 := by decide
  unfold val_main_v15
  refine (Host.reduce_eq_fold_single (FloatOps.maximumf (F := Ideal) (φ := .f32))
    (val_main_v14 (F := Ideal) x0 x1 x2 x3 : S8x2048x2048.Idx → Ideal .f32) (val_main_cst_1 (F := Ideal))
    reducesTo_S8x2048x2048_S8x2048_d2 h h_S_ (ix2 b q)).trans ?_
  have hf : (val_main_v14 (F := Ideal) x0 x1 x2 x3 ∘ h.lift (ix2 b q))
      = fun k : Fin 2048 => Cert.Attn.masked (x1 (ix1 b)).toInt (Cert.Attn.scoreRef x0 x2 x3 b q) k :=
    funext fun k => by
      show val_main_v14 (F := Ideal) x0 x1 x2 x3 (h.lift (ix2 b q) k) = _
      rw [lift_at h b q k, masked_at]
      rfl
  rw [hf, val_main_cst_1_apply]
  show Finset.fold max (Ideal.ofBits .f32 0xFF800000#32) _ _ = _
  rw [neg_inf]
  rfl

/-- The row maximum as the later operations use it: once more the maximum with −∞. -/
theorem rowmax_at (x0 : Tx) (x1 : Tl) (x2 x3 : Tw) (b : Fin 8) (q : Fin 2048) :
    val_main_v17 (F := Ideal) x0 x1 x2 x3 (ix2 b q)
      = max ⊥ ((Finset.univ : Finset (Fin 2048)).fold max ⊥ (Cert.Attn.masked (x1 (ix1 b)).toInt (Cert.Attn.scoreRef x0 x2 x3 b q))) := by
  rw [val_main_v17_apply, rowfold_at, val_main_v16_apply, val_main_cst_2_apply]
  show max (Ideal.ofBits .f32 0xFF800000#32) _ = _
  rw [neg_inf]

/-- The row maximum broadcast along the keys. -/
theorem rowmax_bcast_at (x0 : Tx) (x1 : Tl) (x2 x3 : Tw) (b : Fin 8) (q k : Fin 2048) :
    val_main_v19 (F := Ideal) x0 x1 x2 x3 (ix3 b q k)
      = max ⊥ ((Finset.univ : Finset (Fin 2048)).fold max ⊥ (Cert.Attn.masked (x1 (ix1 b)).toInt (Cert.Attn.scoreRef x0 x2 x3 b q))) := by
  rw [val_main_v19_apply, val_main_v18_apply]
  have e : idx_main_v18 (idx_main_v19 (ix3 b q k)) = ix2 b q :=
    funext fun a => Fin.ext (by match a with | ⟨0, _⟩ => rfl | ⟨1, _⟩ => rfl)
  rw [e, rowmax_at]

/-! ## The exponentials, their sum, the weights and the weighted sum of values -/

/-- The masked scores of row (b, q). -/
abbrev srow (x0 : Tx) (x1 : Tl) (x2 x3 : Tw) (b : Fin 8) (q : Fin 2048) : Fin 2048 → EReal :=
  Cert.Attn.masked (x1 (ix1 b)).toInt (Cert.Attn.scoreRef x0 x2 x3 b q)

/-- The row's maximum as the reference subtracts it. -/
abbrev rmax (x0 : Tx) (x1 : Tl) (x2 x3 : Tw) (b : Fin 8) (q : Fin 2048) : EReal :=
  max ⊥ ((Finset.univ : Finset (Fin 2048)).fold max ⊥ (srow x0 x1 x2 x3 b q))

/-- exp (s k − M) at (b, q, k). -/
theorem exp_at (x0 : Tx) (x1 : Tl) (x2 x3 : Tw) (b : Fin 8) (q k : Fin 2048) :
    val_main_v21 (F := Ideal) x0 x1 x2 x3 (ix3 b q k)
      = Ideal.exp (srow x0 x1 x2 x3 b q k - rmax x0 x1 x2 x3 b q) := by
  rw [val_main_v21_apply, val_main_v20_apply, masked_at, rowmax_bcast_at]
  rfl

/-- The row's denominator: the reduction with an add body from 0 over the keys. -/
theorem den_at (x0 : Tx) (x1 : Tl) (x2 x3 : Tw) (b : Fin 8) (q : Fin 2048) :
    val_main_v22 (F := Ideal) x0 x1 x2 x3 (ix2 b q)
      = 0 + ∑ k : Fin 2048, Ideal.exp (srow x0 x1 x2 x3 b q k - rmax x0 x1 x2 x3 b q) := by
  rw [val_main_v22_apply, val_main_cst_3_apply]
  show Ideal.ofBits .f32 0x00000000#32 + _ = _
  rw [Ideal.ofBits_zero_f32]
  refine congrArg (0 + ·) (Finset.sum_congr rfl fun k _ => ?_)
  have e : idx_main_v22 (ix2 b q) k = ix3 b q k :=
    funext fun a => Fin.ext (by match a with | ⟨0, _⟩ => rfl | ⟨1, _⟩ => rfl | ⟨2, _⟩ => rfl)
  rw [e, exp_at]

/-- The denominator broadcast along the keys. -/
theorem den_bcast_at (x0 : Tx) (x1 : Tl) (x2 x3 : Tw) (b : Fin 8) (q k : Fin 2048) :
    val_main_v24 (F := Ideal) x0 x1 x2 x3 (ix3 b q k)
      = 0 + ∑ k : Fin 2048, Ideal.exp (srow x0 x1 x2 x3 b q k - rmax x0 x1 x2 x3 b q) := by
  rw [val_main_v24_apply, val_main_v23_apply]
  have e : idx_main_v23 (idx_main_v24 (ix3 b q k)) = ix2 b q :=
    funext fun a => Fin.ext (by match a with | ⟨0, _⟩ => rfl | ⟨1, _⟩ => rfl)
  rw [e, den_at]

/-- The softmax weight of key k in row (b, q). -/
theorem weight_at (x0 : Tx) (x1 : Tl) (x2 x3 : Tw) (b : Fin 8) (q k : Fin 2048) :
    val_main_v25 (F := Ideal) x0 x1 x2 x3 (ix3 b q k)
      = Ideal.div (Ideal.exp (srow x0 x1 x2 x3 b q k - rmax x0 x1 x2 x3 b q))
          (0 + ∑ k : Fin 2048, Ideal.exp (srow x0 x1 x2 x3 b q k - rmax x0 x1 x2 x3 b q)) := by
  rw [val_main_v25_apply, exp_at, den_bcast_at]
  rfl

/-- The output at (b, q, d): the two-pass softmax-weighted sum of the value projection's column d. -/
theorem out_at (x0 : Tx) (x1 : Tl) (x2 x3 x4 : Tw) (b : Fin 8) (q : Fin 2048) (d : Fin 1024) :
    val_main_v26 (F := Ideal) x0 x1 x2 x3 x4 (ix3 b q d)
      = Cert.Attn.refRow (srow x0 x1 x2 x3 b q) (fun k => Cert.Attn.proj x0 x4 b k d) := by
  rw [val_main_v26_apply]
  unfold Cert.Attn.refRow
  dsimp only
  refine Finset.sum_congr rfl fun k _ => ?_
  have e1 : lidx_main_v26 (ix3 b q d) k = ix3 b q k :=
    funext fun a => Fin.ext (by match a with | ⟨0, _⟩ => rfl | ⟨1, _⟩ => rfl | ⟨2, _⟩ => rfl)
  have e2 : ridx_main_v26 (ix3 b q d) k = ix3 b k d :=
    funext fun a => Fin.ext (by match a with | ⟨0, _⟩ => rfl | ⟨1, _⟩ => rfl | ⟨2, _⟩ => rfl)
  rw [e1, e2, weight_at, projV_at]

/-! ## The whole result -/

/-- The last stage, as a function of the five arguments, is the specification's reference attention. -/
theorem out_eq (x0 : Tx) (x1 : Tl) (x2 x3 x4 : Tw) :
    val_main_v26 (F := Ideal) x0 x1 x2 x3 x4 = Cert.Attn.attnRef x0 x1 x2 x3 x4 := by
  funext i
  obtain ⟨b, q, d, rfl⟩ : ∃ (b : Fin 8) (q : Fin 2048) (d : Fin 1024), i = ix3 b q d := ⟨i 0, i 1, i 2, eq_ix3 i⟩
  rw [out_at]
  rfl

/-- The reference's result buffer after its run is the specification's reference attention of the arguments. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m c
      = Cert.Attn.attnRef (m ((c.tc : Thread _ _).loc Cert.ReferenceIdeal.main_arg0)) (m ((c.tc : Thread _ _).loc Cert.ReferenceIdeal.main_arg1)) (m ((c.tc : Thread _ _).loc Cert.ReferenceIdeal.main_arg2)) (m ((c.tc : Thread _ _).loc Cert.ReferenceIdeal.main_arg3)) (m ((c.tc : Thread _ _).loc Cert.ReferenceIdeal.main_arg4)) :=
  (val_main_v26_eq (F := Ideal) m c).trans (out_eq _ _ _ _ _)

end Cert.ReferenceIdeal.RefValue

end
-- ==== Proof.Region0Value.lean ====
import proofs.«420942_j40209483825490_2_alg».proof.Proof.Region0
import Idealize.ShloMosaic.Lib.Pipeline.FrameBody
import Idealize.ShloMosaic.Lib.Pipeline.Value
import Idealize.ShloMosaic.Lib.ValueIdx
import Idealize.ShloMosaic.PureOps.Ideal.Laws

/-!
# Region 0 at the ideal values: the three projections entry by entry

At the extended reals the projection kernel's three output blocks, read at an entry `(0, r, e)`, are
inner products of row `r` of the activations' block with a column of the `1024 × 3072` matrix that
holds the three weight matrices side by side: column `e` for the first output (which is then
multiplied by the constant `2⁻⁵`), column `1024 + e` for the second, column `2048 + e` for the third.
Rounding to the narrower float format is the identity on ideal values.
-/

set_option maxRecDepth 16384

noncomputable section

open scoped BigOperators

namespace Cert.KernelIdeal.R0V

open Cert.KernelIdeal Cert.KernelIdeal.Gen Cert.KernelIdeal.R0
open Idealize.ShloMosaic Idealize.ShloMosaic.ValueIdx Idealize.SL.Sem

/-- The zero offsets of a whole-buffer rectangle, rank three and rank two. -/
theorem zeros3 : (![0, 0, 0] : Fin 3 → Nat) = fun _ => 0 := by
  funext a; match a with | ⟨0, _⟩ => rfl | ⟨1, _⟩ => rfl | ⟨2, _⟩ => rfl
theorem zeros2 : (![0, 0] : Fin 2 → Nat) = fun _ => 0 := by
  funext a; match a with | ⟨0, _⟩ => rfl | ⟨1, _⟩ => rfl

/-! ## The matrix product's operand indices

The product contracts the second axis of the `512 × 1024` left operand with the first axis of the
`1024 × 3072` right operand: at output entry `(r, c)` and contraction position `k` it reads the left
operand at `(r, k)` and the right operand at `(k, c)`. -/

theorem lhs_qkv_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_qkv_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem rhs_qkv_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem rhs_qkv_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-! ## The product at an entry -/

variable (x0 : Vec Ideal S1x512x1024 .f32) (x1 : Vec Ideal S1024x3072 .bf16)

/-- The slab of activations viewed as a `512 × 1024` matrix reads the slab's only plane. -/
theorem slab_apply (r : Fin 512) (k : Fin 1024) :
    shapeCast S512x1024 x0 shapeCasts_S1x512x1024_S512x1024 (ix2 r k) = x0 (ix3 0 r k) :=
  shapeCast_apply x0 _ (ix2 r k) (ix3 0 r k) (by
    rw [Shape.rowMajor_val_three, Shape.rowMajor_val_two]
    show (0 * 512 + r.val) * 1024 + k.val = r.val * 1024 + k.val
    omega)

/-- Entry `(r, c)` of the `512 × 3072` product is the inner product of row `r` of the activations
    with column `c` of the stacked weights. Rounding to the narrower format is the identity on ideal
    values, and the accumulator starts at zero. -/
theorem pay1_apply (r : Fin 512) (c : Fin 3072) :
    k0_pay1 x0 x1 (ix2 r c) = ∑ d : Fin 1024, x0 (ix3 0 r d) * x1 (ix2 d c) := by
  unfold k0_pay1
  simp only [matmul]
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r c) ((contrEquiv1 dot_S512x1024_S1024x3072_S512x3072_1_0_0_1_n_n 1024 rfl rfl).symm k) = ix2 r k := funext fun a => Fin.ext (by
    match a with
    | ⟨0, _⟩ => exact lhs_qkv_0 _ _
    | ⟨1, _⟩ => exact (lhs_qkv_1 _ _).trans hk)
  have er : dot_S512x1024_S1024x3072_S512x3072_1_0_0_1_n_n.rhsIdx (ix2 r c) ((contrEquiv1 dot_S512x1024_S1024x3072_S512x3072_1_0_0_1_n_n 1024 rfl rfl).symm k) = ix2 k c := funext fun a => Fin.ext (by
    match a with
    | ⟨0, _⟩ => exact (rhs_qkv_0 _ _).trans hk
    | ⟨1, _⟩ => exact rhs_qkv_1 _ _)
  rw [el, er, truncf_apply, slab_apply, shapeCast_self]

/-! ## The three column thirds -/

/-- Entry `(r, e)` of the third of the product that starts at column `o` is entry `(r, o + e)` of the product. -/
theorem third_apply (o : Nat) (ho : o + 1024 ≤ 3072) (h : S512x3072.Slices ![0, o] S512x1024) (r : Fin 512) (e : Fin 1024) :
    extractStridedSlice S512x1024 ![0, o] (k0_pay1 x0 x1) h (ix2 r e)
      = ∑ d : Fin 1024, x0 (ix3 0 r d) * x1 (ix2 d ⟨o + e.val, by omega⟩) := by
  rw [extractStridedSlice_apply ![0, o] (k0_pay1 x0 x1) h (ix2 r e) (ix2 r ⟨o + e.val, by omega⟩) (fun a => by
    match a with
    | ⟨0, _⟩ => show r.val = 0 + r.val; omega
    | ⟨1, _⟩ => rfl), pay1_apply]

/-- A `512 × 1024` matrix stored as a `1 × 512 × 1024` block is read at the block's last two coordinates. -/
theorem block_apply (v : FVec Ideal S512x1024 .bf16) (r : Fin 512) (e : Fin 1024) :
    shapeCast S1x512x1024 v shapeCasts_S512x1024_S1x512x1024 (ix3 0 r e) = v (ix2 r e) :=
  shapeCast_apply v _ (ix3 0 r e) (ix2 r e) (by
    rw [Shape.rowMajor_val_three, Shape.rowMajor_val_two]
    show r.val * 1024 + e.val = (0 * 512 + r.val) * 1024 + e.val
    omega)

/-- The first output at `(0, r, e)`: the query projection, scaled by the constant `2⁻⁵`. -/
theorem out0_2_apply (r : Fin 512) (e : Fin 1024) :
    out0_2 x0 x1 (ix3 0 r e)
      = (∑ d : Fin 1024, x0 (ix3 0 r d) * x1 (ix2 d ⟨e.val, by omega⟩)) * Ideal.ofBits .f32 0x3D000000#32 := by
  unfold out0_2
  rw [View.canon_unit_zero (S := S1x512x1024) zeros3, View.ld_unit_zero (S := S1x512x1024) zeros3, View.ld_unit_zero (S := S1024x3072) zeros2]
  unfold k0_pay2
  rw [block_apply, truncf_apply, mulf_apply, broadcast_apply, third_apply x0 x1 0 (by omega)]
  simp only [Nat.zero_add]
  rfl

/-- The second output at `(0, r, e)`: the key projection, columns `1024 … 2047` of the stacked weights. -/
theorem out0_3_apply (r : Fin 512) (e : Fin 1024) :
    out0_3 x0 x1 (ix3 0 r e) = ∑ d : Fin 1024, x0 (ix3 0 r d) * x1 (ix2 d ⟨1024 + e.val, by omega⟩) := by
  unfold out0_3
  rw [View.canon_unit_zero (S := S1x512x1024) zeros3, View.ld_unit_zero (S := S1x512x1024) zeros3, View.ld_unit_zero (S := S1024x3072) zeros2]
  unfold k0_pay3
  rw [block_apply, truncf_apply, third_apply x0 x1 1024 (by omega)]

/-- The third output at `(0, r, e)`: the value projection, columns `2048 … 3071` of the stacked weights. -/
theorem out0_4_apply (r : Fin 512) (e : Fin 1024) :
    out0_4 x0 x1 (ix3 0 r e) = ∑ d : Fin 1024, x0 (ix3 0 r d) * x1 (ix2 d ⟨2048 + e.val, by omega⟩) := by
  unfold out0_4
  rw [View.canon_unit_zero (S := S1x512x1024) zeros3, View.ld_unit_zero (S := S1x512x1024) zeros3, View.ld_unit_zero (S := S1024x3072) zeros2]
  unfold k0_pay4
  rw [block_apply, truncf_apply, third_apply x0 x1 2048 (by omega)]

end Cert.KernelIdeal.R0V

end
-- ==== Proof.Array0.lean ====
/-
  The projection region's three output arrays after the region, as whole-array functions of the two arrays it reads.

  The region's grid is (batch b, row tile j) with 8 × 4 points.  At point (b, j) it reads rows 512·j … 512·j + 511 of
  batch b of the activations and the whole 1024 × 3072 matrix of stacked weights, and writes the same rows of batch b
  of each of the three outputs.  The 32 row blocks tile each output array, so after the last point entry (b, s, e) of
  an output is the inner product of row (b, s) of the activations with one column of the stacked weights: column e for
  the first output (then multiplied by the constant 2⁻⁵), column 1024 + e for the second, column 2048 + e for the third.
-/
import proofs.«420942_j40209483825490_2_alg».proof.Proof.Region0
import proofs.«420942_j40209483825490_2_alg».proof.Proof.Region0Value
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.R0V

open Cert.KernelIdeal Cert.KernelIdeal.Gen Cert.KernelIdeal.R0
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The whole-array functions -/

/-- Row (b, s) of the activations against column `o + e` of the stacked weights. -/
def colProd (X : S8x2048x1024.Idx → EReal) (Wc : S1024x3072.Idx → EReal) (o : Nat) (ho : o + 1024 ≤ 3072)
    (i : S8x2048x1024.Idx) : EReal :=
  ∑ d : Fin 1024, X (ix3 (⟨(i 0).val, (i 0).isLt⟩ : Fin 8) (⟨(i 1).val, (i 1).isLt⟩ : Fin 2048) d)
    * Wc (ix2 d (⟨o + (i 2).val, by have h : (i 2).val < 1024 := (i 2).isLt; omega⟩ : Fin 3072))

/-! ## The index maps, decided over the grid -/

/-- At every point the activations' block index is the first output's, the weights' block index is zero, the output's
    last block index is zero, and its first two are a batch and a row tile. -/
theorem idx_facts2 : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 2) = 0
    ∧ win0_1.index t (1 : Fin 2) = 0
    ∧ win0_2.index t (0 : Fin 3) ≤ 7 ∧ win0_2.index t (1 : Fin 3) ≤ 3 ∧ win0_2.index t (2 : Fin 3) = 0 :=
  (by decide +kernel : ∀ t : Fin grid0.N, _)

/-- Every (batch, row tile) is some point's block index. -/
theorem idx_onto2 : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-! ## The two input blocks read at an entry -/

/-- The activations' block at point `t`, at (0, r, d), is the activations' array at (b, s, d), for b the block's
    batch and s the block's first row plus r. -/
theorem xblk_apply (c : Dev nD) (t : Fin cfg0.N) (r : Fin 512) (d : Fin 1024) (b : Fin 8) (s : Fin 2048)
    (hb : b.val = win0_0.index t (0 : Fin 3)) (hs : s.val = win0_0.index t (1 : Fin 3) * 512 + r.val)
    (h2 : win0_0.index t (2 : Fin 3) = 0) :
    (iblk0 V c 0 t : Vec Ideal S1x512x1024 .f32) (ix3 0 r d) = (V c main_arg0 : S8x2048x1024.Idx → EReal) (ix3 b s d) := by
  unfold iblk0
  rw [View.read_apply]
  show V c main_arg0 _ = V c main_arg0 _
  congr 1
  funext a
  apply Fin.ext
  match a with
  | ⟨0, _⟩ => show win0_0.index t (0 : Fin 3) * 1 + 1 * 0 = b.val; omega
  | ⟨1, _⟩ => show win0_0.index t (1 : Fin 3) * 512 + 1 * r.val = s.val; omega
  | ⟨2, _⟩ => show win0_0.index t (2 : Fin 3) * 1024 + 1 * d.val = d.val; omega

/-- The weights' block at every point is the whole matrix of stacked weights. -/
theorem wblk_apply (c : Dev nD) (t : Fin cfg0.N) (d : Fin 1024) (e : Fin 3072)
    (h0 : win0_1.index t (0 : Fin 2) = 0) (h1 : win0_1.index t (1 : Fin 2) = 0) :
    (iblk0 V c 1 t : Vec Ideal S1024x3072 .bf16) (ix2 d e) = (V c main_v6 : S1024x3072.Idx → EReal) (ix2 d e) := by
  unfold iblk0
  rw [View.read_apply]
  show V c main_v6 _ = V c main_v6 _
  congr 1
  funext a
  apply Fin.ext
  match a with
  | ⟨0, _⟩ => show win0_1.index t (0 : Fin 2) * 1024 + 1 * d.val = d.val; omega
  | ⟨1, _⟩ => show win0_1.index t (1 : Fin 2) * 3072 + 1 * e.val = e.val; omega

/-! ## The first output: the scaled query projection -/

/-- The first output array as a function of the activations and the stacked weights. -/
def G2 (X : S8x2048x1024.Idx → EReal) (Wc : S1024x3072.Idx → EReal) : S8x2048x1024.Idx → EReal :=
  fun i => colProd X Wc 0 (by omega) i * Ideal.ofBits .f32 0x3D000000#32

/-- What point `t` writes back to the first output is block `t` of that function. -/
theorem flushed2_eq (c : Dev nD) (t : Fin cfg0.N) :
    (dat0 (F := Ideal) V c).flushed 2 t = ((cfg0.win 2).blk t).view.read (Elt Ideal) (G2 (V c main_arg0) (V c main_v6)) := by
  show (cfg0.win 2).cut (grid0.coords t) ((dat0 V c).after 2 t) = _
  rw [after0_2]
  obtain ⟨e0, e1, e2, e3, e4, e5, e6, e7⟩ := idx_facts2 t
  funext j
  rw [View.read_apply]
  have hj0 : (j 0).val < 1 := (j 0).isLt
  have hj1 : (j 1).val < 512 := (j 1).isLt
  have hj2 : (j 2).val < 1024 := (j 2).isLt
  have hx : (cfg0.win 2).xinj (grid0.coords t) j = ix3 (0 : Fin 1) (⟨(j 1).val, hj1⟩ : Fin 512) (⟨(j 2).val, hj2⟩ : Fin 1024) := by
    funext a
    apply Fin.ext
    match a with
    | ⟨0, _⟩ => show (j 0).val = 0; omega
    | ⟨1, _⟩ => rfl
    | ⟨2, _⟩ => rfl
  refine (congrArg (out0_2 (iblk0 V c 0 t) (iblk0 V c 1 t)) hx).trans ?_
  refine (out0_2_apply (iblk0 V c 0 t) (iblk0 V c 1 t) ⟨(j 1).val, hj1⟩ ⟨(j 2).val, hj2⟩).trans ?_
  unfold G2 colProd
  refine congrArg (· * Ideal.ofBits .f32 0x3D000000#32) (Finset.sum_congr rfl fun d _ => ?_)
  refine congrArg₂ (· * ·) ?_ ?_
  · exact xblk_apply V c t ⟨(j 1).val, hj1⟩ d _ _
      (show win0_2.index t (0 : Fin 3) * 1 + 1 * (j 0).val = win0_0.index t (0 : Fin 3) by omega)
      (show win0_2.index t (1 : Fin 3) * 512 + 1 * (j 1).val = win0_0.index t (1 : Fin 3) * 512 + (j 1).val by omega) e2
  · refine (wblk_apply V c t d _ e3 e4).trans (congrArg _ (congrArg (ix2 d) (Fin.ext ?_)))
    show (j 2).val = 0 + (win0_2.index t (2 : Fin 3) * 1024 + 1 * (j 2).val)
    omega

/-- An index of the first output is in point `t`'s block iff each coordinate is in the block's range on its axis. -/
theorem mem_blk2 (t : Fin cfg0.N) (i : S8x2048x1024.Idx) :
    i ∈ ((cfg0.win 2).blk t).view.set ↔ ∀ a : Fin 3, win0_2.index t a * S1x512x1024.size a ≤ (i a).val ∧ (i a).val < win0_2.index t a * S1x512x1024.size a + S1x512x1024.size a := by
  show i ∈ ((View.whole main_v7_0).slice (win0_2.rect t)).set ↔ _
  rw [View.set_slice_whole, Rect.mem_set_unit]
  exact Iff.rfl

/-- Every entry (b, s, e) of the first output lies in the block of the point with batch b and row tile s / 512. -/
theorem cover2 (i : S8x2048x1024.Idx) : ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 1024 := (i 2).isLt
  obtain ⟨t, ht⟩ := idx_onto2 ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- The first output array after the region. -/
theorem arrAt0_2 (c : Dev nD) :
    (dat0 (F := Ideal) V c).arrAt 2 cfg0.N = G2 (V c main_arg0) (V c main_v6) :=
  (dat0 (F := Ideal) V c).arrAt_eq_of_cover 2 (G2 (V c main_arg0) (V c main_v6)) (fun t _ => flushed2_eq V c t) cover2

/-! ## The second output: the key projection -/

/-- The index-map facts for the second output's window. -/
theorem idx_facts3 : ∀ t : Fin cfg0.N, win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0
    ∧ win0_1.index t (1 : Fin 2) = 0
    ∧ win0_3.index t (0 : Fin 3) ≤ 7 ∧ win0_3.index t (1 : Fin 3) ≤ 3 ∧ win0_3.index t (2 : Fin 3) = 0 :=
  (by decide +kernel : ∀ t : Fin grid0.N, _)

theorem idx_onto3 : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- The second output array as a function of the activations and the stacked weights. -/
def G3 (X : S8x2048x1024.Idx → EReal) (Wc : S1024x3072.Idx → EReal) : S8x2048x1024.Idx → EReal :=
  fun i => colProd X Wc 1024 (by omega) i

/-- What point `t` writes back to the second output is block `t` of that function. -/
theorem flushed3_eq (c : Dev nD) (t : Fin cfg0.N) :
    (dat0 (F := Ideal) V c).flushed 3 t = ((cfg0.win 3).blk t).view.read (Elt Ideal) (G3 (V c main_arg0) (V c main_v6)) := by
  show (cfg0.win 3).cut (grid0.coords t) ((dat0 V c).after 3 t) = _
  rw [after0_3]
  obtain ⟨e0, e1, e2, e3, e4, e5, e6, e7⟩ := idx_facts3 t
  funext j
  rw [View.read_apply]
  have hj0 : (j 0).val < 1 := (j 0).isLt
  have hj1 : (j 1).val < 512 := (j 1).isLt
  have hj2 : (j 2).val < 1024 := (j 2).isLt
  have hx : (cfg0.win 3).xinj (grid0.coords t) j = ix3 (0 : Fin 1) (⟨(j 1).val, hj1⟩ : Fin 512) (⟨(j 2).val, hj2⟩ : Fin 1024) := by
    funext a
    apply Fin.ext
    match a with
    | ⟨0, _⟩ => show (j 0).val = 0; omega
    | ⟨1, _⟩ => rfl
    | ⟨2, _⟩ => rfl
  refine (congrArg (out0_3 (iblk0 V c 0 t) (iblk0 V c 1 t)) hx).trans ?_
  refine (out0_3_apply (iblk0 V c 0 t) (iblk0 V c 1 t) ⟨(j 1).val, hj1⟩ ⟨(j 2).val, hj2⟩).trans ?_
  unfold G3 colProd
  refine Finset.sum_congr rfl fun d _ => ?_
  refine congrArg₂ (· * ·) ?_ ?_
  · exact xblk_apply V c t ⟨(j 1).val, hj1⟩ d _ _
      (show win0_3.index t (0 : Fin 3) * 1 + 1 * (j 0).val = win0_0.index t (0 : Fin 3) by omega)
      (show win0_3.index t (1 : Fin 3) * 512 + 1 * (j 1).val = win0_0.index t (1 : Fin 3) * 512 + (j 1).val by omega) e2
  · refine (wblk_apply V c t d _ e3 e4).trans (congrArg _ (congrArg (ix2 d) (Fin.ext ?_)))
    show 1024 + (j 2).val = 1024 + (win0_3.index t (2 : Fin 3) * 1024 + 1 * (j 2).val)
    omega

theorem mem_blk3 (t : Fin cfg0.N) (i : S8x2048x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v7_1).slice (win0_3.rect t)).set ↔ _
  rw [View.set_slice_whole, Rect.mem_set_unit]
  exact Iff.rfl

theorem cover3 (i : S8x2048x1024.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 1024 := (i 2).isLt
  obtain ⟨t, ht⟩ := idx_onto3 ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The second output array after the region. -/
theorem arrAt0_3 (c : Dev nD) :
    (dat0 (F := Ideal) V c).arrAt 3 cfg0.N = G3 (V c main_arg0) (V c main_v6) :=
  (dat0 (F := Ideal) V c).arrAt_eq_of_cover 3 (G3 (V c main_arg0) (V c main_v6)) (fun t _ => flushed3_eq V c t) cover3

/-! ## The third output: the value projection -/

/-- The index-map facts for the third output's window. -/
theorem idx_facts4 : ∀ t : Fin cfg0.N, win0_0.index t (0 : Fin 3) = win0_4.index t (0 : Fin 3)
    ∧ win0_0.index t (1 : Fin 3) = win0_4.index t (1 : Fin 3)
    ∧ win0_0.index t (2 : Fin 3) = 0
    ∧ win0_1.index t (0 : Fin 2) = 0
    ∧ win0_1.index t (1 : Fin 2) = 0
    ∧ win0_4.index t (0 : Fin 3) ≤ 7 ∧ win0_4.index t (1 : Fin 3) ≤ 3 ∧ win0_4.index t (2 : Fin 3) = 0 :=
  (by decide +kernel : ∀ t : Fin grid0.N, _)

theorem idx_onto4 : ∀ (q0 : Fin 8) (q1 : Fin 4), ∃ t : Fin cfg0.N, win0_4.index t = ![q0.val, q1.val, 0] :=
  (by decide +kernel : ∀ (q0 : Fin 8) (q1 : Fin 4), ∃ t : Fin grid0.N, win0_4.index t = ![q0.val, q1.val, 0])

/-- The third output array as a function of the activations and the stacked weights. -/
def G4 (X : S8x2048x1024.Idx → EReal) (Wc : S1024x3072.Idx → EReal) : S8x2048x1024.Idx → EReal :=
  fun i => colProd X Wc 2048 (by omega) i

/-- What point `t` writes back to the third output is block `t` of that function. -/
theorem flushed4_eq (c : Dev nD) (t : Fin cfg0.N) :
    (dat0 (F := Ideal) V c).flushed 4 t = ((cfg0.win 4).blk t).view.read (Elt Ideal) (G4 (V c main_arg0) (V c main_v6)) := by
  show (cfg0.win 4).cut (grid0.coords t) ((dat0 V c).after 4 t) = _
  rw [after0_4]
  obtain ⟨e0, e1, e2, e3, e4, e5, e6, e7⟩ := idx_facts4 t
  funext j
  rw [View.read_apply]
  have hj0 : (j 0).val < 1 := (j 0).isLt
  have hj1 : (j 1).val < 512 := (j 1).isLt
  have hj2 : (j 2).val < 1024 := (j 2).isLt
  have hx : (cfg0.win 4).xinj (grid0.coords t) j = ix3 (0 : Fin 1) (⟨(j 1).val, hj1⟩ : Fin 512) (⟨(j 2).val, hj2⟩ : Fin 1024) := by
    funext a
    apply Fin.ext
    match a with
    | ⟨0, _⟩ => show (j 0).val = 0; omega
    | ⟨1, _⟩ => rfl
    | ⟨2, _⟩ => rfl
  refine (congrArg (out0_4 (iblk0 V c 0 t) (iblk0 V c 1 t)) hx).trans ?_
  refine (out0_4_apply (iblk0 V c 0 t) (iblk0 V c 1 t) ⟨(j 1).val, hj1⟩ ⟨(j 2).val, hj2⟩).trans ?_
  unfold G4 colProd
  refine Finset.sum_congr rfl fun d _ => ?_
  refine congrArg₂ (· * ·) ?_ ?_
  · exact xblk_apply V c t ⟨(j 1).val, hj1⟩ d _ _
      (show win0_4.index t (0 : Fin 3) * 1 + 1 * (j 0).val = win0_0.index t (0 : Fin 3) by omega)
      (show win0_4.index t (1 : Fin 3) * 512 + 1 * (j 1).val = win0_0.index t (1 : Fin 3) * 512 + (j 1).val by omega) e2
  · refine (wblk_apply V c t d _ e3 e4).trans (congrArg _ (congrArg (ix2 d) (Fin.ext ?_)))
    show 2048 + (j 2).val = 2048 + (win0_4.index t (2 : Fin 3) * 1024 + 1 * (j 2).val)
    omega

theorem mem_blk4 (t : Fin cfg0.N) (i : S8x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v7_2).slice (win0_4.rect t)).set ↔ _
  rw [View.set_slice_whole, Rect.mem_set_unit]
  exact Iff.rfl

theorem cover4 (i : S8x2048x1024.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 1024 := (i 2).isLt
  obtain ⟨t, ht⟩ := idx_onto4 ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- The third output array after the region. -/
theorem arrAt0_4 (c : Dev nD) :
    (dat0 (F := Ideal) V c).arrAt 4 cfg0.N = G4 (V c main_arg0) (V c main_v6) :=
  (dat0 (F := Ideal) V c).arrAt_eq_of_cover 4 (G4 (V c main_arg0) (V c main_v6)) (fun t _ => flushed4_eq V c t) cover4

/-! ## The three functions at an entry -/

/-- Entry (b, s, e) of the first function: the scaled inner product with column e. -/
theorem G2_apply (X : S8x2048x1024.Idx → EReal) (Wc : S1024x3072.Idx → EReal) (b : Fin 8) (s : Fin 2048) (e : Fin 1024) :
    G2 X Wc (ix3 b s e)
      = (∑ d : Fin 1024, X (ix3 b s d) * Wc (ix2 d (⟨e.val, by omega⟩ : Fin 3072))) * Ideal.ofBits .f32 0x3D000000#32 := by
  unfold G2 colProd
  refine congrArg (· * Ideal.ofBits .f32 0x3D000000#32) (Finset.sum_congr rfl fun d _ => ?_)
  refine congrArg₂ (· * ·) rfl (congrArg _ (congrArg (ix2 d) (Fin.ext ?_)))
  show 0 + e.val = e.val
  omega

/-- Entry (b, s, e) of the second function: the inner product with column 1024 + e. -/
theorem G3_apply (X : S8x2048x1024.Idx → EReal) (Wc : S1024x3072.Idx → EReal) (b : Fin 8) (s : Fin 2048) (e : Fin 1024) :
    G3 X Wc (ix3 b s e) = ∑ d : Fin 1024, X (ix3 b s d) * Wc (ix2 d (⟨1024 + e.val, by omega⟩ : Fin 3072)) := rfl

/-- Entry (b, s, e) of the third function: the inner product with column 2048 + e. -/
theorem G4_apply (X : S8x2048x1024.Idx → EReal) (Wc : S1024x3072.Idx → EReal) (b : Fin 8) (s : Fin 2048) (e : Fin 1024) :
    G4 X Wc (ix3 b s e) = ∑ d : Fin 1024, X (ix3 b s d) * Wc (ix2 d (⟨2048 + e.val, by omega⟩ : Fin 3072)) := rfl

end Cert.KernelIdeal.R0V

end
-- ==== Proof.Host0.lean ====
/-
  What the host operations before the two regions leave in the buffer of stacked weights.

  Seven host operations run before the first region: each of the three weight matrices is transposed and narrowed to
  the shorter float format (the identity on ideal values), and the three results are laid side by side along the
  column axis into one 1024 × 3072 matrix.  So column e of that matrix is row e of the first weight matrix, column
  1024 + e is row e of the second, and column 2048 + e is row e of the third.  The activations are not written.
-/
import proofs.«420942_j40209483825490_2_alg».proof.Proof.Gen.KernelIdeal.Launch
import proofs.«420942_j40209483825490_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host0

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## A weight matrix transposed and narrowed -/

/-- One weight matrix as the host prepares it: transposed, then narrowed to the shorter format. -/
def wT (w : FVec Ideal S1024x1024 .f32) : FVec Ideal S1024x1024 .bf16 :=
  truncf .bf16 (transpose S1024x1024 [1, 0] w transposes_S1024x1024_S1024x1024_1_0) bitsLt_bf16_f32

/-- Entry (d, e) of the prepared matrix is entry (e, d) of the weight matrix: narrowing is the identity on ideal values. -/
theorem wT_apply (w : FVec Ideal S1024x1024 .f32) (d e : Fin 1024) : wT w (ix2 d e) = w (ix2 e d) := by
  unfold wT
  rw [truncf_apply]
  exact transpose_apply [1, 0] w transposes_S1024x1024_S1024x1024_1_0 (ix2 d e) (ix2 e d) (fun b => by
    match b with
    | ⟨0, _⟩ => rfl
    | ⟨1, _⟩ => rfl)

/-! ## Three matrices side by side -/

/-- Column e of the first third is column e of the first matrix. -/
theorem cat_first (x1 x2 x3 : FVec Ideal S1024x1024 .bf16) (d e : Fin 1024) :
    concatenate S1024x3072 1 [⟨S1024x1024, x1⟩, ⟨S1024x1024, x2⟩, ⟨S1024x1024, x3⟩]
        concatenates_S1024x1024_S1024x1024_S1024x1024_S1024x3072_d1 (ix2 d (⟨e.val, by omega⟩ : Fin 3072))
      = x1 (ix2 d e) :=
  concatenate_apply_piece 1 [⟨S1024x1024, x1⟩, ⟨S1024x1024, x2⟩, ⟨S1024x1024, x3⟩]
    concatenates_S1024x1024_S1024x1024_S1024x1024_S1024x3072_d1 (ix2 d (⟨e.val, by omega⟩ : Fin 3072))
    0 (by show (0 : ℕ) < 3; omega) S1024x1024 x1 rfl rfl 0 rfl (ix2 d e)
    (fun b hb => by
      match b with
      | ⟨0, _⟩ => rfl
      | ⟨1, _⟩ => exact absurd rfl hb)
    (by show 0 + e.val = e.val; omega)

/-- Column 1024 + e is column e of the second matrix. -/
theorem cat_second (x1 x2 x3 : FVec Ideal S1024x1024 .bf16) (d e : Fin 1024) :
    concatenate S1024x3072 1 [⟨S1024x1024, x1⟩, ⟨S1024x1024, x2⟩, ⟨S1024x1024, x3⟩]
        concatenates_S1024x1024_S1024x1024_S1024x1024_S1024x3072_d1 (ix2 d (⟨1024 + e.val, by omega⟩ : Fin 3072))
      = x2 (ix2 d e) :=
  concatenate_apply_piece 1 [⟨S1024x1024, x1⟩, ⟨S1024x1024, x2⟩, ⟨S1024x1024, x3⟩]
    concatenates_S1024x1024_S1024x1024_S1024x1024_S1024x3072_d1 (ix2 d (⟨1024 + e.val, by omega⟩ : Fin 3072))
    1 (by show (1 : ℕ) < 3; omega) S1024x1024 x2 rfl rfl 1024 rfl (ix2 d e)
    (fun b hb => by
      match b with
      | ⟨0, _⟩ => rfl
      | ⟨1, _⟩ => exact absurd rfl hb)
    rfl

/-- Column 2048 + e is column e of the third matrix. -/
theorem cat_third (x1 x2 x3 : FVec Ideal S1024x1024 .bf16) (d e : Fin 1024) :
    concatenate S1024x3072 1 [⟨S1024x1024, x1⟩, ⟨S1024x1024, x2⟩, ⟨S1024x1024, x3⟩]
        concatenates_S1024x1024_S1024x1024_S1024x1024_S1024x3072_d1 (ix2 d (⟨2048 + e.val, by omega⟩ : Fin 3072))
      = x3 (ix2 d e) :=
  concatenate_apply_piece 1 [⟨S1024x1024, x1⟩, ⟨S1024x1024, x2⟩, ⟨S1024x1024, x3⟩]
    concatenates_S1024x1024_S1024x1024_S1024x1024_S1024x3072_d1 (ix2 d (⟨2048 + e.val, by omega⟩ : Fin 3072))
    2 (by show (2 : ℕ) < 3; omega) S1024x1024 x3 rfl rfl 2048 rfl (ix2 d e)
    (fun b hb => by
      match b with
      | ⟨0, _⟩ => rfl
      | ⟨1, _⟩ => exact absurd rfl hb)
    rfl

/-! ## The buffer of stacked weights when the first region starts -/

/-- A three-operand operation's result at its own buffer, each operand's contents read at its own reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]
  congr 1
  funext k
  match k with
  | ⟨0, _⟩ => rfl
  | ⟨1, _⟩ => rfl
  | ⟨2, _⟩ => rfl

/-- The stacked weights: the three prepared weight matrices side by side. -/
theorem v6_term (c : Dev nD) :
    (Gen.V1 m c (Proc.devRef .tc main_v6) : S1024x3072.Idx → EReal)
      = concatenate S1024x3072 1
          [⟨S1024x1024, wT (m ((c.tc : Thread nD τ).loc main_arg2))⟩,
           ⟨S1024x1024, wT (m ((c.tc : Thread nD τ).loc main_arg3))⟩,
           ⟨S1024x1024, wT (m ((c.tc : Thread nD τ).loc main_arg4))⟩]
          concatenates_S1024x1024_S1024x1024_S1024x1024_S1024x3072_d1 := by
  dsimp only [Gen.V1, Gen.V0, Gen.hostOps0]
  simp only [after_cons, after_nil]
  rw [nary3_result]
  repeat (first
    | rw [unary_result]
    | (rw [unary_result_ne]; rotate_left; decide))
  rfl

/-! ## The stacked weights at an entry, and the activations -/

/-- Column e of the stacked weights is row e of the first weight matrix. -/
theorem v6_q (c : Dev nD) (d e : Fin 1024) :
    (Gen.V1 m c (Proc.devRef .tc main_v6) : S1024x3072.Idx → EReal) (ix2 d (⟨e.val, by omega⟩ : Fin 3072))
      = (m ((c.tc : Thread nD τ).loc main_arg2) : S1024x1024.Idx → EReal) (ix2 e d) :=
  (congrFun (v6_term m c) _).trans ((cat_first _ _ _ d e).trans (wT_apply _ d e))

/-- Column 1024 + e of the stacked weights is row e of the second weight matrix. -/
theorem v6_k (c : Dev nD) (d e : Fin 1024) :
    (Gen.V1 m c (Proc.devRef .tc main_v6) : S1024x3072.Idx → EReal) (ix2 d (⟨1024 + e.val, by omega⟩ : Fin 3072))
      = (m ((c.tc : Thread nD τ).loc main_arg3) : S1024x1024.Idx → EReal) (ix2 e d) :=
  (congrFun (v6_term m c) _).trans ((cat_second _ _ _ d e).trans (wT_apply _ d e))

/-- Column 2048 + e of the stacked weights is row e of the third weight matrix. -/
theorem v6_v (c : Dev nD) (d e : Fin 1024) :
    (Gen.V1 m c (Proc.devRef .tc main_v6) : S1024x3072.Idx → EReal) (ix2 d (⟨2048 + e.val, by omega⟩ : Fin 3072))
      = (m ((c.tc : Thread nD τ).loc main_arg4) : S1024x1024.Idx → EReal) (ix2 e d) :=
  (congrFun (v6_term m c) _).trans ((cat_third _ _ _ d e).trans (wT_apply _ d e))

/-- No host operation writes the activations. -/
theorem v1_arg0 (c : Dev nD) :
    Gen.V1 m c (Proc.devRef .tc main_arg0) = m ((c.tc : Thread nD τ).loc main_arg0) :=
  (Gen.V1_of m c main_arg0 (by decide)).trans rfl

end Cert.KernelIdeal.Host0

end
-- ==== Proof.Entries.lean ====
/-
  The three projection arrays as the attention region finds them, in the specification's terms.

  After the projection region, entry (b, s, e) of its first output array is the specification's query projection
  Σ_d x b s d · Wq e d multiplied by the constant 2⁻⁵, and the same entry of its second and third output arrays is the
  key and the value projection.  Two readings meet here: the region's output arrays are inner products of a row of the
  activations with a column of the stacked weights, and column e, 1024 + e, 2048 + e of the stacked weights is row e
  of the first, second, third weight matrix.
-/
import proofs.«420942_j40209483825490_2_alg».proof.Proof.Run
import proofs.«420942_j40209483825490_2_alg».proof.Proof.Array0
import proofs.«420942_j40209483825490_2_alg».proof.Proof.Host0
import proofs.«420942_j40209483825490_2_alg».proof.Proof.Spec

set_option maxRecDepth 16384

noncomputable section

open scoped BigOperators

namespace Cert.KernelIdeal.Bridge

open Cert.KernelIdeal Cert.KernelIdeal.Gen Cert.KernelIdeal.R0
open Idealize.ShloMosaic Idealize.ShloMosaic.TcCoe Idealize.ShloMosaic.ValueIdx Idealize.SL.Sem

variable (m : (ℓ : Loc nD τ sig) → Buf (Elt Ideal) ℓ)

/-- The first projection array when the attention region starts: the scaled query projection. -/
theorem q_entry (c : Dev nD) (b : Fin 8) (s : Fin 2048) (e : Fin 1024) :
    (Run.VB m c main_v7_0 : S8x2048x1024.Idx → EReal) (ix3 b s e)
      = Cert.Attn.proj (m ((c.tc : Thread nD τ).loc main_arg0)) (m ((c.tc : Thread nD τ).loc main_arg2)) b s e
          * Ideal.ofBits .f32 0x3D000000#32 := by
  have h1 : (Run.VB m c main_v7_0 : S8x2048x1024.Idx → EReal)
      = R0V.G2 (Run.VA m c main_arg0) (Run.VA m c main_v6) :=
    (Run.W2_arr m c 2).trans (R0V.arrAt0_2 (Run.VA m) c)
  refine (congrFun h1 (ix3 b s e)).trans ?_
  refine (R0V.G2_apply _ _ b s e).trans ?_
  unfold Cert.Attn.proj
  refine congrArg (· * Ideal.ofBits .f32 0x3D000000#32) (Finset.sum_congr rfl fun d _ => ?_)
  refine congrArg₂ (· * ·) ?_ ?_
  · exact congrFun (Host0.v1_arg0 m c) (ix3 b s d)
  · exact Host0.v6_q m c d e

/-- The second projection array when the attention region starts: the key projection. -/
theorem k_entry (c : Dev nD) (b : Fin 8) (s : Fin 2048) (e : Fin 1024) :
    (Run.VB m c main_v7_1 : S8x2048x1024.Idx → EReal) (ix3 b s e)
      = Cert.Attn.proj (m ((c.tc : Thread nD τ).loc main_arg0)) (m ((c.tc : Thread nD τ).loc main_arg3)) b s e := by
  have h1 : (Run.VB m c main_v7_1 : S8x2048x1024.Idx → EReal)
      = R0V.G3 (Run.VA m c main_arg0) (Run.VA m c main_v6) :=
    (Run.W2_arr m c 3).trans (R0V.arrAt0_3 (Run.VA m) c)
  refine (congrFun h1 (ix3 b s e)).trans ?_
  refine (R0V.G3_apply _ _ b s e).trans ?_
  unfold Cert.Attn.proj
  refine Finset.sum_congr rfl fun d _ => ?_
  refine congrArg₂ (· * ·) ?_ ?_
  · exact congrFun (Host0.v1_arg0 m c) (ix3 b s d)
  · exact Host0.v6_k m c d e

/-- The third projection array when the attention region starts: the value projection. -/
theorem v_entry (c : Dev nD) (b : Fin 8) (s : Fin 2048) (e : Fin 1024) :
    (Run.VB m c main_v7_2 : S8x2048x1024.Idx → EReal) (ix3 b s e)
      = Cert.Attn.proj (m ((c.tc : Thread nD τ).loc main_arg0)) (m ((c.tc : Thread nD τ).loc main_arg4)) b s e := by
  have h1 : (Run.VB m c main_v7_2 : S8x2048x1024.Idx → EReal)
      = R0V.G4 (Run.VA m c main_arg0) (Run.VA m c main_v6) :=
    (Run.W2_arr m c 4).trans (R0V.arrAt0_4 (Run.VA m) c)
  refine (congrFun h1 (ix3 b s e)).trans ?_
  refine (R0V.G4_apply _ _ b s e).trans ?_
  unfold Cert.Attn.proj
  refine Finset.sum_congr rfl fun d _ => ?_
  refine congrArg₂ (· * ·) ?_ ?_
  · exact congrFun (Host0.v1_arg0 m c) (ix3 b s d)
  · exact Host0.v6_v m c d e

end Cert.KernelIdeal.Bridge

end
-- ==== Proof.BridgeAux.lean ====
/-
  Grid-point and word facts of the attention region.

  The grid's 64 points are (batch b, query tile qi, key tile ki) with ki fastest: point n has b = n / 8,
  qi = n / 4 mod 2, ki = n mod 4.  The three conditions the body branches on are words computed from ki and the
  sequence's length: ki = 0, ki · 512 < len as signed words, ki = 3.  Since ki < 4 the product ki · 512 and the key
  positions ki · 512 + r (r < 512) stay below 2048, far from the signed range's end, so the word comparisons are the
  comparisons of the integers they stand for.
-/
import proofs.«420942_j40209483825490_2_alg».proof.Proof.Dat1
import proofs.«420942_j40209483825490_2_alg».proof.Proof.Body1Spec
import proofs.«420942_j40209483825490_2_alg».proof.Proof.Spec
import Idealize.ShloMosaic.Lib.ValueIdx

noncomputable section

namespace Cert.KernelIdeal.R1

open Idealize.ShloMosaic
open Cert.KernelIdeal Cert.KernelIdeal.Gen

variable {F : FTy → Type} [FloatOps F] [Named F]

/-! ## The grid's points -/

/-- Point n of the grid is (n / 8, n / 4 mod 2, n mod 4). -/
theorem coords_pt (a : (pcfg1 (F := F)).Adm) (n : ℕ) (h : n < (cfg1 a).N) :
    (((cfg1 a).grid.coords ⟨n, h⟩) 0).val = n / 8 ∧ (((cfg1 a).grid.coords ⟨n, h⟩) 1).val = n / 4 % 2
      ∧ (((cfg1 a).grid.coords ⟨n, h⟩) 2).val = n % 4 := by
  have h64 : n < 64 := h
  have s0 : grid1.stride 0 = 8 := by decide
  have s1 : grid1.stride 1 = 4 := by decide
  have s2 : grid1.stride 2 = 1 := by decide
  refine ⟨?_, ?_, ?_⟩
  · show n / grid1.stride 0 % 8 = n / 8
    rw [s0]; omega
  · show n / grid1.stride 1 % 2 = n / 4 % 2
    rw [s1]
  · show n / grid1.stride 2 % 4 = n % 4
    rw [s2]; omega

/-! ## Words of small naturals -/

/-- A natural below 2048 is its word's signed value. -/
theorem toInt_ofNat_small (k : ℕ) (hk : k < 2048) : (BitVec.ofNat 32 k).toInt = (k : ℤ) := by
  have h2 : (2 : ℕ) ^ 32 = 4294967296 := by norm_num
  rw [BitVec.toInt_eq_toNat_cond, BitVec.toNat_ofNat, h2, Nat.mod_eq_of_lt (by omega), if_pos (by omega)]

/-- The signed comparison of a small natural's word with a word is the comparison of the integers. -/
theorem slt_ofNat_iff (k : ℕ) (hk : k < 2048) (len : BitVec 32) :
    (BitVec.slt (BitVec.ofNat 32 k) len = true) ↔ ((k : ℕ) : ℤ) < len.toInt := by
  rw [BitVec.slt, decide_eq_true_iff, toInt_ofNat_small k hk]

/-- Key position j · 512 + j' as a word: the word arithmetic does not wrap. -/
theorem ofNat_tile (j : ℕ) (hj : j < 4) (j' : ℕ) (hj' : j' < 512) :
    BitVec.ofNat 32 j * 512#32 + BitVec.ofNat 32 j' = BitVec.ofNat 32 (j * 512 + j') := by
  rw [BitVec.ofNat_add, BitVec.ofNat_mul]

/-- The same in the scalar operations' spelling. -/
theorem ofNat_tile_scalar (j : ℕ) (hj : j < 4) (j' : ℕ) (hj' : j' < 512) :
    Scalar.addi (Scalar.muli (BitVec.ofNat 32 j) 512#32) (BitVec.ofNat 32 j') = BitVec.ofNat 32 (j * 512 + j') :=
  ofNat_tile j hj j' hj'

/-- The same in the vector operations' entrywise spelling. -/
theorem ofNat_tile_intOp (j : ℕ) (hj : j < 4) (j' : ℕ) (hj' : j' < 512) :
    IntOp.addi (Scalar.muli (BitVec.ofNat 32 j) 512#32) (BitVec.ofNat 32 j') = BitVec.ofNat 32 (j * 512 + j') :=
  ofNat_tile j hj j' hj'

/-- The tile's first key position as a word. -/
theorem ofNat_tile_zero (j : ℕ) (hj : j < 4) : Scalar.muli (BitVec.ofNat 32 j) 512#32 = BitVec.ofNat 32 (j * 512) := by
  show BitVec.ofNat 32 j * 512#32 = _
  rw [BitVec.ofNat_mul]

/-! ## The body's three conditions -/

/-- A one-bit flag widened and compared with zero is the flag. -/
theorem flag_iff (b : Bool) : Scalar.cmpi .ne (Scalar.extui (BitVec.ofBool b)) 0#32 = 1#1 ↔ b = true := by
  cases b <;> decide

/-- The first-key-tile condition holds exactly at ki = 0. -/
theorem firstW_iff (i : grid1.Coords) : firstW i ↔ (i 2).val = 0 := by
  unfold firstW
  have h : ∀ j : Fin 4, (Scalar.cmpi .ne (Scalar.extui (Scalar.cmpi .eq (BitVec.ofNat 32 j.val) 0#32)) 0#32 = 1#1) ↔ j.val = 0 := by
    decide
  exact h (i 2)

/-- The last-key-tile condition holds exactly at ki = 3. -/
theorem cond3_iff (i : grid1.Coords) : k1_cond3 i = 1#1 ↔ (i 2).val = 3 := by
  unfold k1_cond3
  have h : ∀ j : Fin 4, (Scalar.cmpi .ne (Scalar.extui (Scalar.cmpi .eq (BitVec.ofNat 32 j.val) 3#32)) 0#32 = 1#1) ↔ j.val = 3 := by
    decide
  exact h (i 2)

/-- The tile is folded in exactly when its first key position lies below the length. -/
theorem liveW_iff (i : grid1.Coords) (len : BitVec 32) : liveW i len ↔ Cert.Attn.live len.toInt (i 2).val := by
  have h4 : (i 2).val < 4 := (i 2).isLt
  unfold liveW Cert.Attn.live
  rw [ofNat_tile_zero _ h4]
  show Scalar.cmpi .ne (Scalar.extui (BitVec.ofBool (BitVec.slt (BitVec.ofNat 32 ((i 2).val * 512)) len))) 0#32 = 1#1 ↔ _
  rw [flag_iff, slt_ofNat_iff _ (by omega)]

end Cert.KernelIdeal.R1

end
-- ==== Proof.Array1In.lean ====
import proofs.«420942_j40209483825490_2_alg».proof.Proof.Dat1
import proofs.«420942_j40209483825490_2_alg».proof.Proof.Ok1
import Idealize.ShloMosaic.Lib.Pipeline.Value
import Idealize.ShloMosaic.Lib.ValueIdx

/-!
# Region 1: what the three input windows hold

The attention region's three input windows (the query block, the key block, the value block) are only
read by the body, so each holds the block of its array at its block index, at every one of the 64 grid
points (batch `n / 8`, query tile `n / 4 mod 2`, key tile `n mod 4`). The query window's index is
(batch, query tile, 0). The key and value windows' index caps the key tile by a quantity computed from
the batch's entry of the prefetched length table; at a point whose key tile is folded in the cap does
not bind. The table's contents stay a variable throughout.
-/

set_option maxRecDepth 16384

noncomputable section

namespace Cert.KernelIdeal.R1

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (a : (pcfg1 (F := F)).Adm)
variable (V : (c : Dev nD) → (b : Ref sig .tc) → Buf (Elt F) ((c : Thread nD τ).loc b))

/-! ## An input window that is only read holds the block at its index

At the first point, and wherever its block index moves, an input window's buffer receives the block at
its index; between such points the index stands still and so does the buffer. So at every point the
buffer holds the block of the array at the window's index there, transferred at that point or not. -/

/-- The grid has 64 points. -/
theorem N1i : (cfg1 a).N = 64 := N_1

/-- For any bookkeeping over any pipeline: an input window whose cuts depend on its block index only
    holds, at every point, what a transfer at that point would put into its buffer. -/
theorem heldIn_eq_fetched {Λ : Idealize.SL.Sem.Labels} {cfg : Pipeline.Cfg sig Λ} {c : Dev nD}
    (dat : Dat τ (Elt F) Unit ℕ (UR sig nD τ) ℕ cfg c) (w : Fin cfg.W) (hw : (cfg.win w).isOut = false)
    (hclip : ∀ t t' : Fin cfg.N, (cfg.win w).index t = (cfg.win w).index t' →
      (cfg.win w).clip (cfg.grid.coords t) = (cfg.win w).clip (cfg.grid.coords t')) :
    ∀ (n : ℕ) (h : n < cfg.N), Pipeline.heldIn cfg dat.A w n h = dat.fetched w ⟨n, h⟩ (fun _ => Classical.arbitrary _)
  | 0, h => rfl
  | n + 1, h => by
    by_cases hf : (cfg.win w).fetch ⟨n + 1, h⟩ = true
    · exact Pipeline.heldIn_of_fetch dat.A w ⟨n + 1, h⟩ hf
    · have hf' : (cfg.win w).fetch ⟨n + 1, h⟩ = false := Bool.eq_false_iff.mpr hf
      obtain ⟨-, hix⟩ := (cfg.win w).index_eq_of_fetch hw ⟨n + 1, h⟩ hf'
      have hix' : (cfg.win w).index ⟨n + 1, h⟩ = (cfg.win w).index ⟨n, Nat.lt_of_succ_lt h⟩ := hix
      rw [Pipeline.heldIn_of_not_fetch dat.A w n h hf', heldIn_eq_fetched dat w hw hclip n (Nat.lt_of_succ_lt h)]
      exact (dat.fetched_congr w hix' (hclip _ _ hix') _).symm

/-- In this region, for each of the three input windows: entry `y` of the block the body finds at point
    `n` is the array's entry under `y` in the block at the window's index at `n`. -/
theorem held_apply (w : Fin (cfg1 a).W) (hw : ((cfg1 a).win w).isOut = false) (c : Dev nD) (n : ℕ) (h : n < (cfg1 a).N)
    (y : ((cfg1 a).win w).block.Idx) :
    Pipeline.heldIn (cfg1 a) (A1 a V c) w n h y
      = (((cfg1 a).win w).blk ⟨n, h⟩).view.read (Elt F) (A1 a V c w) y := by
  have e : Pipeline.heldIn (cfg1 a) (A1 a V c) w n h = (dat1 a V c).fetched w ⟨n, h⟩ (fun _ => Classical.arbitrary _) :=
    heldIn_eq_fetched (dat1 a V c) w hw (fun _ _ _ => rfl) n h
  rw [e]
  exact ((cfg1 a).win w).fill_xinj ((cfg1 a).grid.coords ⟨n, h⟩) _ _ y

/-! ## The grid's coordinates and the table-free parts of the index maps -/

/-- A point's coordinates: batch `t / 8`, query tile `t / 4 mod 2`, key tile `t mod 4`. -/
theorem coords_facts : ∀ t : Fin grid1.N, (grid1.coords t 0).val = t.val / 8 ∧ (grid1.coords t 1).val = t.val / 4 % 2
    ∧ (grid1.coords t 2).val = t.val % 4 := by decide +kernel

/-- The query window's block index: (batch, query tile, 0). -/
theorem idx0_facts : ∀ t : Fin grid1.N, cc1_transform_0 (grid1.coords t) 0 = t.val / 8
    ∧ cc1_transform_0 (grid1.coords t) 1 = t.val / 4 % 2 ∧ cc1_transform_0 (grid1.coords t) 2 = 0 := by decide +kernel

/-- A batch coordinate survives the trip through a 32-bit word. -/
theorem word_coord : ∀ i : grid1.Coords, (Scalar.indexCast (BitVec.ofNat 32 (i 0).val)).toNat = (i 0).val
    ∧ (BitVec.ofNat 32 (i 0).val).toNat = (i 0).val := by decide +kernel

/-! ## The query block -/

/-- Where entry `y` of the query block at point `n` sits in the `8 × 2048 × 1024` array. -/
abbrev qIdx (n : ℕ) (h : n < 64) (y : S1x1024x1024.Idx) : S8x2048x1024.Idx :=
  ix3 (⟨n / 8, by omega⟩ : Fin 8)
    (⟨n / 4 % 2 * 1024 + (y 1).val, by have h1 : (y 1).val < 1024 := (y 1).isLt; omega⟩ : Fin 2048)
    (⟨(y 2).val, (y 2).isLt⟩ : Fin 1024)

theorem emb0_val (t : Fin (cfg1 a).N) (y : S1x1024x1024.Idx) (b : Fin 3) :
    (((((cfg1 a).win 0).blk t).view.emb y : S8x2048x1024.Idx) b).val
      = cc1_transform_0 (grid1.coords t) b * S1x1024x1024.size b + (y b).val :=
  ((cfg1 a).win 0).rect_emb_val t y b

/-- THE QUERY BLOCK at point `n`: the block of the scaled query projection at the point's batch and
    query tile. -/
theorem qAt_eq (c : Dev nD) (n : ℕ) (h : n < (cfg1 a).N) :
    qAt a V c n h = fun y => V c main_v7_0 (qIdx n ((N1i a) ▸ h) y) := by
  refine funext fun (y : S1x1024x1024.Idx) => ?_
  unfold qAt
  rw [held_apply a V 0 rfl c n h y]
  show V c main_v7_0 ((((cfg1 a).win 0).blk ⟨n, h⟩).view.emb y) = V c main_v7_0 (qIdx n ((N1i a) ▸ h) y)
  refine congrArg (V c main_v7_0) (funext fun b => Fin.ext ?_)
  obtain ⟨e0, e1, e2⟩ := idx0_facts ⟨n, h⟩
  have hy0 : (y 0).val < 1 := (y 0).isLt
  match b with
  | ⟨0, _⟩ => exact (emb0_val a ⟨n, h⟩ y 0).trans (by rw [e0]; show n / 8 * 1 + (y 0).val = n / 8; omega)
  | ⟨1, _⟩ => exact (emb0_val a ⟨n, h⟩ y 1).trans (by rw [e1]; rfl)
  | ⟨2, _⟩ => exact (emb0_val a ⟨n, h⟩ y 2).trans (by rw [e2]; show 0 * 1024 + (y 2).val = (y 2).val; omega)

/-! ## The key and value blocks

Their windows take block (batch, min(key tile, ⌊(len − 1) / 512⌋), 0), the length word `len` read from the
prefetched table at the batch coordinate. At a point whose key tile is folded in — its first key
position `ki · 512` is below `len`, read signed — the cap is at least `ki`, so the block is the key tile's. -/

/-- The word an index map loads from the table at a point is the batch's length word. -/
theorem loaded_eq_lenAt (pf : pre1.Contents (Elt F)) (i : grid1.Coords) :
    pf.at 0 (Rect.unit (s := S8) ![(Scalar.indexCast (BitVec.ofNat 32 (i 0).val)).toNat] S1.size (k1_off1_inb i)) numel1_S1
      = lenAt (pf 0) i := by
  unfold lenAt
  refine congrArg (pf 0) (funext fun b => Fin.ext ?_)
  match b with
  | ⟨0, _⟩ =>
    show (Scalar.indexCast (BitVec.ofNat 32 (i 0).val)).toNat + 1 * 0 = (i 0).val
    rw [(word_coord i).1]; omega

/-- Read signed, the capped block index is min(k, ⌊(w − 1) / 512⌋) for a length word `w ≥ 1`: `w − 1` does
    not wrap and is not negative, so its signed quotient by 512 is the floor quotient and the printed
    round-toward-−∞ correction never fires. -/
theorem kvIdx_isInt (w : BitVec 32) (hw : 1 ≤ w.toInt) (k : Nat) (hk : k < 4) :
    Affine.IsInt (PreDec.kvIdx w (BitVec.ofNat 32 k)) (min (k : Int) ((w.toInt - 1) / 512)) := by
  have h_w : Affine.IsInt w w.toInt := Affine.word w
  have r_w := Affine.word_range w
  have h_k : Affine.IsInt (BitVec.ofNat 32 k) (k : Int) := Affine.ofNat _ (by omega)
  have h_c1 : Affine.IsInt 1#32 1 := Affine.ofNat 1 (by omega)
  have h_c0 : Affine.IsInt 0#32 0 := Affine.ofNat 0 (by omega)
  have h_c512 : Affine.IsInt 512#32 512 := Affine.ofNat 512 (by omega)
  have h_v2 := Affine.subi (e := w.toInt - 1) h_w h_c1 (by omega)
  have h_v3 := Affine.divsi (e := (w.toInt - 1) / 512) h_v2 h_c512 (by omega)
  have h_v6 := Affine.slt_fails h_v2 h_c0 (by omega)
  have h_v7 := Affine.extui_fails (e := 0) h_v6 rfl
  have h_v9 := Affine.sgt_holds h_c512 h_c0 (by omega)
  have h_v10 := Affine.extui_holds (e := 1) h_v9 rfl
  have h_v11 := Affine.slt_fails h_c512 h_c0 (by omega)
  have h_v12 := Affine.extui_fails (e := 0) h_v11 rfl
  have h_v13 := Affine.subi (e := 1) h_v10 h_v12 (by omega)
  have h_v17 : Affine.Fails (Scalar.andi
      (Scalar.cmpi .ne (Scalar.subi (Scalar.extui (Scalar.cmpi .sgt (Scalar.subi w 1#32) 0#32))
        (Scalar.extui (Scalar.cmpi .slt (Scalar.subi w 1#32) 0#32)))
        (Scalar.subi (Scalar.extui (Scalar.cmpi .sgt 512#32 0#32)) (Scalar.extui (Scalar.cmpi .slt 512#32 0#32))))
      (Scalar.cmpi .ne (Scalar.remsi (Scalar.subi w 1#32) 512#32) 0#32)) := by
    rcases (by omega : w.toInt - 1 = 0 ∨ 0 < w.toInt - 1) with hz | hp
    · have h_v15 := Affine.remsi (e := 0) h_v2 h_c512 (by omega)
      exact Affine.andi_fails_right trivial (Affine.ne_fails h_v15 h_c0 rfl)
    · have h_v4 := Affine.sgt_holds h_v2 h_c0 hp
      have h_v5 := Affine.extui_holds (e := 1) h_v4 rfl
      have h_v8 := Affine.subi (e := 1) h_v5 h_v7 (by omega)
      exact Affine.andi_fails_left (Affine.ne_fails h_v8 h_v13 rfl) trivial
  have h_v18 : Affine.IsInt (Scalar.subi (Scalar.divsi (Scalar.subi w 1#32) 512#32) 1#32) ((w.toInt - 1) / 512 - 1) :=
    Affine.subi h_v3 h_c1 (by omega)
  have h_v19 := Affine.select_fails (e := (w.toInt - 1) / 512) h_v17 h_v18 h_v3 rfl
  exact Affine.minsi (e := min (k : Int) ((w.toInt - 1) / 512)) h_k h_v19 rfl

/-- When key tile `k` is folded in — `k · 512` is below the length word, read signed — the capped block
    index is `k` itself. -/
theorem kvIdx_of_live (w : BitVec 32) (k : Nat) (hk : k < 4)
    (hl : Scalar.cmpi .ne (Scalar.extui (Scalar.cmpi .slt (Scalar.muli (BitVec.ofNat 32 k) 512#32) w)) 0#32 = 1#1) :
    (PreDec.kvIdx w (BitVec.ofNat 32 k)).toNat = k := by
  have hs : Scalar.cmpi .slt (Scalar.muli (BitVec.ofNat 32 k) 512#32) w = 1#1 := (Scalar.guard_iff _).mp hl
  have h_w : Affine.IsInt w w.toInt := Affine.word w
  have h_k : Affine.IsInt (BitVec.ofNat 32 k) (k : Int) := Affine.ofNat _ (by omega)
  have h_c512 : Affine.IsInt 512#32 512 := Affine.ofNat 512 (by omega)
  have h_m : Affine.IsInt (Scalar.muli (BitVec.ofNat 32 k) 512#32) ((k : Int) * 512) := Affine.muli h_k h_c512 (by omega)
  have hlt : (k : Int) * 512 < w.toInt := by
    by_contra hn
    exact Affine.slt_fails h_m h_w hn hs
  have h := kvIdx_isInt w (by omega) k hk
  exact Affine.nat_eq h k (by omega)

/-- Where entry `y` of the key (or value) block of key tile `n mod 4` of batch `n / 8` sits in the
    `8 × 2048 × 1024` array. -/
abbrev kvArrIdx (n : ℕ) (h : n < 64) (y : S1x512x1024.Idx) : S8x2048x1024.Idx :=
  ix3 (⟨n / 8, by omega⟩ : Fin 8)
    (⟨n % 4 * 512 + (y 1).val, by have h1 : (y 1).val < 512 := (y 1).isLt; omega⟩ : Fin 2048)
    (⟨(y 2).val, (y 2).isLt⟩ : Fin 1024)

theorem emb1_val (t : Fin (cfg1 a).N) (y : S1x512x1024.Idx) (b : Fin 3) :
    (((((cfg1 a).win 1).blk t).view.emb y : S8x2048x1024.Idx) b).val
      = cc1_transform_1 k1_off1_inb numel1_S1 a.1 (grid1.coords t) b * S1x512x1024.size b + (y b).val :=
  ((cfg1 a).win 1).rect_emb_val t y b

/-- The key window's block index: (batch, the capped key tile, 0), the cap computed from the batch's length word. -/
theorem idx1_eq (i : grid1.Coords) :
    cc1_transform_1 k1_off1_inb numel1_S1 a.1 i
      = ![(BitVec.ofNat 32 (i 0).val).toNat, (PreDec.kvIdx (lenAt (a.1 0) i) (BitVec.ofNat 32 (i 2).val)).toNat, 0] := by
  rw [← loaded_eq_lenAt a.1 i]; rfl

/-- THE KEY BLOCK at a point whose key tile is folded in: the cap does not bind, and the block is
    the key projection's block at the point's batch and key tile. -/
theorem kAt_eq_of_live (c : Dev nD) (n : ℕ) (h : n < (cfg1 a).N)
    (hl : liveW ((cfg1 a).grid.coords ⟨n, h⟩) (lenP a ⟨n, h⟩)) :
    kAt a V c n h = fun y => V c main_v7_1 (kvArrIdx n ((N1i a) ▸ h) y) := by
  refine funext fun (y : S1x512x1024.Idx) => ?_
  unfold kAt
  rw [held_apply a V 1 rfl c n h y]
  show V c main_v7_1 ((((cfg1 a).win 1).blk ⟨n, h⟩).view.emb y) = V c main_v7_1 (kvArrIdx n ((N1i a) ▸ h) y)
  refine congrArg (V c main_v7_1) (funext fun b => Fin.ext ?_)
  obtain ⟨c0, c1, c2⟩ := coords_facts ⟨n, h⟩
  have hki : (grid1.coords ⟨n, h⟩ 2).val < 4 := (grid1.coords ⟨n, h⟩ 2).isLt
  have hkv : (PreDec.kvIdx (lenAt (a.1 0) (grid1.coords ⟨n, h⟩)) (BitVec.ofNat 32 (grid1.coords ⟨n, h⟩ 2).val)).toNat
      = (grid1.coords ⟨n, h⟩ 2).val := kvIdx_of_live _ _ hki hl
  have hix := idx1_eq a (grid1.coords ⟨n, h⟩)
  have hy0 : (y 0).val < 1 := (y 0).isLt
  match b with
  | ⟨0, _⟩ =>
    refine (emb1_val a ⟨n, h⟩ y 0).trans ?_
    rw [hix]
    show (BitVec.ofNat 32 (grid1.coords ⟨n, h⟩ 0).val).toNat * 1 + (y 0).val = n / 8
    rw [(word_coord _).2, c0]; show n / 8 * 1 + (y 0).val = n / 8; omega
  | ⟨1, _⟩ =>
    refine (emb1_val a ⟨n, h⟩ y 1).trans ?_
    rw [hix]
    show (PreDec.kvIdx (lenAt (a.1 0) (grid1.coords ⟨n, h⟩)) (BitVec.ofNat 32 (grid1.coords ⟨n, h⟩ 2).val)).toNat * 512 + (y 1).val
      = n % 4 * 512 + (y 1).val
    rw [hkv, c2]
  | ⟨2, _⟩ =>
    refine (emb1_val a ⟨n, h⟩ y 2).trans ?_
    rw [hix]
    show 0 * 1024 + (y 2).val = (y 2).val
    omega

theorem emb2_val (t : Fin (cfg1 a).N) (y : S1x512x1024.Idx) (b : Fin 3) :
    (((((cfg1 a).win 2).blk t).view.emb y : S8x2048x1024.Idx) b).val
      = cc1_transform_2 k1_off1_inb numel1_S1 a.1 (grid1.coords t) b * S1x512x1024.size b + (y b).val :=
  ((cfg1 a).win 2).rect_emb_val t y b

/-- The value window's block index: (batch, the capped key tile, 0), the cap computed from the batch's length word. -/
theorem idx2_eq (i : grid1.Coords) :
    cc1_transform_2 k1_off1_inb numel1_S1 a.1 i
      = ![(BitVec.ofNat 32 (i 0).val).toNat, (PreDec.kvIdx (lenAt (a.1 0) i) (BitVec.ofNat 32 (i 2).val)).toNat, 0] := by
  rw [← loaded_eq_lenAt a.1 i]; rfl

/-- THE VALUE BLOCK at a point whose key tile is folded in: the cap does not bind, and the block is
    the value projection's block at the point's batch and key tile. -/
theorem vAt_eq_of_live (c : Dev nD) (n : ℕ) (h : n < (cfg1 a).N)
    (hl : liveW ((cfg1 a).grid.coords ⟨n, h⟩) (lenP a ⟨n, h⟩)) :
    vAt a V c n h = fun y => V c main_v7_2 (kvArrIdx n ((N1i a) ▸ h) y) := by
  refine funext fun (y : S1x512x1024.Idx) => ?_
  unfold vAt
  rw [held_apply a V 2 rfl c n h y]
  show V c main_v7_2 ((((cfg1 a).win 2).blk ⟨n, h⟩).view.emb y) = V c main_v7_2 (kvArrIdx n ((N1i a) ▸ h) y)
  refine congrArg (V c main_v7_2) (funext fun b => Fin.ext ?_)
  obtain ⟨c0, c1, c2⟩ := coords_facts ⟨n, h⟩
  have hki : (grid1.coords ⟨n, h⟩ 2).val < 4 := (grid1.coords ⟨n, h⟩ 2).isLt
  have hkv : (PreDec.kvIdx (lenAt (a.1 0) (grid1.coords ⟨n, h⟩)) (BitVec.ofNat 32 (grid1.coords ⟨n, h⟩ 2).val)).toNat
      = (grid1.coords ⟨n, h⟩ 2).val := kvIdx_of_live _ _ hki hl
  have hix := idx2_eq a (grid1.coords ⟨n, h⟩)
  have hy0 : (y 0).val < 1 := (y 0).isLt
  match b with
  | ⟨0, _⟩ =>
    refine (emb2_val a ⟨n, h⟩ y 0).trans ?_
    rw [hix]
    show (BitVec.ofNat 32 (grid1.coords ⟨n, h⟩ 0).val).toNat * 1 + (y 0).val = n / 8
    rw [(word_coord _).2, c0]; show n / 8 * 1 + (y 0).val = n / 8; omega
  | ⟨1, _⟩ =>
    refine (emb2_val a ⟨n, h⟩ y 1).trans ?_
    rw [hix]
    show (PreDec.kvIdx (lenAt (a.1 0) (grid1.coords ⟨n, h⟩)) (BitVec.ofNat 32 (grid1.coords ⟨n, h⟩ 2).val)).toNat * 512 + (y 1).val
      = n % 4 * 512 + (y 1).val
    rw [hkv, c2]
  | ⟨2, _⟩ =>
    refine (emb2_val a ⟨n, h⟩ y 2).trans ?_
    rw [hix]
    show 0 * 1024 + (y 2).val = (y 2).val
    omega

end Cert.KernelIdeal.R1

end
-- ==== Proof.Row1.lean ====
/-
  The attention region's state functions read at a row.

  The region carries, for the 1024 query rows of a tile, a running maximum, a running denominator (both [1024, 1]
  columns) and a running numerator ([1024, 1024]).  Read at row r, and at column d of the numerator, the triple is
  the row state of the one-pass softmax (rowSt).  The state a row of tiles starts from is (−∞, 0, 0) (rowSt_init).
  One tile folds in the 512 masked scores of the row (sTile: the products of query row r with the tile's keys where
  the key's position, as a signed word, is below the length, −∞ elsewhere) and the tile's values in column d,
  exactly as the specification's step does (rowSt_step): the new maximum is the old one against the row maximum of
  the masked scores; the old sums are rescaled by exp (old maximum − new maximum); the tile adds Σ exp (score − new
  maximum), respectively the same weights against the values.  The block written after the last tile is the
  numerator over the denominator guarded from below by 10⁻³⁰ (outFin_apply).

  Each value of the body is read at an index through its chain of vector operations: shape casts between equal
  shapes, or adding or dropping a unit axis, keep the entries; a [1024, 1] column broadcast along the rows reads the
  column; a reduction over axis 1 reads as the fold, or the sum, over that axis's coordinates; a product into a zero
  accumulator reads as the sum over the contracted axis.
-/
import proofs.«420942_j40209483825490_2_alg».proof.Proof.Body1Spec
import proofs.«420942_j40209483825490_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.R1V

open Cert.KernelIdeal Cert.KernelIdeal.Gen Cert.KernelIdeal.R1 Idealize.ShloMosaic Idealize.ShloMosaic.ValueIdx

/-! ## Layout operations the library does not read: a column added, a column broadcast -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ValueIdx.ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The two products read at an index -/

theorem lhs_qk_0 (i : S1024x512.Idx) (c : dot_S1024x1024_S512x1024_S1024x512_1_1_0_0_n_n.contr.Idx) :
    (dot_S1024x1024_S512x1024_S1024x512_1_1_0_0_n_n.lhsIdx i c 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_qk_1 (i : S1024x512.Idx) (c : dot_S1024x1024_S512x1024_S1024x512_1_1_0_0_n_n.contr.Idx) :
    (dot_S1024x1024_S512x1024_S1024x512_1_1_0_0_n_n.lhsIdx i c 1).val = (c ⟨0, by decide⟩).val :=
  dot_S1024x1024_S512x1024_S1024x512_1_1_0_0_n_n.lhsIdx_val_of_single rfl i c
theorem rhs_qk_0 (i : S1024x512.Idx) (c : dot_S1024x1024_S512x1024_S1024x512_1_1_0_0_n_n.contr.Idx) :
    (dot_S1024x1024_S512x1024_S1024x512_1_1_0_0_n_n.rhsIdx i c 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_qk_1 (i : S1024x512.Idx) (c : dot_S1024x1024_S512x1024_S1024x512_1_1_0_0_n_n.contr.Idx) :
    (dot_S1024x1024_S512x1024_S1024x512_1_1_0_0_n_n.rhsIdx i c 1).val = (c ⟨0, by decide⟩).val :=
  dot_S1024x1024_S512x1024_S1024x512_1_1_0_0_n_n.rhsIdx_val_of_single rfl i c

/-- The product of the query block with the transposed key block, into a zero accumulator, at (r, j): the sum over
    the shared axis of the products of row r of the one and row j of the other. -/
theorem matmul_qk_apply (A : FVec Ideal S1024x1024 .bf16) (B : FVec Ideal S512x1024 .bf16) (r : Fin 1024) (j : Fin 512) :
    FloatOps.matmul dot_S1024x1024_S512x1024_S1024x512_1_1_0_0_n_n none A B (constant (F := Ideal) S1024x512 .f32 0x00000000#32) (ix2 r j)
      = ∑ e : Fin 1024, A (ix2 r e) * B (ix2 j e) := by
  rw [Ideal.matmul_constant_zero_apply, ← Equiv.sum_comp (contrEquiv1 dot_S1024x1024_S512x1024_S1024x512_1_1_0_0_n_n 1024 rfl rfl).symm]
  refine Finset.sum_congr rfl fun e _ => ?_
  have hk := contrEquiv1_symm_val dot_S1024x1024_S512x1024_S1024x512_1_1_0_0_n_n 1024 rfl rfl e
  have el : dot_S1024x1024_S512x1024_S1024x512_1_1_0_0_n_n.lhsIdx (ix2 r j) ((contrEquiv1 dot_S1024x1024_S512x1024_S1024x512_1_1_0_0_n_n 1024 rfl rfl).symm e) = ix2 r e := funext fun a => Fin.ext (by
    match a with
    | ⟨0, _⟩ => exact lhs_qk_0 _ _
    | ⟨1, _⟩ => exact (lhs_qk_1 _ _).trans hk)
  have er : dot_S1024x1024_S512x1024_S1024x512_1_1_0_0_n_n.rhsIdx (ix2 r j) ((contrEquiv1 dot_S1024x1024_S512x1024_S1024x512_1_1_0_0_n_n 1024 rfl rfl).symm e) = ix2 j e := funext fun a => Fin.ext (by
    match a with
    | ⟨0, _⟩ => exact rhs_qk_0 _ _
    | ⟨1, _⟩ => exact (rhs_qk_1 _ _).trans hk)
  rw [el, er]

theorem lhs_pv_0 (i : S1024x1024.Idx) (c : dot_S1024x512_S512x1024_S1024x1024_1_0_0_1_n_n.contr.Idx) :
    (dot_S1024x512_S512x1024_S1024x1024_1_0_0_1_n_n.lhsIdx i c 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_pv_1 (i : S1024x1024.Idx) (c : dot_S1024x512_S512x1024_S1024x1024_1_0_0_1_n_n.contr.Idx) :
    (dot_S1024x512_S512x1024_S1024x1024_1_0_0_1_n_n.lhsIdx i c 1).val = (c ⟨0, by decide⟩).val :=
  dot_S1024x512_S512x1024_S1024x1024_1_0_0_1_n_n.lhsIdx_val_of_single rfl i c
theorem rhs_pv_0 (i : S1024x1024.Idx) (c : dot_S1024x512_S512x1024_S1024x1024_1_0_0_1_n_n.contr.Idx) :
    (dot_S1024x512_S512x1024_S1024x1024_1_0_0_1_n_n.rhsIdx i c 0).val = (c ⟨0, by decide⟩).val :=
  dot_S1024x512_S512x1024_S1024x1024_1_0_0_1_n_n.rhsIdx_val_of_single rfl i c
theorem rhs_pv_1 (i : S1024x1024.Idx) (c : dot_S1024x512_S512x1024_S1024x1024_1_0_0_1_n_n.contr.Idx) :
    (dot_S1024x512_S512x1024_S1024x1024_1_0_0_1_n_n.rhsIdx i c 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of the weights with the value block, into a zero accumulator, at (r, d): the sum over the tile's
    keys of the weight of key j in row r times the value of key j in column d. -/
theorem matmul_pv_apply (P : FVec Ideal S1024x512 .bf16) (V : FVec Ideal S512x1024 .bf16) (r d : Fin 1024) :
    FloatOps.matmul dot_S1024x512_S512x1024_S1024x1024_1_0_0_1_n_n none P V (constant (F := Ideal) S1024x1024 .f32 0x00000000#32) (ix2 r d)
      = ∑ j : Fin 512, P (ix2 r j) * V (ix2 j d) := by
  rw [Ideal.matmul_constant_zero_apply, ← Equiv.sum_comp (contrEquiv1 dot_S1024x512_S512x1024_S1024x1024_1_0_0_1_n_n 512 rfl rfl).symm]
  refine Finset.sum_congr rfl fun e _ => ?_
  have hk := contrEquiv1_symm_val dot_S1024x512_S512x1024_S1024x1024_1_0_0_1_n_n 512 rfl rfl e
  have el : dot_S1024x512_S512x1024_S1024x1024_1_0_0_1_n_n.lhsIdx (ix2 r d) ((contrEquiv1 dot_S1024x512_S512x1024_S1024x1024_1_0_0_1_n_n 512 rfl rfl).symm e) = ix2 r e := funext fun a => Fin.ext (by
    match a with
    | ⟨0, _⟩ => exact lhs_pv_0 _ _
    | ⟨1, _⟩ => exact (lhs_pv_1 _ _).trans hk)
  have er : dot_S1024x512_S512x1024_S1024x1024_1_0_0_1_n_n.rhsIdx (ix2 r d) ((contrEquiv1 dot_S1024x512_S512x1024_S1024x1024_1_0_0_1_n_n 512 rfl rfl).symm e) = ix2 e d := funext fun a => Fin.ext (by
    match a with
    | ⟨0, _⟩ => exact (rhs_pv_0 _ _).trans hk
    | ⟨1, _⟩ => exact rhs_pv_1 _ _)
  rw [el, er]

/-! ## The named constants and the mask's test -/

/-- The masked scores of row r against the 512 keys of the tile: the score of key j where its position
    ki·512 + j, as a signed word, is below the length; −∞ elsewhere. -/
def sTile (ki len : BitVec 32) (q : Vec Ideal S1x1024x1024 .bf16) (k : Vec Ideal S1x512x1024 .bf16) (r : Fin 1024) (j : Fin 512) : EReal :=
  if BitVec.slt (ki * 512#32 + BitVec.ofNat 32 j.val) len = true then ∑ e : Fin 1024, q (ix3 0 r e) * k (ix3 0 j e) else ⊥

/-- The pattern 0xFF800000 is −∞. -/
theorem negInf_word : Ideal.ofBits .f32 0xFF800000#32 = ⊥ := by simp [Ideal.ofBits, Ideal.ieee]

/-- The mask's fill value is −∞. -/
theorem negBig : Named.named (F := Ideal) Cert.KernelIdeal.κ "neg_big" (φ := .f32) 0xFF333332#32 = (⊥ : EReal) :=
  IdealRules.named_const.ideal_named_scalar _ _ _ _ rfl

/-- The guard under the final quotient is 10⁻³⁰. -/
theorem guard_eq : Named.named (F := Ideal) Cert.KernelIdeal.κ "inv_1000000000000000000000000000000" (φ := .f32) 0x0DA24260#32 = Cert.Attn.eps :=
  IdealRules.named_const.ideal_named_scalar _ _ _ _ rfl

theorem select_ofBool {α : Type} (b : Bool) (x y : α) : Scalar.select (BitVec.ofBool b) x y = if b = true then x else y := by
  cases b <;> rfl

/-- The reduced index (r) with the coordinate j put back on axis 1 is (r, j). -/
theorem lift_eq (r : Fin 1024) (j : Fin 512) : reduces_S1024x512_S1024.lift (ValueIdx.ix1 r) j = ix2 r j :=
  funext fun a => Fin.ext (by match a with | ⟨0, _⟩ => rfl | ⟨1, _⟩ => rfl)

/-! ## The state a row of tiles starts from -/

/-- Row r of the carried state, with the numerator's column d. -/
def rowSt (s : Scr Ideal) (r d : Fin 1024) : Cert.Attn.St := (s.1 (ix2 r 0), s.2.1 (ix2 r 0), s.2.2 (ix2 r d))

theorem k1_pay1_apply (r : Fin 1024) : (k1_pay1 (F := Ideal)) (ix2 r 0) = ⊥ := by
  unfold k1_pay1
  rw [shapeCast_self]
  exact negInf_word

theorem k1_pay2_apply (r : Fin 1024) : (k1_pay2 (F := Ideal)) (ix2 r 0) = 0 := by
  unfold k1_pay2
  rw [shapeCast_self]
  exact Ideal.ofBits_zero_f32

theorem k1_pay3_apply (r d : Fin 1024) : (k1_pay3 (F := Ideal)) (ix2 r d) = 0 := by
  unfold k1_pay3
  rw [shapeCast_self]
  exact Ideal.ofBits_zero_f32

theorem rowSt_init (r d : Fin 1024) : rowSt scrInit r d = Cert.Attn.init := by
  unfold rowSt scrInit Cert.Attn.init
  simp only [k1_pay1_apply, k1_pay2_apply, k1_pay3_apply]

/-! ## One tile: each value of the body at an index -/

/-- The masked scores. -/
theorem k1_pay7_apply (ki len : BitVec 32) (q : Vec Ideal S1x1024x1024 .bf16) (k : Vec Ideal S1x512x1024 .bf16) (r : Fin 1024) (j : Fin 512) :
    k1_pay7 (F := Ideal) ki len q k (ix2 r j) = sTile ki len q k r j := by
  unfold k1_pay7
  show Scalar.select (IntOp.cmpi .slt (IntOp.addi (Scalar.muli ki 512#32) (iota Kind.tc S1024x512 32 [1] iota_S1024x512_d1_w32 (ix2 r j))) len)
      (FloatOps.matmul dot_S1024x1024_S512x1024_S1024x512_1_1_0_0_n_n none (shapeCast S1024x1024 q shapeCasts_S1x1024x1024_S1024x1024)
        (shapeCast S512x1024 k shapeCasts_S1x512x1024_S512x1024) (constant (F := Ideal) S1024x512 .f32 0x00000000#32) (ix2 r j))
      (Named.named (F := Ideal) Cert.KernelIdeal.κ "neg_big" (φ := .f32) 0xFF333332#32) = _
  rw [iota_single_apply, matmul_qk_apply, negBig]
  simp only [shapeCast_1ab_ab_apply]
  show Scalar.select (BitVec.ofBool ((ki * 512#32 + BitVec.ofNat 32 j.val).slt len)) _ _ = _
  rw [select_ofBool]
  rfl

/-- The new maximum: the old one against the tile's. -/
theorem k1_pay8_apply (ki len : BitVec 32) (q : Vec Ideal S1x1024x1024 .bf16) (k : Vec Ideal S1x512x1024 .bf16)
    (m : Vec Ideal S1024x1 .f32) (r : Fin 1024) :
    k1_pay8 (F := Ideal) ki len q k m (ix2 r 0) = max (m (ix2 r 0)) (Finset.univ.fold max ⊥ (sTile ki len q k r)) := by
  unfold k1_pay8
  refine (maximumf_apply _ _ _).trans ?_
  refine congrArg (max _) ?_
  refine (shapeCast_a_a1_apply _ _ r 0).trans ?_
  refine (Ideal.multiReduction_maximumf_single (φ := .f32) (k1_pay7 (F := Ideal) ki len q k) 0xFF800000#32
    reduces_S1024x512_S1024 (.inl rfl) rfl (ValueIdx.ix1 r)).trans ?_
  have hf : (k1_pay7 (F := Ideal) ki len q k ∘ reduces_S1024x512_S1024.lift (ValueIdx.ix1 r)) = sTile ki len q k r :=
    funext fun j =>
      (congrArg (k1_pay7 (F := Ideal) ki len q k) (lift_eq r j)).trans (k1_pay7_apply ki len q k r j)
  show Finset.univ.fold max (Ideal.ofBits .f32 0xFF800000#32) _ = _
  rw [hf, negInf_word]
  rfl

/-- The factor the old sums are rescaled by. -/
theorem k1_pay9_apply (ki len : BitVec 32) (q : Vec Ideal S1x1024x1024 .bf16) (k : Vec Ideal S1x512x1024 .bf16)
    (m m2 : Vec Ideal S1024x1 .f32) (r : Fin 1024) :
    k1_pay9 (F := Ideal) ki len q k m m2 (ix2 r 0)
      = Ideal.exp (m2 (ix2 r 0) - k1_pay8 (F := Ideal) ki len q k m (ix2 r 0)) := by
  unfold k1_pay9
  rfl

/-- The tile's exponentials. -/
theorem k1_pay10_apply (ki len : BitVec 32) (q : Vec Ideal S1x1024x1024 .bf16) (k : Vec Ideal S1x512x1024 .bf16)
    (m : Vec Ideal S1024x1 .f32) (r : Fin 1024) (j : Fin 512) :
    k1_pay10 (F := Ideal) ki len q k m (ix2 r j)
      = Ideal.exp (sTile ki len q k r j - k1_pay8 (F := Ideal) ki len q k m (ix2 r 0)) := by
  unfold k1_pay10
  show Ideal.exp (k1_pay7 (F := Ideal) ki len q k (ix2 r j)
    - broadcastTo S1024x512 (k1_pay8 (F := Ideal) ki len q k m) broadcasts_S1024x1_S1024x512 (ix2 r j)) = _
  rw [k1_pay7_apply, broadcastTo_a1_ab_apply]

/-- The new denominator. -/
theorem k1_pay11_apply (ki len : BitVec 32) (q : Vec Ideal S1x1024x1024 .bf16) (k : Vec Ideal S1x512x1024 .bf16)
    (m m2 l : Vec Ideal S1024x1 .f32) (r : Fin 1024) :
    k1_pay11 (F := Ideal) ki len q k m m2 l (ix2 r 0)
      = k1_pay9 (F := Ideal) ki len q k m m2 (ix2 r 0) * l (ix2 r 0) + ∑ j : Fin 512, k1_pay10 (F := Ideal) ki len q k m (ix2 r j) := by
  unfold k1_pay11
  rw [shapeCast_self]
  show k1_pay9 (F := Ideal) ki len q k m m2 (ix2 r 0) * l (ix2 r 0)
    + shapeCast S1024x1 (multiReduction (F := Ideal) .add [1] S1024 (k1_pay10 (F := Ideal) ki len q k m) 0x00000000#32
        reduces_S1024x512_S1024 (.inl rfl) rfl) shapeCasts_S1024_S1024x1 (ix2 r 0) = _
  rw [shapeCast_a_a1_apply]
  refine congrArg (fun z : EReal => (k1_pay9 (F := Ideal) ki len q k m m2 (ix2 r 0) * l (ix2 r 0) : EReal) + z) ?_
  refine (Ideal.multiReduction_add_single (φ := .f32) (k1_pay10 (F := Ideal) ki len q k m) 0x00000000#32
    reduces_S1024x512_S1024 (.inl rfl) rfl (ValueIdx.ix1 r)).trans ?_
  exact Finset.sum_congr rfl fun j _ => congrArg (k1_pay10 (F := Ideal) ki len q k m) (lift_eq r j)

/-- The old numerator rescaled. -/
theorem k1_pay12_apply (ki len : BitVec 32) (q : Vec Ideal S1x1024x1024 .bf16) (k : Vec Ideal S1x512x1024 .bf16)
    (m m2 : Vec Ideal S1024x1 .f32) (a : Vec Ideal S1024x1024 .f32) (r d : Fin 1024) :
    k1_pay12 (F := Ideal) ki len q k m m2 a (ix2 r d) = k1_pay9 (F := Ideal) ki len q k m m2 (ix2 r 0) * a (ix2 r d) := by
  unfold k1_pay12
  show broadcastTo S1024x1024 (k1_pay9 (F := Ideal) ki len q k m m2) broadcasts_S1024x1_S1024x1024 (ix2 r d) * a (ix2 r d) = _
  rw [broadcastTo_a1_ab_apply]

/-- The weights handed to the second product are the exponentials. -/
theorem k1_pay13_apply (ki len : BitVec 32) (q : Vec Ideal S1x1024x1024 .bf16) (k : Vec Ideal S1x512x1024 .bf16)
    (m : Vec Ideal S1024x1 .f32) (r : Fin 1024) (j : Fin 512) :
    k1_pay13 (F := Ideal) ki len q k m (ix2 r j) = k1_pay10 (F := Ideal) ki len q k m (ix2 r j) := by
  unfold k1_pay13
  rfl

/-- The new numerator: the rescaled old one plus the weighted values of the tile. -/
theorem k1_pay4_apply (a : FVec Ideal S1024x1024 .f32) (p : FVec Ideal S1024x512 .bf16) (v : Vec Ideal S1x512x1024 .bf16) (r d : Fin 1024) :
    k1_pay4 (F := Ideal) a p v (ix2 r d) = a (ix2 r d) + ∑ j : Fin 512, p (ix2 r j) * v (ix3 0 j d) := by
  unfold k1_pay4
  rw [shapeCast_self]
  show a (ix2 r d) + FloatOps.matmul dot_S1024x512_S512x1024_S1024x1024_1_0_0_1_n_n none p
    (shapeCast S512x1024 v shapeCasts_S1x512x1024_S512x1024) (constant (F := Ideal) S1024x1024 .f32 0x00000000#32) (ix2 r d) = _
  rw [matmul_pv_apply]
  simp only [shapeCast_1ab_ab_apply]

theorem k1_pay5_eq (x : FVec Ideal S1024x1 .f32) : k1_pay5 (F := Ideal) x = x := by
  unfold k1_pay5
  exact shapeCast_self _ _

/-! ## The three statements -/

theorem rowSt_step (ki len : BitVec 32) (q : Vec Ideal S1x1024x1024 .bf16) (k v : Vec Ideal S1x512x1024 .bf16) (s : Scr Ideal) (r d : Fin 1024) :
    rowSt (scrStep ki len q k v s) r d = Cert.Attn.step (sTile ki len q k r) (fun j => v (ix3 0 j d)) (rowSt s r d) := by
  unfold rowSt scrStep Cert.Attn.step
  simp only [k1_pay5_eq, k1_pay11_apply, k1_pay4_apply, k1_pay12_apply, k1_pay13_apply, k1_pay10_apply, k1_pay9_apply, k1_pay8_apply]

theorem outFin_apply (s : Scr Ideal) (r d : Fin 1024) :
    outFin s (ix3 0 r d) = Ideal.div (s.2.2 (ix2 r d)) (max (s.2.1 (ix2 r 0)) Cert.Attn.eps) := by
  unfold outFin k1_pay6
  rw [shapeCast_ab_1ab_apply]
  show Ideal.div (s.2.2 (ix2 r d)) (broadcastTo S1024x1024 (maximumf s.2.1 (broadcast S1024x1
    (Named.named (F := Ideal) Cert.KernelIdeal.κ "inv_1000000000000000000000000000000" (φ := .f32) 0x0DA24260#32)))
      broadcasts_S1024x1_S1024x1024 (ix2 r d)) = _
  rw [broadcastTo_a1_ab_apply]
  show Ideal.div _ (max (s.2.1 (ix2 r 0)) (Named.named (F := Ideal) Cert.KernelIdeal.κ "inv_1000000000000000000000000000000" (φ := .f32) 0x0DA24260#32)) = _
  rw [guard_eq]

end Cert.KernelIdeal.R1V

end
-- ==== Proof.BridgeTile.lean ====
/-
  At a grid point of the attention region whose key tile is folded in, the blocks the body finds are the
  specification's tiles.

  Point n of the grid is batch n / 8, query tile n / 4 mod 2, key tile n mod 4.  There the query block holds rows
  (n / 4 mod 2) · 1024 … of the scaled query projection of that batch, the key and value blocks rows (n mod 4) · 512 …
  of the key and value projections, and the length word is the batch's entry of the length argument.  So the body's
  masked score of query row r against key j of the tile is the specification's masked score of query row
  (n / 4 mod 2) · 1024 + r against key (n mod 4) · 512 + j: the two masks test the same inequality, because the key
  position as a 32-bit word, read signed, is the key position; and the value block's column d is the tile of the
  value projection's column d.
-/
import proofs.«420942_j40209483825490_2_alg».proof.Proof.Entries
import proofs.«420942_j40209483825490_2_alg».proof.Proof.BridgeAux
import proofs.«420942_j40209483825490_2_alg».proof.Proof.Dat1
import proofs.«420942_j40209483825490_2_alg».proof.Proof.Body1Spec
import proofs.«420942_j40209483825490_2_alg».proof.Proof.Run
import proofs.«420942_j40209483825490_2_alg».proof.Proof.Spec
import proofs.«420942_j40209483825490_2_alg».proof.Proof.Array1In
import proofs.«420942_j40209483825490_2_alg».proof.Proof.Row1

set_option maxRecDepth 16384

noncomputable section

open scoped BigOperators

namespace Cert.KernelIdeal.Bridge

open Cert.KernelIdeal Cert.KernelIdeal.Gen Cert.KernelIdeal.R0 Cert.KernelIdeal.R1
open Idealize.ShloMosaic Idealize.ShloMosaic.TcCoe Idealize.ShloMosaic.ValueIdx Idealize.SL.Sem

variable (m : (ℓ : Loc nD τ sig) → Buf (Elt Ideal) ℓ)
variable (a1 : (pcfg1 (F := Ideal)).Adm)

/-- The length word the body loads at point n is the length argument's entry for batch n / 8. -/
theorem lenP_eq (hpf : ∀ c : Dev nD, (fun k => Run.VB m c (pre1.ref k)) = a1.1) (c : Dev nD) (n : ℕ) (h : n < (cfg1 a1).N) :
    lenP a1 ⟨n, h⟩
      = (m ((c.tc : Thread nD τ).loc main_arg1) : S8.Idx → BitVec 32) (ValueIdx.ix1 (⟨n / 8, by have h64 : n < 64 := h; omega⟩ : Fin 8)) := by
  have ht : a1.1 0 = m ((c.tc : Thread nD τ).loc main_arg1) := (congrFun (hpf c) 0).symm.trans (Run.VB_main_arg1 m c)
  unfold lenP lenAt
  rw [ht]
  exact congrArg _ (congrArg ValueIdx.ix1 (Fin.ext (coords_pt a1 n h).1))

/-- The body's masked scores of query row r against the tile's keys are the specification's tile of masked scores,
    given that the query and key blocks hold the projections' rows of the point's batch, query tile and key tile. -/
theorem sTile_eq_of (hpf : ∀ c : Dev nD, (fun k => Run.VB m c (pre1.ref k)) = a1.1) (c : Dev nD) (n : ℕ) (h : n < (cfg1 a1).N)
    (hq : ∀ y : S1x1024x1024.Idx, qAt a1 (Run.VB m) c n h y
      = (Run.VB m c main_v7_0 : S8x2048x1024.Idx → EReal) (ix3 (⟨n / 8, by have h64 : n < 64 := h; omega⟩ : Fin 8)
          (⟨n / 4 % 2 * 1024 + (y 1).val, by have h1 : (y 1).val < 1024 := (y 1).isLt; omega⟩ : Fin 2048) (⟨(y 2).val, (y 2).isLt⟩ : Fin 1024)))
    (hk : ∀ y : S1x512x1024.Idx, kAt a1 (Run.VB m) c n h y
      = (Run.VB m c main_v7_1 : S8x2048x1024.Idx → EReal) (ix3 (⟨n / 8, by have h64 : n < 64 := h; omega⟩ : Fin 8)
          (⟨n % 4 * 512 + (y 1).val, by have h1 : (y 1).val < 512 := (y 1).isLt; omega⟩ : Fin 2048) (⟨(y 2).val, (y 2).isLt⟩ : Fin 1024)))
    (r : Fin 1024) :
    R1V.sTile (BitVec.ofNat 32 (n % 4)) (lenP a1 ⟨n, h⟩) (qAt a1 (Run.VB m) c n h) (kAt a1 (Run.VB m) c n h) r
      = Cert.Attn.tile
          (Cert.Attn.masked ((m ((c.tc : Thread nD τ).loc main_arg1) : S8.Idx → BitVec 32) (ValueIdx.ix1 (⟨n / 8, by have h64 : n < 64 := h; omega⟩ : Fin 8))).toInt
            (Cert.Attn.scoreKer (m ((c.tc : Thread nD τ).loc main_arg0)) (m ((c.tc : Thread nD τ).loc main_arg2)) (m ((c.tc : Thread nD τ).loc main_arg3))
              (⟨n / 8, by have h64 : n < 64 := h; omega⟩ : Fin 8) (⟨n / 4 % 2 * 1024 + r.val, by have hr : r.val < 1024 := r.isLt; omega⟩ : Fin 2048)))
          (⟨n % 4, by omega⟩ : Fin 4) := by
  have h64 : n < 64 := h
  funext j
  have hj : j.val < 512 := j.isLt
  have hr : r.val < 1024 := r.isLt
  have hiff := slt_ofNat_iff (n % 4 * 512 + j.val) (by omega)
    ((m ((c.tc : Thread nD τ).loc main_arg1) : S8.Idx → BitVec 32) (ValueIdx.ix1 (⟨n / 8, by omega⟩ : Fin 8)))
  unfold R1V.sTile Cert.Attn.tile Cert.Attn.masked
  rw [lenP_eq m a1 hpf c n h, ofNat_tile (n % 4) (by omega) j.val hj]
  refine if_congr hiff ?_ rfl
  unfold Cert.Attn.scoreKer
  refine Finset.sum_congr rfl fun e _ => congrArg₂ (· * ·) ?_ ?_
  · exact (hq (ix3 0 r e)).trans (q_entry m c (⟨n / 8, by omega⟩ : Fin 8) (⟨n / 4 % 2 * 1024 + r.val, by omega⟩ : Fin 2048) e)
  · exact (hk (ix3 0 j e)).trans (k_entry m c (⟨n / 8, by omega⟩ : Fin 8) (⟨n % 4 * 512 + j.val, by omega⟩ : Fin 2048) e)

/-- Column d of the value block is the specification's tile of the value projection's column d, given that the value
    block holds the value projection's rows of the point's batch and key tile. -/
theorem vTile_eq_of (c : Dev nD) (n : ℕ) (h : n < (cfg1 a1).N)
    (hv : ∀ y : S1x512x1024.Idx, vAt a1 (Run.VB m) c n h y
      = (Run.VB m c main_v7_2 : S8x2048x1024.Idx → EReal) (ix3 (⟨n / 8, by have h64 : n < 64 := h; omega⟩ : Fin 8)
          (⟨n % 4 * 512 + (y 1).val, by have h1 : (y 1).val < 512 := (y 1).isLt; omega⟩ : Fin 2048) (⟨(y 2).val, (y 2).isLt⟩ : Fin 1024)))
    (d : Fin 1024) :
    (fun j' : Fin 512 => vAt a1 (Run.VB m) c n h (ix3 0 j' d))
      = Cert.Attn.tile (fun k => Cert.Attn.proj (m ((c.tc : Thread nD τ).loc main_arg0)) (m ((c.tc : Thread nD τ).loc main_arg4))
          (⟨n / 8, by have h64 : n < 64 := h; omega⟩ : Fin 8) k d) (⟨n % 4, by omega⟩ : Fin 4) := by
  have h64 : n < 64 := h
  funext j'
  have hj : j'.val < 512 := j'.isLt
  unfold Cert.Attn.tile
  exact (hv (ix3 0 j' d)).trans (v_entry m c (⟨n / 8, by omega⟩ : Fin 8) (⟨n % 4 * 512 + j'.val, by omega⟩ : Fin 2048) d)

/-- At a point whose key tile is folded in: the body's masked scores of query row r against the tile's keys are the
    specification's tile of masked scores of query row (n / 4 mod 2) · 1024 + r of batch n / 8. -/
theorem sTile_eq (hpf : ∀ c : Dev nD, (fun k => Run.VB m c (pre1.ref k)) = a1.1) (c : Dev nD) (n : ℕ) (h : n < (cfg1 a1).N)
    (hl : liveW ((cfg1 a1).grid.coords ⟨n, h⟩) (lenP a1 ⟨n, h⟩)) (r : Fin 1024) :
    R1V.sTile (BitVec.ofNat 32 (n % 4)) (lenP a1 ⟨n, h⟩) (qAt a1 (Run.VB m) c n h) (kAt a1 (Run.VB m) c n h) r
      = Cert.Attn.tile
          (Cert.Attn.masked ((m ((c.tc : Thread nD τ).loc main_arg1) : S8.Idx → BitVec 32) (ValueIdx.ix1 (⟨n / 8, by have h64 : n < 64 := h; omega⟩ : Fin 8))).toInt
            (Cert.Attn.scoreKer (m ((c.tc : Thread nD τ).loc main_arg0)) (m ((c.tc : Thread nD τ).loc main_arg2)) (m ((c.tc : Thread nD τ).loc main_arg3))
              (⟨n / 8, by have h64 : n < 64 := h; omega⟩ : Fin 8) (⟨n / 4 % 2 * 1024 + r.val, by have hr : r.val < 1024 := r.isLt; omega⟩ : Fin 2048)))
          (⟨n % 4, by omega⟩ : Fin 4) :=
  sTile_eq_of m a1 hpf c n h (fun y => congrFun (qAt_eq a1 (Run.VB m) c n h) y)
    (fun y => congrFun (kAt_eq_of_live a1 (Run.VB m) c n h hl) y) r

/-- At a point whose key tile is folded in: column d of the value block is the specification's tile of the value
    projection's column d of batch n / 8. -/
theorem vTile_eq (c : Dev nD) (n : ℕ) (h : n < (cfg1 a1).N)
    (hl : liveW ((cfg1 a1).grid.coords ⟨n, h⟩) (lenP a1 ⟨n, h⟩)) (d : Fin 1024) :
    (fun j' : Fin 512 => vAt a1 (Run.VB m) c n h (ix3 0 j' d))
      = Cert.Attn.tile (fun k => Cert.Attn.proj (m ((c.tc : Thread nD τ).loc main_arg0)) (m ((c.tc : Thread nD τ).loc main_arg4))
          (⟨n / 8, by have h64 : n < 64 := h; omega⟩ : Fin 8) k d) (⟨n % 4, by omega⟩ : Fin 4) :=
  vTile_eq_of m a1 c n h (fun y => congrFun (vAt_eq_of_live a1 (Run.VB m) c n h hl) y) d

end Cert.KernelIdeal.Bridge

end
-- ==== Proof.Array1.lean ====
import proofs.«420942_j40209483825490_2_alg».proof.Proof.Dat1
import proofs.«420942_j40209483825490_2_alg».proof.Proof.Ok1
import Idealize.ShloMosaic.Lib.Pipeline.Value
import Idealize.ShloMosaic.Lib.ValueIdx

/-!
# Region 1: the output array the attention region leaves

The attention region runs 64 grid points (batch b, query tile qi, key tile ki; point number
`b·8 + qi·4 + ki`). Its output window holds block (b, qi, 0) of the `8 × 2048 × 1024` output array, in
blocks of `1 × 1024 × 1024`, and is written back exactly at the points with `ki = 3`, where the body has
just stored the final quotient of the row state. The sixteen written blocks tile the array, so the array
ends as one function of the row states after the last key tiles.
-/

set_option maxRecDepth 16384

noncomputable section

namespace Cert.KernelIdeal.R1

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (a : (pcfg1 (F := F)).Adm)
variable (V : (c : Dev nD) → (b : Ref sig .tc) → Buf (Elt F) ((c : Thread nD τ).loc b))

/-! ## The grid and the output window, free of the table

The grid has 8 × 2 × 4 points (batch, query tile, key tile), the key tile fastest. The output window's
block index reads the batch and the query tile only and no table, so where it is written back is a
fact about the 64 points alone. -/

/-- The grid has 64 points. -/
theorem N1 : (cfg1 a).N = 64 := N_1

/-- The output window's block index at a point is the printed index map at the point's coordinates. -/
theorem idx3 (t : Fin (cfg1 a).N) : ((cfg1 a).win 3).index t = cc1_transform_3 (grid1.coords t) := rfl

/-- In closed form: block (batch, query tile, 0), with batch = t / 8 and query tile = t / 4 mod 2. -/
theorem idx3_facts : ∀ t : Fin grid1.N, cc1_transform_3 (grid1.coords t) 0 = t.val / 8
    ∧ cc1_transform_3 (grid1.coords t) 1 = t.val / 4 % 2 ∧ cc1_transform_3 (grid1.coords t) 2 = 0 := by decide +kernel

/-- Where the output block is written back, as a function of the point alone: at the last point, and
    wherever the next point's block index differs. -/
def flushAt3 (t : Fin grid1.N) : Bool :=
  t.val + 1 = grid1.N || decide (∃ h : t.val + 1 < grid1.N, cc1_transform_3 (grid1.coords ⟨t.val + 1, h⟩) ≠ cc1_transform_3 (grid1.coords t))

/-- That is exactly at the last key tile of each row of key tiles. -/
theorem flushAt3_iff : ∀ t : Fin grid1.N, flushAt3 t = true ↔ t.val % 4 = 3 := by decide +kernel

theorem flush3_eq (t : Fin (cfg1 a).N) : ((cfg1 a).win 3).flush t = flushAt3 t := rfl

/-- The output window is written back exactly at the points whose key tile is the last. -/
theorem flushOut_iff (t : Fin (cfg1 a).N) : ((cfg1 a).win 3).flush t = true ↔ t.val % 4 = 3 := by
  rw [flush3_eq]; exact flushAt3_iff t

/-! ## The output array after the region -/

/-- The scratch state does not depend on how its point is spelt. -/
theorem scrAt_congr (c : Dev nD) {n n' : ℕ} (e : n = n') (h : n < (cfg1 a).N) (h' : n' < (cfg1 a).N) :
    scrAt a V c n h = scrAt a V c n' h' := by subst e; rfl

/-- The point that writes row `i 1` of batch `i 0` back: the last key tile of that row's query tile. -/
theorem outPt_lt (i : S8x2048x1024.Idx) : (i 0).val * 8 + (i 1).val / 1024 * 4 + 3 < (cfg1 a).N := by
  have h0 : (i 0).val < 8 := (i 0).isLt
  have h1 : (i 1).val < 2048 := (i 1).isLt
  rw [N1]; omega

/-- The output array the region leaves: entry (b, s, d) is entry (s mod 1024, d) of the final quotient
    of the scratch state after the last key tile of query tile s / 1024 of batch b. -/
def outArr (c : Dev nD) : S8x2048x1024.Idx → Elt F .f32 := fun i =>
  outFin (scrAt a V c ((i 0).val * 8 + (i 1).val / 1024 * 4 + 3) (outPt_lt a i))
    (ix3 (0 : Fin 1) (⟨(i 1).val % 1024, Nat.mod_lt _ (by decide)⟩ : Fin 1024) (⟨(i 2).val, (i 2).isLt⟩ : Fin 1024))

/-- The same entry, the point and the entry inside the block named by whatever terms equal them. -/
theorem outArr_apply (c : Dev nD) (i : S8x2048x1024.Idx) (n : ℕ) (h : n < (cfg1 a).N) (y : S1x1024x1024.Idx)
    (hn : (i 0).val * 8 + (i 1).val / 1024 * 4 + 3 = n) (hy1 : (y 1).val = (i 1).val % 1024) (hy2 : (y 2).val = (i 2).val) :
    outArr a V c i = outFin (scrAt a V c n h) y := by
  subst hn
  unfold outArr
  refine congrArg (outFin (scrAt a V c _ h)) (funext fun b => Fin.ext ?_)
  match b with
  | ⟨0, _⟩ => have h0 : (y 0).val < 1 := (y 0).isLt; show 0 = (y 0).val; omega
  | ⟨1, _⟩ => exact hy1.symm
  | ⟨2, _⟩ => exact hy2.symm

/-- An entry of the block at a point sits in the output array, on each axis, at the block index times the
    block's size plus its own coordinate. -/
theorem emb3_val (t : Fin (cfg1 a).N) (j : S1x1024x1024.Idx) (b : Fin 3) :
    (((((cfg1 a).win 3).blk t).view.emb j : S8x2048x1024.Idx) b).val
      = cc1_transform_3 (grid1.coords t) b * S1x1024x1024.size b + (j b).val :=
  ((cfg1 a).win 3).rect_emb_val t j b

/-- The entry of the final quotient at a point of a last key tile is the output array's entry there. -/
theorem flushed3_aux (c : Dev nD) (t : Fin (cfg1 a).N) (h3 : t.val % 4 = 3) (j : S1x1024x1024.Idx) (i : S8x2048x1024.Idx)
    (E0 : (i 0).val = t.val / 8 * 1 + (j 0).val) (E1 : (i 1).val = t.val / 4 % 2 * 1024 + (j 1).val)
    (E2 : (i 2).val = 0 * 1024 + (j 2).val) :
    outFin (scrAt a V c t.val t.isLt) j = outArr a V c i := by
  have hN : t.val < 64 := (N1 a) ▸ t.isLt
  have hj0 : (j 0).val < 1 := (j 0).isLt
  have hj1 : (j 1).val < 1024 := (j 1).isLt
  have hj2 : (j 2).val < 1024 := (j 2).isLt
  exact (outArr_apply a V c i t.val t.isLt j (by omega) (by omega) (by omega)).symm

/-- What a point that writes back writes is its block of `outArr`. -/
theorem flushed3_eq (c : Dev nD) (t : Fin (cfg1 a).N) (hf : ((cfg1 a).win 3).flush t = true) :
    (dat1 a V c).flushed 3 t = (((cfg1 a).win 3).blk t).view.read (Elt F) (outArr a V c) := by
  have h3 : t.val % 4 = 3 := (flushOut_iff a t).mp hf
  obtain ⟨e0, e1, e2⟩ := idx3_facts t
  show ((cfg1 a).win 3).cut ((cfg1 a).grid.coords t) ((dat1 a V c).after 3 t) = _
  rw [after1_3]
  refine funext fun (j : S1x1024x1024.Idx) => ?_
  exact flushed3_aux a V c t h3 j ((((cfg1 a).win 3).blk t).view.emb j)
    ((emb3_val a t j 0).trans (by rw [e0]; rfl)) ((emb3_val a t j 1).trans (by rw [e1]; rfl)) ((emb3_val a t j 2).trans (by rw [e2]; rfl))

/-- An entry of the output array lies in a point's block when each coordinate lies in the block's range. -/
theorem mem_blk3 (t : Fin (cfg1 a).N) (i : S8x2048x1024.Idx) :
    i ∈ (((cfg1 a).win 3).blk t).view.set ↔ ∀ b : Fin 3, cc1_transform_3 (grid1.coords t) b * S1x1024x1024.size b ≤ (i b).val
      ∧ (i b).val < cc1_transform_3 (grid1.coords t) b * S1x1024x1024.size b + S1x1024x1024.size b := by
  have hset : (((cfg1 a).win 3).blk t).view.set = (((cfg1 a).win 3).rect t).set :=
    View.set_slice_whole main_v8 (((cfg1 a).win 3).rect t)
  exact (Finset.ext_iff.mp hset i).trans Rect.mem_set_unit

/-- THE OUTPUT ARRAY after the region: the sixteen blocks written back at the last key tiles tile it. -/
theorem arrAt1_3 (c : Dev nD) : (dat1 a V c).arrAt 3 (cfg1 a).N = outArr a V c :=
  (dat1 a V c).arrAt_eq_of_cover 3 (outArr a V c) (flushed3_eq a V c) fun (i : S8x2048x1024.Idx) => by
    have h0 : (i 0).val < 8 := (i 0).isLt
    have h1 : (i 1).val < 2048 := (i 1).isLt
    have h2 : (i 2).val < 1024 := (i 2).isLt
    refine ⟨⟨(i 0).val * 8 + (i 1).val / 1024 * 4 + 3, outPt_lt a i⟩, (flushOut_iff a _).mpr (by show ((i 0).val * 8 + (i 1).val / 1024 * 4 + 3) % 4 = 3; omega), (mem_blk3 a _ i).mpr ?_⟩
    obtain ⟨e0, e1, e2⟩ := idx3_facts ⟨(i 0).val * 8 + (i 1).val / 1024 * 4 + 3, outPt_lt a i⟩
    intro b
    match b with
    | ⟨0, _⟩ =>
      show cc1_transform_3 (grid1.coords _) 0 * 1 ≤ (i 0).val ∧ (i 0).val < cc1_transform_3 (grid1.coords _) 0 * 1 + 1
      rw [e0]; show ((i 0).val * 8 + (i 1).val / 1024 * 4 + 3) / 8 * 1 ≤ (i 0).val ∧ (i 0).val < ((i 0).val * 8 + (i 1).val / 1024 * 4 + 3) / 8 * 1 + 1
      omega
    | ⟨1, _⟩ =>
      show cc1_transform_3 (grid1.coords _) 1 * 1024 ≤ (i 1).val ∧ (i 1).val < cc1_transform_3 (grid1.coords _) 1 * 1024 + 1024
      rw [e1]; show ((i 0).val * 8 + (i 1).val / 1024 * 4 + 3) / 4 % 2 * 1024 ≤ (i 1).val ∧ (i 1).val < ((i 0).val * 8 + (i 1).val / 1024 * 4 + 3) / 4 % 2 * 1024 + 1024
      omega
    | ⟨2, _⟩ =>
      show cc1_transform_3 (grid1.coords _) 2 * 1024 ≤ (i 2).val ∧ (i 2).val < cc1_transform_3 (grid1.coords _) 2 * 1024 + 1024
      rw [e2]; omega

end Cert.KernelIdeal.R1

end
-- ==== Proof.Bridge.lean ====
/-
  The idealized kernel's result array is the specification's one-pass attention.

  Entry (b, s, d) of the output array is entry (s mod 1024, d) of the quotient written after the last key tile of
  query tile s / 1024 of batch b, that is after grid point n = 8 b + 4 (s / 1024) + 3.  Along the four points
  8 b + 4 (s / 1024) + j, j = 0 … 3, the carried state read at row s mod 1024 and column d follows the specification's
  recurrence: at j = 0 the state is reset, so the state entering the point is the initial one; a point whose first
  key position lies below the length folds its tile in by the specification's step, on the tile of the masked
  scores of row s against keys 512 j … 512 j + 511 and the tile of the values' column d; any other point leaves
  the state as it was.  So after point n the row's state is the specification's state after four tiles
  (rowSt_scrAt), and the quotient is the specification's row (arr_eq).
-/
import proofs.«420942_j40209483825490_2_alg».proof.Proof.BridgeTile
import proofs.«420942_j40209483825490_2_alg».proof.Proof.BridgeAux
import proofs.«420942_j40209483825490_2_alg».proof.Proof.Array1
import proofs.«420942_j40209483825490_2_alg».proof.Proof.Array1In
import proofs.«420942_j40209483825490_2_alg».proof.Proof.Dat1
import proofs.«420942_j40209483825490_2_alg».proof.Proof.Body1Spec
import proofs.«420942_j40209483825490_2_alg».proof.Proof.Run
import proofs.«420942_j40209483825490_2_alg».proof.Proof.Spec
import proofs.«420942_j40209483825490_2_alg».proof.Proof.Row1

set_option maxRecDepth 16384

noncomputable section

open scoped BigOperators

namespace Cert.KernelIdeal.Bridge

open Cert.KernelIdeal Cert.KernelIdeal.Gen Cert.KernelIdeal.R0 Cert.KernelIdeal.R1
open Idealize.ShloMosaic Idealize.ShloMosaic.TcCoe Idealize.ShloMosaic.ValueIdx Idealize.SL.Sem

/-! ## One grid point, over abstract blocks -/

/-- The body at a point whose key tile is j: if the state entering it (after the reset at j = 0) reads, at the row,
    as the specification's state after j tiles, and the point's blocks read as the specification's tile j, then the
    state leaving it reads as the specification's state after j + 1 tiles. -/
theorem rowSt_scrNext (i : grid1.Coords) (len : BitVec 32) (q : Vec Ideal S1x1024x1024 .bf16) (k v : Vec Ideal S1x512x1024 .bf16)
    (prev : Scr Ideal) (r d : Fin 1024) (S V : Fin 2048 → EReal) (j : ℕ) (hj : j < 4) (hi : (i 2).val = j)
    (hprev : j ≠ 0 → R1V.rowSt prev r d = Cert.Attn.stateAfter len.toInt S V j)
    (hS : liveW i len → R1V.sTile (BitVec.ofNat 32 j) len q k r = Cert.Attn.tile S ⟨j, hj⟩)
    (hV : liveW i len → (fun j' : Fin 512 => v (ix3 0 j' d)) = Cert.Attn.tile V ⟨j, hj⟩) :
    R1V.rowSt (scrNext i len q k v prev) r d = Cert.Attn.stateAfter len.toInt S V (j + 1) := by
  have hs1 : R1V.rowSt (if firstW i then scrInit else prev) r d = Cert.Attn.stateAfter len.toInt S V j := by
    by_cases hf : firstW i
    · have h0 : j = 0 := by rw [← hi]; exact (firstW_iff i).1 hf
      subst h0
      rw [if_pos hf, R1V.rowSt_init]
      rfl
    · rw [if_neg hf]
      exact hprev (fun h0 => hf ((firstW_iff i).2 (by rw [hi, h0])))
  unfold scrNext
  dsimp only
  rw [Cert.Attn.stateAfter, dif_pos hj]
  by_cases hl : liveW i len
  · have hlive : Cert.Attn.live len.toInt j := by rw [← hi]; exact (liveW_iff i len).1 hl
    rw [if_pos hl, if_pos hlive, R1V.rowSt_step, hs1, hi, hS hl, hV hl]
  · have hnl : ¬ Cert.Attn.live len.toInt j := fun h => hl ((liveW_iff i len).2 (by rw [hi]; exact h))
    rw [if_neg hl, if_neg hnl, hs1]

variable (m : (ℓ : Loc nD τ sig) → Buf (Elt Ideal) ℓ)
variable (a1 : (pcfg1 (F := Ideal)).Adm)

/-! ## The specification's row data, by batch and query row -/

/-- The length of batch b, as an integer. -/
def lenB (c : Dev nD) (b : Fin 8) : ℤ :=
  ((m ((c.tc : Thread nD τ).loc main_arg1) : S8.Idx → BitVec 32) (ValueIdx.ix1 b)).toInt

/-- The masked scores of query row s of batch b. -/
def scB (c : Dev nD) (b : Fin 8) (s : Fin 2048) : Fin 2048 → EReal :=
  Cert.Attn.masked (lenB m c b)
    (Cert.Attn.scoreKer (m ((c.tc : Thread nD τ).loc main_arg0)) (m ((c.tc : Thread nD τ).loc main_arg2)) (m ((c.tc : Thread nD τ).loc main_arg3)) b s)

/-- Column d of the values of batch b. -/
def vB (c : Dev nD) (b : Fin 8) (d : Fin 1024) : Fin 2048 → EReal :=
  fun k => Cert.Attn.proj (m ((c.tc : Thread nD τ).loc main_arg0)) (m ((c.tc : Thread nD τ).loc main_arg4)) b k d

/-! ## One grid point of the run -/

/-- The body at point n, from any state that (unless n starts a row of key tiles) reads as the specification's state
    after n mod 4 tiles. -/
theorem step_at (hpf : ∀ c : Dev nD, (fun k => Run.VB m c (pre1.ref k)) = a1.1) (c : Dev nD) (r d : Fin 1024)
    (n : ℕ) (h : n < (cfg1 a1).N) (prev : Scr Ideal)
    (hprev : n % 4 ≠ 0 → R1V.rowSt prev r d
      = Cert.Attn.stateAfter (lenB m c (⟨n / 8, by have h64 : n < 64 := h; omega⟩ : Fin 8))
          (scB m c (⟨n / 8, by have h64 : n < 64 := h; omega⟩ : Fin 8) (⟨n / 4 % 2 * 1024 + r.val, by have hr : r.val < 1024 := r.isLt; omega⟩ : Fin 2048))
          (vB m c (⟨n / 8, by have h64 : n < 64 := h; omega⟩ : Fin 8) d) (n % 4)) :
    R1V.rowSt (scrNext ((cfg1 a1).grid.coords ⟨n, h⟩) (lenP a1 ⟨n, h⟩) (qAt a1 (Run.VB m) c n h) (kAt a1 (Run.VB m) c n h)
        (vAt a1 (Run.VB m) c n h) prev) r d
      = Cert.Attn.stateAfter (lenB m c (⟨n / 8, by have h64 : n < 64 := h; omega⟩ : Fin 8))
          (scB m c (⟨n / 8, by have h64 : n < 64 := h; omega⟩ : Fin 8) (⟨n / 4 % 2 * 1024 + r.val, by have hr : r.val < 1024 := r.isLt; omega⟩ : Fin 2048))
          (vB m c (⟨n / 8, by have h64 : n < 64 := h; omega⟩ : Fin 8) d) (n % 4 + 1) := by
  obtain ⟨c0, c1, c2⟩ := coords_pt a1 n h
  have e : (lenP a1 ⟨n, h⟩).toInt = lenB m c (⟨n / 8, by have h64 : n < 64 := h; omega⟩ : Fin 8) :=
    congrArg BitVec.toInt (lenP_eq m a1 hpf c n h)
  refine (rowSt_scrNext ((cfg1 a1).grid.coords ⟨n, h⟩) (lenP a1 ⟨n, h⟩) (qAt a1 (Run.VB m) c n h) (kAt a1 (Run.VB m) c n h)
    (vAt a1 (Run.VB m) c n h) prev r d
    (scB m c (⟨n / 8, by have h64 : n < 64 := h; omega⟩ : Fin 8) (⟨n / 4 % 2 * 1024 + r.val, by have hr : r.val < 1024 := r.isLt; omega⟩ : Fin 2048))
    (vB m c (⟨n / 8, by have h64 : n < 64 := h; omega⟩ : Fin 8) d) (n % 4) (by omega) c2
    (fun h0 => (hprev h0).trans (by rw [e])) (fun hl => sTile_eq m a1 hpf c n h hl r) (fun hl => vTile_eq m a1 c n h hl d)).trans ?_
  rw [e]

/-! ## The row's state along the run -/

/-- After point n the carried state, read at row r and column d, is the specification's state after n mod 4 + 1
    tiles of query row (n / 4 mod 2) · 1024 + r of batch n / 8. -/
theorem rowSt_scrAt (hpf : ∀ c : Dev nD, (fun k => Run.VB m c (pre1.ref k)) = a1.1) (c : Dev nD) (r d : Fin 1024)
    (n : ℕ) (h : n < (cfg1 a1).N) :
    R1V.rowSt (scrAt a1 (Run.VB m) c n h) r d
      = Cert.Attn.stateAfter (lenB m c (⟨n / 8, by have h64 : n < 64 := h; omega⟩ : Fin 8))
          (scB m c (⟨n / 8, by have h64 : n < 64 := h; omega⟩ : Fin 8) (⟨n / 4 % 2 * 1024 + r.val, by have hr : r.val < 1024 := r.isLt; omega⟩ : Fin 2048))
          (vB m c (⟨n / 8, by have h64 : n < 64 := h; omega⟩ : Fin 8) d) (n % 4 + 1) := by
  induction n with
  | zero =>
    rw [scrAt]
    exact step_at m a1 hpf c r d 0 h scrInit (fun h0 => absurd rfl h0)
  | succ n' ih =>
    rw [scrAt]
    refine step_at m a1 hpf c r d (n' + 1) h _ (fun h0 => ?_)
    have h64 : n' + 1 < 64 := h
    have hr : r.val < 1024 := r.isLt
    have eb : (⟨n' / 8, by omega⟩ : Fin 8) = ⟨(n' + 1) / 8, by omega⟩ := Fin.ext (by show n' / 8 = (n' + 1) / 8; omega)
    have es : (⟨n' / 4 % 2 * 1024 + r.val, by omega⟩ : Fin 2048) = ⟨(n' + 1) / 4 % 2 * 1024 + r.val, by omega⟩ :=
      Fin.ext (by show n' / 4 % 2 * 1024 + r.val = (n' + 1) / 4 % 2 * 1024 + r.val; omega)
    have e4 : n' % 4 + 1 = (n' + 1) % 4 := by omega
    refine (ih (Nat.lt_of_succ_lt h)).trans ?_
    rw [eb, es, e4]

/-! ## The output array -/

/-- The array the attention region leaves is the specification's one-pass attention of the five arguments. -/
theorem arr_eq (hpf : ∀ c : Dev nD, (fun k => Run.VB m c (pre1.ref k)) = a1.1) (c : Dev nD) :
    (dat1 a1 (Run.VB m) c).arrAt 3 (cfg1 a1).N
      = Cert.Attn.attnKer (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [arrAt1_3]
  funext i
  obtain ⟨b, s, d, rfl⟩ : ∃ (b : Fin 8) (s : Fin 2048) (d : Fin 1024), i = ix3 b s d := ⟨i 0, i 1, i 2, eq_ix3 i⟩
  have hb : b.val < 8 := b.isLt
  have hs : s.val < 2048 := s.isLt
  have hlt : b.val * 8 + s.val / 1024 * 4 + 3 < (cfg1 a1).N := by rw [N1]; omega
  rw [outArr_apply a1 (Run.VB m) c (ix3 b s d) (b.val * 8 + s.val / 1024 * 4 + 3) hlt
    (ix3 (0 : Fin 1) (⟨s.val % 1024, Nat.mod_lt _ (by decide)⟩ : Fin 1024) d) rfl rfl rfl]
  rw [R1V.outFin_apply]
  have inv := rowSt_scrAt m a1 hpf c (⟨s.val % 1024, Nat.mod_lt _ (by decide)⟩ : Fin 1024) d (b.val * 8 + s.val / 1024 * 4 + 3) hlt
  have e4 : (b.val * 8 + s.val / 1024 * 4 + 3) % 4 + 1 = 4 := by omega
  have eb : (⟨(b.val * 8 + s.val / 1024 * 4 + 3) / 8, by omega⟩ : Fin 8) = b := Fin.ext (by show (b.val * 8 + s.val / 1024 * 4 + 3) / 8 = b.val; omega)
  have es : (⟨(b.val * 8 + s.val / 1024 * 4 + 3) / 4 % 2 * 1024 + s.val % 1024, by omega⟩ : Fin 2048) = s :=
    Fin.ext (by show (b.val * 8 + s.val / 1024 * 4 + 3) / 4 % 2 * 1024 + s.val % 1024 = s.val; omega)
  rw [e4, eb, es] at inv
  show Ideal.div (R1V.rowSt (scrAt a1 (Run.VB m) c (b.val * 8 + s.val / 1024 * 4 + 3) hlt) (⟨s.val % 1024, Nat.mod_lt _ (by decide)⟩ : Fin 1024) d).2.2
    (max (R1V.rowSt (scrAt a1 (Run.VB m) c (b.val * 8 + s.val / 1024 * 4 + 3) hlt) (⟨s.val % 1024, Nat.mod_lt _ (by decide)⟩ : Fin 1024) d).2.1 Cert.Attn.eps) = _
  rw [inv]
  rfl

end Cert.KernelIdeal.Bridge

end
-- ==== Proof.lean ====
/-
  The certificate's five conjuncts.

  Both kernel programs run to the end, fault nowhere and leave their arguments unchanged (the hand-written frame over the
  two regions: Run, Frames), under the precondition that every float input is finite and every sequence length is at
  least 1 — the length indexes the key/value blocks, and a row with no real key has no softmax.  The reference's frame is
  its run with the result dropped.  The idealization's ledger has two named constants: the mask fill is −∞ and the guard
  under the final quotient is 10⁻³⁰.  At the ideal instance the kernel's result array is the one-pass softmax-weighted sum
  over four key tiles (Bridge), the reference's the two-pass one (RefValue), and the two agree on every row with a real
  key (Online): rescaling the running sums by exp (m_old − m_new) at each tile gives the sums taken at the final maximum.
-/
import proofs.«420942_j40209483825490_2_alg».proof.Defs
import proofs.«420942_j40209483825490_2_alg».proof.Proof.Gen.Kernel
import proofs.«420942_j40209483825490_2_alg».proof.Proof.Gen.KernelIdeal
import proofs.«420942_j40209483825490_2_alg».proof.Proof.Gen.ReferenceIdeal
import proofs.«420942_j40209483825490_2_alg».proof.Proof.Gen.Pre_finite_inputs
import proofs.«420942_j40209483825490_2_alg».proof.Proof.Gen.ReferenceIdeal.Run
import proofs.«420942_j40209483825490_2_alg».proof.Proof.Gen.ReferenceIdeal.Read
import proofs.«420942_j40209483825490_2_alg».proof.Proof.FramesI
import proofs.«420942_j40209483825490_2_alg».proof.Proof.FramesB
import proofs.«420942_j40209483825490_2_alg».proof.Proof.PreDecode
import proofs.«420942_j40209483825490_2_alg».proof.Proof.Online
import proofs.«420942_j40209483825490_2_alg».proof.Proof.RefValue
import proofs.«420942_j40209483825490_2_alg».proof.Proof.Bridge
import Idealize.ShloMosaic.Adequacy
import Idealize.ShloMosaic.Init

noncomputable section

namespace Cert.Proof

open Idealize.ShloMosaic Idealize.SL.Sem

/-- The reference has no kernel: its frame is its run with the result dropped. -/
theorem frame_ReferenceIdeal' : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The ledger's two entries: the mask fill denotes −∞ and the quotient's guard denotes 10⁻³⁰, by the certificate's table. -/
theorem preserves' : Cert.preserves_Kernel_KernelIdeal :=
  ⟨IdealRules.named_const.statement Cert.KernelIdeal.κ "neg_big" .f32 0xFF333332#32 ⊥ rfl,
   IdealRules.named_const.statement Cert.KernelIdeal.κ "inv_1000000000000000000000000000000" .f32 0x0DA24260#32 ((1 / 1000000000000000000000000000000 : ℝ) : EReal) rfl⟩

/-- Both idealized programs end with the same attention output: the kernel's array is the one-pass form, the
    reference's the two-pass form, and on finite inputs with every length at least 1 the two are one function. -/
theorem algebraic' : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Attn.attnRef (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)), ?_, ?_⟩
  · refine (θ_run (Cert.KernelIdeal.defs (F := Ideal)) _ _).mono (fun r h c => ⟨(h c).1.trans ?_, (h c).2⟩) (Cert.KernelIdeal.Run.run_value m ρ hpre)
    rw [Cert.KernelIdeal.Bridge.arr_eq m _ (Cert.KernelIdeal.Run.hpf_of m _) c]
    obtain ⟨hx, hq, hk, hv⟩ := Cert.PreDec.inputs_real _ _ _ _ _ (hpre c)
    exact Cert.Attn.attnKer_eq_attnRef _ _ _ _ _ hx hq hk hv (Cert.PreDec.lens_ge_one _ _ _ _ _ (hpre c))
  · refine (θ_run (Cert.ReferenceIdeal.defs (F := Ideal)) _ _).mono (fun r h c => ⟨(h c).1.trans ?_, (h c).2⟩) (Cert.ReferenceIdeal.Value.run (F := Ideal) m' ρ')
    rw [show Cert.ReferenceIdeal.Value.res_main_v26 m' c = Cert.ReferenceIdeal.Value.res_out0 m' c from rfl, Cert.ReferenceIdeal.RefValue.res_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_Kernel', frame_KernelIdeal', frame_ReferenceIdeal', preserves', algebraic'⟩

end Cert.Proof

end
